-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v240)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S8 : Shape := ⟨1, ![8]⟩
abbrev S5x128x128 : Shape := ⟨3, ![5, 128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8 : S_.BroadcastsInDim S8 (![] : Fin 0 → Fin S8.rank)
  reducesTo_S8_S_d0 : S8.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S5x128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S5x128x128 .f32 := Host.absf main_arg6
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S8 .f32) (main_arg4 : FVec F S5x128x128 .f32) (main_arg5 : FVec F S128 .f32) (main_arg6 : FVec F S5x128x128 .f32) (main_arg7 : FVec F S128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8 .f32 := Host.absf main_arg3
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S5x128x128 .f32 := Host.absf main_arg4
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S8 : Shape := ⟨1, ![8]⟩
abbrev S5x128x128 : Shape := ⟨3, ![5, 128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x50000x128 : Shape := ⟨3, ![1, 50000, 128]⟩
abbrev S5x50000x128 : Shape := ⟨3, ![5, 50000, 128]⟩
abbrev S1x1000x128 : Shape := ⟨3, ![1, 1000, 128]⟩
abbrev S1x128x128 : Shape := ⟨3, ![1, 128, 128]⟩
abbrev S1000x128 : Shape := ⟨2, ![1000, 128]⟩
abbrev S128x128 : Shape := ⟨2, ![128, 128]⟩
abbrev S1x128 : Shape := ⟨2, ![1, 128]⟩
abbrev S8x128 : Shape := ⟨2, ![8, 128]⟩
abbrev S8x1 : Shape := ⟨2, ![8, 1]⟩
abbrev S8x10 : Shape := ⟨2, ![8, 10]⟩
abbrev S1x10 : Shape := ⟨2, ![1, 10]⟩

abbrev nBuf : Space → Nat
  | .hbm => 309
  | .vmem => 14
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S8, .f32⟩
  | 4 => ⟨S5x128x128, .f32⟩
  | 5 => ⟨S128, .f32⟩
  | 6 => ⟨S5x128x128, .f32⟩
  | 7 => ⟨S128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .f32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S800000, .f32⟩
  | 71 => ⟨S800000, .f32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .f32⟩
  | 87 => ⟨S50000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x1, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x1, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S1x50000x128, .f32⟩
  | 49 => ⟨S1x50000x128, .f32⟩
  | 50 => ⟨S1x50000x128, .f32⟩
  | 51 => ⟨S1x50000x128, .f32⟩
  | 52 => ⟨S1x50000x128, .f32⟩
  | 53 => ⟨S5x50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x128, .f32⟩
  | 78 => ⟨S50000x128, .f32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x1, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S_, .i32⟩
  | 127 => ⟨S800000, .i32⟩
  | _ => ⟨S50000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S800000x1, .f32⟩
  | 8 => ⟨S800000x128, .f32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S1x50000x128, .f32⟩
  | 22 => ⟨S1x50000x128, .f32⟩
  | 23 => ⟨S1x50000x128, .f32⟩
  | 24 => ⟨S1x50000x128, .f32⟩
  | 25 => ⟨S1x50000x128, .f32⟩
  | 26 => ⟨S5x50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .f32⟩
  | 35 => ⟨S8x128, .f32⟩
  | 36 => ⟨S50000x1, .i32⟩
  | 37 => ⟨S8x128, .f32⟩
  | 38 => ⟨S_, .f32⟩
  | 39 => ⟨S50000x1, .f32⟩
  | 40 => ⟨S_, .f32⟩
  | 41 => ⟨S8x1, .f32⟩
  | 42 => ⟨S50000x1, .i32⟩
  | 43 => ⟨S8x1, .f32⟩
  | 44 => ⟨S_, .f32⟩
  | 45 => ⟨S8x1, .f32⟩
  | 46 => ⟨S8x1, .f32⟩
  | 47 => ⟨S8x128, .f32⟩
  | 48 => ⟨S8x128, .f32⟩
  | 49 => ⟨S8x10, .f32⟩
  | 50 => ⟨S1x10, .f32⟩
  | 51 => ⟨S8x10, .f32⟩
  | 52 => ⟨S8x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S1x1000x128, .f32⟩
  | .local _ .vmem, ⟨1, _⟩ => ⟨S1x1000x128, .f32⟩
  | .local _ .vmem, ⟨2, _⟩ => ⟨S1x128x128, .f32⟩
  | .local _ .vmem, ⟨3, _⟩ => ⟨S1x128x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x1000x128, .f32⟩
  | .local _ .vmem, ⟨8, _⟩ => ⟨S1x1000x128, .f32⟩
  | .local _ .vmem, ⟨9, _⟩ => ⟨S1x128x128, .f32⟩
  | .local _ .vmem, ⟨10, _⟩ => ⟨S1x128x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_16 : Ref sig .tc := ⟨.hbm, 88, rfl⟩
abbrev main_v58 : Ref sig .tc := ⟨.hbm, 89, rfl⟩
abbrev main_v59 : Ref sig .tc := ⟨.hbm, 90, rfl⟩
abbrev main_c_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_22 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_23 : Ref sig .tc := ⟨.hbm, 130, rfl⟩
abbrev main_v93 : Ref sig .tc := ⟨.hbm, 131, rfl⟩
abbrev main_v94 : Ref sig .tc := ⟨.hbm, 132, rfl⟩
abbrev main_c_24 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_25 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_27 : Ref sig .tc := ⟨.hbm, 153, rfl⟩
abbrev main_v112 : Ref sig .tc := ⟨.hbm, 154, rfl⟩
abbrev main_v113 : Ref sig .tc := ⟨.hbm, 155, rfl⟩
abbrev main_c_28 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_29 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_30 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_call1_cst : Ref sig .tc := ⟨.hbm, 186, rfl⟩
abbrev main_call1_v0 : Ref sig .tc := ⟨.hbm, 187, rfl⟩
abbrev main_v141 : Ref sig .tc := ⟨.hbm, 188, rfl⟩
abbrev main_c_31 : Ref sig .tc := ⟨.hbm, 189, rfl⟩
abbrev main_v142 : Ref sig .tc := ⟨.hbm, 190, rfl⟩
abbrev main_v143 : Ref sig .tc := ⟨.hbm, 191, rfl⟩
abbrev main_c_32 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_33 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_34 : Ref sig .tc := ⟨.hbm, 208, rfl⟩
abbrev main_v158 : Ref sig .tc := ⟨.hbm, 209, rfl⟩
abbrev main_v159 : Ref sig .tc := ⟨.hbm, 210, rfl⟩
abbrev main_c_35 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_36 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_37 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_38 : Ref sig .tc := ⟨.hbm, 231, rfl⟩
abbrev main_v177 : Ref sig .tc := ⟨.hbm, 232, rfl⟩
abbrev main_v178 : Ref sig .tc := ⟨.hbm, 233, rfl⟩
abbrev main_c_39 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_cst_40 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_41 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_c_42 : Ref sig .tc := ⟨.hbm, 254, rfl⟩
abbrev main_v196 : Ref sig .tc := ⟨.hbm, 255, rfl⟩
abbrev main_v197 : Ref sig .tc := ⟨.hbm, 256, rfl⟩
abbrev main_c_43 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_cst_44 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst_45 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_call2_cst : Ref sig .tc := ⟨.hbm, 287, rfl⟩
abbrev main_call2_v0 : Ref sig .tc := ⟨.hbm, 288, rfl⟩
abbrev main_v225 : Ref sig .tc := ⟨.hbm, 289, rfl⟩
abbrev main_cst_46 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_cst_47 : Ref sig .tc := ⟨.hbm, 294, rfl⟩
abbrev main_v229 : Ref sig .tc := ⟨.hbm, 295, rfl⟩
abbrev main_cst_48 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_cst_49 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![50, 5], ![false, false]⟩

def k0_cond2 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 5], ![false, false]⟩

def k1_cond2 (i : grid1.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S50000_S50000x1 : S50000.ShapeCasts S50000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S5x50000x128_d0 : Shape.Concatenates [S1x50000x128, S1x50000x128, S1x50000x128, S1x50000x128, S1x50000x128] S5x50000x128 0
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8x128 : S_.BroadcastsInDim S8x128 (![] : Fin 0 → Fin S8x128.rank)
  bcast_S_S50000x1 : S_.BroadcastsInDim S50000x1 (![] : Fin 0 → Fin S50000x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S8_S800000x1_S800000_n_0_n_n_0_1_1_wf : GatherDims.WF S8 S800000x1 S800000 [] [0] [] [0] [] 1 ![1]
  gather_S8_S50000x1_S50000_n_0_n_n_0_1_1_wf : GatherDims.WF S8 S50000x1 S50000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  scatter_S8x128_S50000x1_S50000x128_1_0_0_1_wf : ScatterDims.WF S8x128 S50000x1 S50000x128 [1] [0] [0] 1
  scatter_S8x1_S50000x1_S50000x1_1_0_0_1_wf : ScatterDims.WF S8x1 S50000x1 S50000x1 [1] [0] [0] 1
  dot_S8x128_S128x10_S8x10_1_0_0_1_n_n_wf : DotDims.WF S8x128 S128x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x128.size a ≤ S5x50000x128.size a
  hwx0_0 : ∀ i : grid0.Coords, EltTy.bits .f32 = 32 ∨ (Rect.block (s := S5x50000x128) S1x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S5x128x128.size a
  hwx0_1 : ∀ i : grid0.Coords, EltTy.bits .f32 = 32 ∨ (Rect.block (s := S5x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x128.size a ≤ S5x50000x128.size a
  hwx1_0 : ∀ i : grid1.Coords, EltTy.bits .f32 = 32 ∨ (Rect.block (s := S5x50000x128) S1x1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S5x128x128.size a
  hwx1_1 : ∀ i : grid1.Coords, EltTy.bits .f32 = 32 ∨ (Rect.block (s := S5x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S8_S800000x1_S800000_n_0_n_n_0_1_1 : GatherDims S8 S800000x1 S800000 where
  offsetDims := []
  collapsedSliceDims := [0]
  operandBatchingDims := []
  startIndicesBatchingDims := []
  startIndexMap := [0]
  indexVectorDim := 1
  sliceSizes := ![1]
  wf := gather_S8_S800000x1_S800000_n_0_n_n_0_1_1_wf
def gather_S8_S50000x1_S50000_n_0_n_n_0_1_1 : GatherDims S8 S50000x1 S50000 where
  offsetDims := []
  collapsedSliceDims := [0]
  operandBatchingDims := []
  startIndicesBatchingDims := []
  startIndexMap := [0]
  indexVectorDim := 1
  sliceSizes := ![1]
  wf := gather_S8_S50000x1_S50000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def scatter_S8x1_S50000x1_S50000x1_1_0_0_1 : ScatterDims S8x1 S50000x1 S50000x1 where
  updateWindowDims := [1]
  insertedWindowDims := [0]
  scatterDimsToOperandDims := [0]
  indexVectorDim := 1
  wf := scatter_S8x1_S50000x1_S50000x1_1_0_0_1_wf
def dot_S8x128_S128x10_S8x10_1_0_0_1_n_n : DotDims S8x128 S128x10 S8x10 where
  lhsContracting := [1]
  rhsContracting := [0]
  lhsNonContracting := [0]
  rhsNonContracting := [1]
  lhsBatch := []
  rhsBatch := []
  wf := dot_S8x128_S128x10_S8x10_1_0_0_1_n_n_wf

abbrev win0_0 : Pipeline.Window sig grid0 :=
  Pipeline.Window.ofSpec (Memref.whole main_v136) S1x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v137) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v220) S1x1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v221) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S8 : Shape := ⟨1, ![8]⟩
abbrev S5x128x128 : Shape := ⟨3, ![5, 128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S8x128 : Shape := ⟨2, ![8, 128]⟩
abbrev S8x1 : Shape := ⟨2, ![8, 1]⟩
abbrev S8x10 : Shape := ⟨2, ![8, 10]⟩
abbrev S1x10 : Shape := ⟨2, ![1, 10]⟩

abbrev nBuf : Space → Nat
  | .hbm => 340
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S8, .f32⟩
  | 4 => ⟨S5x128x128, .f32⟩
  | 5 => ⟨S128, .f32⟩
  | 6 => ⟨S5x128x128, .f32⟩
  | 7 => ⟨S128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .f32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S800000, .f32⟩
  | 71 => ⟨S800000, .f32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .f32⟩
  | 87 => ⟨S1x128x128, .f32⟩
  | 88 => ⟨S128x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x1, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x1, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x1, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x1, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x1, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x1, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x1, .f32⟩
  | 96 => ⟨S50000x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x1, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128x128, .f32⟩
  | _ => ⟨S50000x128, .f32⟩

abbrev hbmTy0_2 (i : Nat) : BufTy := match i % 128 with
  | 0 => ⟨S128x128, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000x1, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x1, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S8x128, .f32⟩
  | 67 => ⟨S50000x1, .i32⟩
  | 68 => ⟨S8x128, .f32⟩
  | 69 => ⟨S_, .f32⟩
  | 70 => ⟨S50000x1, .f32⟩
  | 71 => ⟨S_, .f32⟩
  | 72 => ⟨S8x1, .f32⟩
  | 73 => ⟨S50000x1, .i32⟩
  | 74 => ⟨S8x1, .f32⟩
  | 75 => ⟨S_, .f32⟩
  | 76 => ⟨S8x1, .f32⟩
  | 77 => ⟨S8x1, .f32⟩
  | 78 => ⟨S8x128, .f32⟩
  | 79 => ⟨S8x128, .f32⟩
  | 80 => ⟨S8x10, .f32⟩
  | 81 => ⟨S1x10, .f32⟩
  | 82 => ⟨S8x10, .f32⟩
  | 83 => ⟨S8x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_23 : Ref sig .tc := ⟨.hbm, 142, rfl⟩
abbrev main_v105 : Ref sig .tc := ⟨.hbm, 143, rfl⟩
abbrev main_v106 : Ref sig .tc := ⟨.hbm, 144, rfl⟩
abbrev main_c_24 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_25 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_27 : Ref sig .tc := ⟨.hbm, 170, rfl⟩
abbrev main_v129 : Ref sig .tc := ⟨.hbm, 171, rfl⟩
abbrev main_v130 : Ref sig .tc := ⟨.hbm, 172, rfl⟩
abbrev main_c_28 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_29 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_30 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_call1_cst : Ref sig .tc := ⟨.hbm, 201, rfl⟩
abbrev main_call1_v0 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_c_31 : Ref sig .tc := ⟨.hbm, 207, rfl⟩
abbrev main_v160 : Ref sig .tc := ⟨.hbm, 208, rfl⟩
abbrev main_v161 : Ref sig .tc := ⟨.hbm, 209, rfl⟩
abbrev main_c_32 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_33 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_c_34 : Ref sig .tc := ⟨.hbm, 231, rfl⟩
abbrev main_v181 : Ref sig .tc := ⟨.hbm, 232, rfl⟩
abbrev main_v182 : Ref sig .tc := ⟨.hbm, 233, rfl⟩
abbrev main_c_35 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_36 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_37 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_c_38 : Ref sig .tc := ⟨.hbm, 259, rfl⟩
abbrev main_v205 : Ref sig .tc := ⟨.hbm, 260, rfl⟩
abbrev main_v206 : Ref sig .tc := ⟨.hbm, 261, rfl⟩
abbrev main_c_39 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_cst_40 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_cst_41 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_c_42 : Ref sig .tc := ⟨.hbm, 287, rfl⟩
abbrev main_v229 : Ref sig .tc := ⟨.hbm, 288, rfl⟩
abbrev main_v230 : Ref sig .tc := ⟨.hbm, 289, rfl⟩
abbrev main_c_43 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_cst_44 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_cst_45 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_call2_cst : Ref sig .tc := ⟨.hbm, 318, rfl⟩
abbrev main_call2_v0 : Ref sig .tc := ⟨.hbm, 319, rfl⟩
abbrev main_v256 : Ref sig .tc := ⟨.hbm, 320, rfl⟩
abbrev main_cst_46 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_47 : Ref sig .tc := ⟨.hbm, 325, rfl⟩
abbrev main_v260 : Ref sig .tc := ⟨.hbm, 326, rfl⟩
abbrev main_cst_48 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_cst_49 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S5x128x128_S1x128x128_0_0_0 : S5x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8x128 : S_.BroadcastsInDim S8x128 (![] : Fin 0 → Fin S8x128.rank)
  bcast_S_S50000x1 : S_.BroadcastsInDim S50000x1 (![] : Fin 0 → Fin S50000x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S8_S800000x1_S800000_n_0_n_n_0_1_1_wf : GatherDims.WF S8 S800000x1 S800000 [] [0] [] [0] [] 1 ![1]
  gather_S8_S50000x1_S50000_n_0_n_n_0_1_1_wf : GatherDims.WF S8 S50000x1 S50000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S8x128_S50000x1_S50000x128_1_0_0_1_wf : ScatterDims.WF S8x128 S50000x1 S50000x128 [1] [0] [0] 1
  scatter_S8x1_S50000x1_S50000x1_1_0_0_1_wf : ScatterDims.WF S8x1 S50000x1 S50000x1 [1] [0] [0] 1
  dot_S8x128_S128x10_S8x10_1_0_0_1_n_n_wf : DotDims.WF S8x128 S128x10 S8x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S8_S800000x1_S800000_n_0_n_n_0_1_1 : GatherDims S8 S800000x1 S800000 where
  offsetDims := []
  collapsedSliceDims := [0]
  operandBatchingDims := []
  startIndicesBatchingDims := []
  startIndexMap := [0]
  indexVectorDim := 1
  sliceSizes := ![1]
  wf := gather_S8_S800000x1_S800000_n_0_n_n_0_1_1_wf
def gather_S8_S50000x1_S50000_n_0_n_n_0_1_1 : GatherDims S8 S50000x1 S50000 where
  offsetDims := []
  collapsedSliceDims := [0]
  operandBatchingDims := []
  startIndicesBatchingDims := []
  startIndexMap := [0]
  indexVectorDim := 1
  sliceSizes := ![1]
  wf := gather_S8_S50000x1_S50000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def scatter_S8x1_S50000x1_S50000x1_1_0_0_1 : ScatterDims S8x1 S50000x1 S50000x1 where
  updateWindowDims := [1]
  insertedWindowDims := [0]
  scatterDimsToOperandDims := [0]
  indexVectorDim := 1
  wf := scatter_S8x1_S50000x1_S50000x1_1_0_0_1_wf
def dot_S8x128_S128x10_S8x10_1_0_0_1_n_n : DotDims S8x128 S128x10 S8x10 where
  lhsContracting := [1]
  rhsContracting := [0]
  lhsNonContracting := [0]
  rhsNonContracting := [1]
  lhsBatch := []
  rhsBatch := []
  wf := dot_S8x128_S128x10_S8x10_1_0_0_1_n_n_wf

class Facts : Prop extends Facts₀ where

variable [Facts]
-- ==== Proof.KDat0.lean ====
/-
  Region 0 (the first channel-mixing kernel): the quantities its frame and its value are stated over, at a parameter
  `V`, the TensorCore's buffer contents when the region is entered. A grid point t = 5·i + k handles row block i and
  Chebyshev term k. `iblk0` is a window's block at a point; `acc0` is what the accumulator scratch holds after point t:
  the block product of the point's two input blocks added onto zero when k = 0 and onto what the point before left
  otherwise; `rest0` is the other scoped buffers, which the kernel never touches; `PhiS0` is the invariant between points
  (before the first point every scoped buffer at anything, afterwards the scratch at `acc0` of the point before);
  `dat0` is the pipeline's proof data: after the body each input's staging buffer holds its block and the output's holds
  the accumulator (it is written back, and so read, only at the points with k = 4).
-/
import proofs.«402212_j24189255811803_4_alg».proof.Proof.Gen.KernelIdeal.Launch
import proofs.«402212_j24189255811803_4_alg».proof.Proof.Gen.KernelIdeal.Skeleton
import proofs.«402212_j24189255811803_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`. -/
def acc0 (c : Dev nD) : (n : ℕ) → n < cfg0.N → Vec F S1000x128 .f32
  | 0, hn => k0_pay2 (iblk0 V c 0 ⟨0, hn⟩) (iblk0 V c 1 ⟨0, hn⟩) (k0_pay1 (F := F))
  | n + 1, hn =>
    if (n + 1) % 5 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with k = 0 the accumulator restarts from zero. -/
theorem acc0_reset (c : Dev nD) (t : Fin cfg0.N) (h : t.val % 5 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other point it adds onto what the point before left. -/
theorem acc0_step (c : Dev nD) (t : Fin cfg0.N) (h : ¬t.val % 5 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, as a memref. -/
abbrev scM0_0 : Memref sig .tc .vmem S1000x128 .f32 := Memref.whole cc0_scratch0

/-- The scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off: the scratch at some contents, the other scoped buffers, the generator
    register at some state. -/
theorem PhiA0_eq (c : Dev nD) :
    (Pipeline.ΦA spec0 c : sProp 𝕄)
      = iprop(((∃ d, owns (c : Thread nD τ) scM0_0 fullShare d) ∗ rest0 (F := F) c) ∗ (∃ r, prngReg c r)) := by
  unfold Pipeline.ΦA; rw [scopedRest0_eq]; simp only [scM0_0, owns_whole, rest0]; try rfl

/-- The same as two entailments (the form the body's proof uses). -/
theorem PhiA0_split (c : Dev nD) :
    (Pipeline.ΦA spec0 c : sProp 𝕄)
      ⊢ iprop(((∃ d, owns (c : Thread nD τ) scM0_0 fullShare d) ∗ rest0 (F := F) c) ∗ (∃ r, prngReg c r)) := by
  rw [PhiA0_eq]
theorem PhiA0_join (c : Dev nD) :
    iprop(((∃ d, owns (c : Thread nD τ) scM0_0 fullShare d) ∗ rest0 (F := F) c) ∗ (∃ r, prngReg c r))
      ⊢ (Pipeline.ΦA spec0 c : sProp 𝕄) := by
  rw [PhiA0_eq]

/-- The region invariant before position `n`: before the first point the class's; afterwards the scratch at what the point
    before left, the other scoped buffers, the generator register. -/
def PhiS0 (c : Dev nD) : (n : ℕ) → n ≤ cfg0.N → sProp 𝕄
  | 0, _ => Pipeline.ΦA spec0 c
  | n + 1, hn => iprop((owns (c : Thread nD τ) scM0_0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega)) ∗ rest0 (F := F) c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_join c)
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi0_out V c _ (by rw [Fin.val_last]; have : cfg0.N = 250 := N_0; omega)

end Cert.KernelIdeal.Hand

end
-- ==== Proof.KDat1.lean ====
/-
  Region 1 (the second channel-mixing kernel): the quantities its frame and its value are stated over, at a parameter
  `V`, the TensorCore's buffer contents when the region is entered. A grid point t = 5·i + k handles row block i and
  Chebyshev term k. `iblk1` is a window's block at a point; `acc1` is what the accumulator scratch holds after point t:
  the block product of the point's two input blocks added onto zero when k = 0 and onto what the point before left
  otherwise; `rest1` is the other scoped buffers, which the kernel never touches; `PhiS1` is the invariant between points
  (before the first point every scoped buffer at anything, afterwards the scratch at `acc1` of the point before);
  `dat1` is the pipeline's proof data: after the body each input's staging buffer holds its block and the output's holds
  the accumulator (it is written back, and so read, only at the points with k = 4).
-/
import proofs.«402212_j24189255811803_4_alg».proof.Proof.Gen.KernelIdeal.Launch
import proofs.«402212_j24189255811803_4_alg».proof.Proof.Gen.KernelIdeal.Skeleton
import proofs.«402212_j24189255811803_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`. -/
def acc1 (c : Dev nD) : (n : ℕ) → n < cfg1.N → Vec F S1000x128 .f32
  | 0, hn => k1_pay2 (iblk1 V c 0 ⟨0, hn⟩) (iblk1 V c 1 ⟨0, hn⟩) (k1_pay1 (F := F))
  | n + 1, hn =>
    if (n + 1) % 5 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point with k = 0 the accumulator restarts from zero. -/
theorem acc1_reset (c : Dev nD) (t : Fin cfg1.N) (h : t.val % 5 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other point it adds onto what the point before left. -/
theorem acc1_step (c : Dev nD) (t : Fin cfg1.N) (h : ¬t.val % 5 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, as a memref. -/
abbrev scM1_0 : Memref sig .tc .vmem S1000x128 .f32 := Memref.whole cc1_scratch0

/-- The scoped buffers that are neither a staging buffer of this region nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch split off: the scratch at some contents, the other scoped buffers, the generator
    register at some state (this region's scratch is the last of the scoped buffers the class invariant lists). -/
theorem PhiA1_split (c : Dev nD) :
    (Pipeline.ΦA spec1 c : sProp 𝕄)
      ⊢ iprop(((∃ d, owns (c : Thread nD τ) scM1_0 fullShare d) ∗ rest1 (F := F) c) ∗ (∃ r, prngReg c r)) := by
  unfold Pipeline.ΦA; rw [scopedRest1_eq]; simp only [scM1_0, owns_whole, rest1]
  iintro ⟨⟨H1, H2, H3, H4, H5, H6, H7, HS⟩, Hg⟩
  isplitr [Hg]
  · isplitl [HS]
    · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop(((∃ d, owns (c : Thread nD τ) scM1_0 fullShare d) ∗ rest1 (F := F) c) ∗ (∃ r, prngReg c r))
      ⊢ (Pipeline.ΦA spec1 c : sProp 𝕄) := by
  unfold Pipeline.ΦA; rw [scopedRest1_eq]; simp only [scM1_0, owns_whole, rest1]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The region invariant before position `n`: before the first point the class's; afterwards the scratch at what the point
    before left, the other scoped buffers, the generator register. -/
def PhiS1 (c : Dev nD) : (n : ℕ) → n ≤ cfg1.N → sProp 𝕄
  | 0, _ => Pipeline.ΦA spec1 c
  | n + 1, hn => iprop((owns (c : Thread nD τ) scM1_0 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop((owns (c : Thread nD τ) scM1_0 fullShare (acc1 V c (n - 1) (by omega)) ∗ rest1 (F := F) c) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi1_out V c _ (by rw [Fin.val_last]; have : cfg1.N = 250 := N_1; omega)

end Cert.KernelIdeal.Hand

end
-- ==== Proof.KKeep.lean ====
/-
  No host operation of the kernel program writes one of the ten arguments: for each of the nine stretches of host
  operations, the list of the references its operations write, the fact that every operation writes inside that list, and
  from it that a reference outside the list — an argument in particular — holds after the stretch what it held before.
-/
import proofs.«402212_j24189255811803_4_alg».proof.Proof.Gen.KernelIdeal.Launch
import Idealize.ShloMosaic.Lib.StableHlo.Run

set_option maxRecDepth 3012

noncomputable section

namespace Cert.KernelIdeal.Hand

open Cert.KernelIdeal Cert.KernelIdeal.Gen Idealize.ShloMosaic Idealize.ShloMosaic.StableHlo

variable {F : FTy → Type} [FloatOps F]

/-- The ten arguments of @main. -/
abbrev argRef : Fin 10 → Ref sig .tc :=
  ![main_arg0, main_arg1, main_arg2, main_arg3, main_arg4, main_arg5, main_arg6, main_arg7, main_arg8, main_arg9]

/-- The references written by the first stretch of @main (`hostOps0`), in order. -/
abbrev hostOps0_W : List (Ref sig .tc) :=
  [main_v0, main_v1, main_v2, main_v3, main_cst, main_v4, main_cst_0, main_v5, main_v6, main_v7, main_cst_1, main_v8, main_v9, main_cst_2, main_v10,
   main_v11, main_v12, main_cst_3]
/-- Every operation of `hostOps0` writes a reference of the list. -/
theorem hostOps0_writes :
    (hostOps0 : List (HloOp τ sig (Elt F))).Forall fun op => op.writes ⊆ (hostOps0_W.map (Proc.devRef (τ := τ) .tc)).toFinset := by
  simp only [hostOps0, List.Forall, nullary_writes, unary_writes, binary_writes, ternary_writes, reshape_writes, nary_writes, Finset.singleton_subset_iff, List.mem_toFinset]
  repeat' apply And.intro
  all_goals exact List.mem_map_of_mem (by decide)
/-- A reference `hostOps0` does not write keeps its contents. -/
theorem keepW_hostOps0 (V : Valuation τ sig (Elt F)) (r : Ref sig .tc) (h : r ∉ hostOps0_W) :
    after hostOps0 V (Proc.devRef .tc r) = V (Proc.devRef .tc r) :=
  after_of_writes_sub hostOps0 V hostOps0_writes h
/-- No argument is written by `hostOps0`. -/
theorem keep_hostOps0 (V : Valuation τ sig (Elt F)) (j : Fin 10) :
    after hostOps0 V (Proc.devRef .tc (argRef j)) = V (Proc.devRef .tc (argRef j)) :=
  keepW_hostOps0 V (argRef j) ((by decide : ∀ j : Fin 10, argRef j ∉ hostOps0_W) j)

/-- The references written by the called @_where (`hostOps0_1`), in order. -/
abbrev hostOps0_1_W : List (Ref sig .tc) :=
  [main_call0_v0, main_call0_v1, main_v13]
/-- Every operation of `hostOps0_1` writes a reference of the list. -/
theorem hostOps0_1_writes :
    (hostOps0_1 : List (HloOp τ sig (Elt F))).Forall fun op => op.writes ⊆ (hostOps0_1_W.map (Proc.devRef (τ := τ) .tc)).toFinset := by
  simp only [hostOps0_1, List.Forall, nullary_writes, unary_writes, binary_writes, ternary_writes, reshape_writes, nary_writes, Finset.singleton_subset_iff, List.mem_toFinset]
  repeat' apply And.intro
  all_goals exact List.mem_map_of_mem (by decide)
/-- A reference `hostOps0_1` does not write keeps its contents. -/
theorem keepW_hostOps0_1 (V : Valuation τ sig (Elt F)) (r : Ref sig .tc) (h : r ∉ hostOps0_1_W) :
    after hostOps0_1 V (Proc.devRef .tc r) = V (Proc.devRef .tc r) :=
  after_of_writes_sub hostOps0_1 V hostOps0_1_writes h
/-- No argument is written by `hostOps0_1`. -/
theorem keep_hostOps0_1 (V : Valuation τ sig (Elt F)) (j : Fin 10) :
    after hostOps0_1 V (Proc.devRef .tc (argRef j)) = V (Proc.devRef .tc (argRef j)) :=
  keepW_hostOps0_1 V (argRef j) ((by decide : ∀ j : Fin 10, argRef j ∉ hostOps0_1_W) j)

/-- The references written by the second stretch of @main (`hostOps0_2`), in order. -/
abbrev hostOps0_2_W : List (Ref sig .tc) :=
  [main_c, main_v14, main_v15, main_c_4, main_v16, main_v17, main_v18, main_v19, main_v20, main_c_5, main_v21, main_v22, main_c_6, main_v23,
   main_v24, main_v25, main_v26, main_v27, main_c_7, main_v28, main_v29, main_c_8, main_v30, main_v31, main_v32, main_v33, main_v34, main_cst_9,
   main_v35, main_v36, main_c_10, main_v37, main_v38, main_c_11, main_v39, main_v40, main_v41, main_v42, main_v43, main_v44, main_v45, main_c_12,
   main_v46, main_v47, main_c_13, main_v48, main_v49, main_v50, main_v51, main_v52, main_cst_14, main_v53, main_v54, main_cst_15, main_v55, main_v56,
   main_v57, main_c_16, main_v58, main_v59, main_c_17, main_v60, main_v61, main_v62, main_v63, main_v64, main_v65, main_v66, main_v67, main_cst_18,
   main_v68, main_v69, main_v70, main_v71, main_v72, main_v73, main_c_19, main_v74, main_v75, main_c_20, main_v76, main_v77, main_v78, main_v79,
   main_v80, main_v81, main_v82, main_v83, main_cst_21, main_v84, main_v85, main_v86, main_v87, main_v88, main_v89, main_cst_22, main_v90, main_v91,
   main_v92, main_c_23, main_v93, main_v94, main_c_24, main_v95, main_v96, main_v97, main_v98, main_v99, main_v100, main_v101, main_v102,
   main_cst_25, main_v103, main_v104, main_v105, main_v106, main_v107, main_v108, main_cst_26, main_v109, main_v110, main_v111, main_c_27, main_v112,
   main_v113, main_c_28, main_v114, main_v115, main_v116, main_v117, main_v118, main_v119, main_v120, main_v121, main_cst_29, main_v122, main_v123,
   main_v124, main_v125, main_v126, main_v127, main_cst_30, main_v128, main_v129, main_v130, main_v131, main_v132, main_v133, main_v134, main_v135,
   main_v136]
set_option maxHeartbeats 4000000 in
/-- Every operation of `hostOps0_2` writes a reference of the list. -/
theorem hostOps0_2_writes :
    (hostOps0_2 : List (HloOp τ sig (Elt F))).Forall fun op => op.writes ⊆ (hostOps0_2_W.map (Proc.devRef (τ := τ) .tc)).toFinset := by
  simp only [hostOps0_2, List.Forall, nullary_writes, unary_writes, binary_writes, ternary_writes, reshape_writes, nary_writes, Finset.singleton_subset_iff, List.mem_toFinset]
  repeat' apply And.intro
  all_goals exact List.mem_map_of_mem (by decide)
/-- A reference `hostOps0_2` does not write keeps its contents. -/
theorem keepW_hostOps0_2 (V : Valuation τ sig (Elt F)) (r : Ref sig .tc) (h : r ∉ hostOps0_2_W) :
    after hostOps0_2 V (Proc.devRef .tc r) = V (Proc.devRef .tc r) :=
  after_of_writes_sub hostOps0_2 V hostOps0_2_writes h
/-- No argument is written by `hostOps0_2`. -/
theorem keep_hostOps0_2 (V : Valuation τ sig (Elt F)) (j : Fin 10) :
    after hostOps0_2 V (Proc.devRef .tc (argRef j)) = V (Proc.devRef .tc (argRef j)) :=
  keepW_hostOps0_2 V (argRef j) ((by decide : ∀ j : Fin 10, argRef j ∉ hostOps0_2_W) j)

/-- The references written by the stretch after the first kernel (`hostOps1`), in order. -/
abbrev hostOps1_W : List (Ref sig .tc) :=
  [main_v138, main_v139, main_v140]
/-- Every operation of `hostOps1` writes a reference of the list. -/
theorem hostOps1_writes :
    (hostOps1 : List (HloOp τ sig (Elt F))).Forall fun op => op.writes ⊆ (hostOps1_W.map (Proc.devRef (τ := τ) .tc)).toFinset := by
  simp only [hostOps1, List.Forall, nullary_writes, unary_writes, binary_writes, ternary_writes, reshape_writes, nary_writes, Finset.singleton_subset_iff, List.mem_toFinset]
  repeat' apply And.intro
  all_goals exact List.mem_map_of_mem (by decide)
/-- A reference `hostOps1` does not write keeps its contents. -/
theorem keepW_hostOps1 (V : Valuation τ sig (Elt F)) (r : Ref sig .tc) (h : r ∉ hostOps1_W) :
    after hostOps1 V (Proc.devRef .tc r) = V (Proc.devRef .tc r) :=
  after_of_writes_sub hostOps1 V hostOps1_writes h
/-- No argument is written by `hostOps1`. -/
theorem keep_hostOps1 (V : Valuation τ sig (Elt F)) (j : Fin 10) :
    after hostOps1 V (Proc.devRef .tc (argRef j)) = V (Proc.devRef .tc (argRef j)) :=
  keepW_hostOps1 V (argRef j) ((by decide : ∀ j : Fin 10, argRef j ∉ hostOps1_W) j)

/-- The references written by the first called @relu (`hostOps1_1`), in order. -/
abbrev hostOps1_1_W : List (Ref sig .tc) :=
  [main_call1_cst, main_call1_v0, main_v141]
/-- Every operation of `hostOps1_1` writes a reference of the list. -/
theorem hostOps1_1_writes :
    (hostOps1_1 : List (HloOp τ sig (Elt F))).Forall fun op => op.writes ⊆ (hostOps1_1_W.map (Proc.devRef (τ := τ) .tc)).toFinset := by
  simp only [hostOps1_1, List.Forall, nullary_writes, unary_writes, binary_writes, ternary_writes, reshape_writes, nary_writes, Finset.singleton_subset_iff, List.mem_toFinset]
  repeat' apply And.intro
  all_goals exact List.mem_map_of_mem (by decide)
/-- A reference `hostOps1_1` does not write keeps its contents. -/
theorem keepW_hostOps1_1 (V : Valuation τ sig (Elt F)) (r : Ref sig .tc) (h : r ∉ hostOps1_1_W) :
    after hostOps1_1 V (Proc.devRef .tc r) = V (Proc.devRef .tc r) :=
  after_of_writes_sub hostOps1_1 V hostOps1_1_writes h
/-- No argument is written by `hostOps1_1`. -/
theorem keep_hostOps1_1 (V : Valuation τ sig (Elt F)) (j : Fin 10) :
    after hostOps1_1 V (Proc.devRef .tc (argRef j)) = V (Proc.devRef .tc (argRef j)) :=
  keepW_hostOps1_1 V (argRef j) ((by decide : ∀ j : Fin 10, argRef j ∉ hostOps1_1_W) j)

/-- The references written by the stretch up to the second kernel (`hostOps1_2`), in order. -/
abbrev hostOps1_2_W : List (Ref sig .tc) :=
  [main_c_31, main_v142, main_v143, main_c_32, main_v144, main_v145, main_v146, main_v147, main_v148, main_v149, main_v150, main_v151, main_cst_33,
   main_v152, main_v153, main_v154, main_v155, main_v156, main_v157, main_c_34, main_v158, main_v159, main_c_35, main_v160, main_v161, main_v162,
   main_v163, main_v164, main_v165, main_v166, main_v167, main_cst_36, main_v168, main_v169, main_v170, main_v171, main_v172, main_v173, main_cst_37,
   main_v174, main_v175, main_v176, main_c_38, main_v177, main_v178, main_c_39, main_v179, main_v180, main_v181, main_v182, main_v183, main_v184,
   main_v185, main_v186, main_cst_40, main_v187, main_v188, main_v189, main_v190, main_v191, main_v192, main_cst_41, main_v193, main_v194, main_v195,
   main_c_42, main_v196, main_v197, main_c_43, main_v198, main_v199, main_v200, main_v201, main_v202, main_v203, main_v204, main_v205, main_cst_44,
   main_v206, main_v207, main_v208, main_v209, main_v210, main_v211, main_cst_45, main_v212, main_v213, main_v214, main_v215, main_v216, main_v217,
   main_v218, main_v219, main_v220]
set_option maxHeartbeats 4000000 in
/-- Every operation of `hostOps1_2` writes a reference of the list. -/
theorem hostOps1_2_writes :
    (hostOps1_2 : List (HloOp τ sig (Elt F))).Forall fun op => op.writes ⊆ (hostOps1_2_W.map (Proc.devRef (τ := τ) .tc)).toFinset := by
  simp only [hostOps1_2, List.Forall, nullary_writes, unary_writes, binary_writes, ternary_writes, reshape_writes, nary_writes, Finset.singleton_subset_iff, List.mem_toFinset]
  repeat' apply And.intro
  all_goals exact List.mem_map_of_mem (by decide)
/-- A reference `hostOps1_2` does not write keeps its contents. -/
theorem keepW_hostOps1_2 (V : Valuation τ sig (Elt F)) (r : Ref sig .tc) (h : r ∉ hostOps1_2_W) :
    after hostOps1_2 V (Proc.devRef .tc r) = V (Proc.devRef .tc r) :=
  after_of_writes_sub hostOps1_2 V hostOps1_2_writes h
/-- No argument is written by `hostOps1_2`. -/
theorem keep_hostOps1_2 (V : Valuation τ sig (Elt F)) (j : Fin 10) :
    after hostOps1_2 V (Proc.devRef .tc (argRef j)) = V (Proc.devRef .tc (argRef j)) :=
  keepW_hostOps1_2 V (argRef j) ((by decide : ∀ j : Fin 10, argRef j ∉ hostOps1_2_W) j)

/-- The references written by the stretch after the second kernel (`hostOps2`), in order. -/
abbrev hostOps2_W : List (Ref sig .tc) :=
  [main_v222, main_v223, main_v224]
/-- Every operation of `hostOps2` writes a reference of the list. -/
theorem hostOps2_writes :
    (hostOps2 : List (HloOp τ sig (Elt F))).Forall fun op => op.writes ⊆ (hostOps2_W.map (Proc.devRef (τ := τ) .tc)).toFinset := by
  simp only [hostOps2, List.Forall, nullary_writes, unary_writes, binary_writes, ternary_writes, reshape_writes, nary_writes, Finset.singleton_subset_iff, List.mem_toFinset]
  repeat' apply And.intro
  all_goals exact List.mem_map_of_mem (by decide)
/-- A reference `hostOps2` does not write keeps its contents. -/
theorem keepW_hostOps2 (V : Valuation τ sig (Elt F)) (r : Ref sig .tc) (h : r ∉ hostOps2_W) :
    after hostOps2 V (Proc.devRef .tc r) = V (Proc.devRef .tc r) :=
  after_of_writes_sub hostOps2 V hostOps2_writes h
/-- No argument is written by `hostOps2`. -/
theorem keep_hostOps2 (V : Valuation τ sig (Elt F)) (j : Fin 10) :
    after hostOps2 V (Proc.devRef .tc (argRef j)) = V (Proc.devRef .tc (argRef j)) :=
  keepW_hostOps2 V (argRef j) ((by decide : ∀ j : Fin 10, argRef j ∉ hostOps2_W) j)

/-- The references written by the second called @relu (`hostOps2_1`), in order. -/
abbrev hostOps2_1_W : List (Ref sig .tc) :=
  [main_call2_cst, main_call2_v0, main_v225]
/-- Every operation of `hostOps2_1` writes a reference of the list. -/
theorem hostOps2_1_writes :
    (hostOps2_1 : List (HloOp τ sig (Elt F))).Forall fun op => op.writes ⊆ (hostOps2_1_W.map (Proc.devRef (τ := τ) .tc)).toFinset := by
  simp only [hostOps2_1, List.Forall, nullary_writes, unary_writes, binary_writes, ternary_writes, reshape_writes, nary_writes, Finset.singleton_subset_iff, List.mem_toFinset]
  repeat' apply And.intro
  all_goals exact List.mem_map_of_mem (by decide)
/-- A reference `hostOps2_1` does not write keeps its contents. -/
theorem keepW_hostOps2_1 (V : Valuation τ sig (Elt F)) (r : Ref sig .tc) (h : r ∉ hostOps2_1_W) :
    after hostOps2_1 V (Proc.devRef .tc r) = V (Proc.devRef .tc r) :=
  after_of_writes_sub hostOps2_1 V hostOps2_1_writes h
/-- No argument is written by `hostOps2_1`. -/
theorem keep_hostOps2_1 (V : Valuation τ sig (Elt F)) (j : Fin 10) :
    after hostOps2_1 V (Proc.devRef .tc (argRef j)) = V (Proc.devRef .tc (argRef j)) :=
  keepW_hostOps2_1 V (argRef j) ((by decide : ∀ j : Fin 10, argRef j ∉ hostOps2_1_W) j)

/-- The references written by the last stretch of @main (`hostOps2_2`), in order. -/
abbrev hostOps2_2_W : List (Ref sig .tc) :=
  [main_cst_46, main_v226, main_v227, main_v228, main_cst_47, main_v229, main_cst_48, main_v230, main_v231, main_v232, main_cst_49, main_v233,
   main_v234, main_v235, main_v236, main_v237, main_v238, main_v239, main_v240]
/-- Every operation of `hostOps2_2` writes a reference of the list. -/
theorem hostOps2_2_writes :
    (hostOps2_2 : List (HloOp τ sig (Elt F))).Forall fun op => op.writes ⊆ (hostOps2_2_W.map (Proc.devRef (τ := τ) .tc)).toFinset := by
  simp only [hostOps2_2, List.Forall, nullary_writes, unary_writes, binary_writes, ternary_writes, reshape_writes, nary_writes, Finset.singleton_subset_iff, List.mem_toFinset]
  repeat' apply And.intro
  all_goals exact List.mem_map_of_mem (by decide)
/-- A reference `hostOps2_2` does not write keeps its contents. -/
theorem keepW_hostOps2_2 (V : Valuation τ sig (Elt F)) (r : Ref sig .tc) (h : r ∉ hostOps2_2_W) :
    after hostOps2_2 V (Proc.devRef .tc r) = V (Proc.devRef .tc r) :=
  after_of_writes_sub hostOps2_2 V hostOps2_2_writes h
/-- No argument is written by `hostOps2_2`. -/
theorem keep_hostOps2_2 (V : Valuation τ sig (Elt F)) (j : Fin 10) :
    after hostOps2_2 V (Proc.devRef .tc (argRef j)) = V (Proc.devRef .tc (argRef j)) :=
  keepW_hostOps2_2 V (argRef j) ((by decide : ∀ j : Fin 10, argRef j ∉ hostOps2_2_W) j)

end Cert.KernelIdeal.Hand

end
-- ==== Proof.KBody0.lean ====
/-
  Region 0 (the first channel-mixing kernel): the body obligation. A grid point t = 5·i + k adds the product of its two
  input blocks onto the accumulator, which it first resets to zero when k = 0, and copies the accumulator to the output
  block when k = 4. Three cases of k: k = 0 (reset, then add), 0 < k < 4 (add), k = 4 (add, then copy). In each the body is
  run on whole memrefs at named contents and leaves the accumulator at the block product added onto zero (k = 0) or onto
  what it held; this is the recurrence that defines `acc0`, so the invariant between points is kept. The output's buffer is
  idle and handed back untouched unless k = 4, where it ends at the accumulator's value.
-/
import proofs.«402212_j24189255811803_4_alg».proof.Proof.KDat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point handles Chebyshev term 0: the accumulator is reset there. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 5 = 0 :=
  (by decide +kernel : ∀ t : Fin grid0.N, isFirst0 (grid0.coords t) ↔ t.val % 5 = 0)

/-- The point handles the last Chebyshev term: the accumulator is copied to the output block there. -/
abbrev isLast0 (i : grid0.Coords) : Prop := k0_cond2 i = 1#1
theorem isLast0_iff : ∀ t : Fin cfg0.N, isLast0 (grid0.coords t) ↔ t.val % 5 = 4 :=
  (by decide +kernel : ∀ t : Fin grid0.N, isLast0 (grid0.coords t) ↔ t.val % 5 = 4)

/-! ## The body on whole memrefs, case by case -/

theorem offs2_0 : (![0, 0] : Fin 2 → ℕ) = fun _ => 0 := funext fun a => by fin_cases a <;> rfl
theorem offs3_0 : (![0, 0, 0] : Fin 3 → ℕ) = fun _ => 0 := funext fun a => by fin_cases a <;> rfl

set_option maxHeartbeats 1000000 in
/-- A point with 0 < k < 4: on whole memrefs holding the two input blocks `x0`, `x1`, the output's buffer at `xo` and the
    accumulator at `s`, the body leaves the inputs and the output's buffer as they were and the accumulator at
    `s` plus the block product. -/
theorem runMid0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst0 i) (hc1 : ¬isLast0 i)
    (x0 : Vec F S1x1000x128 .f32) (x1 : Vec F S1x128x128 .f32) (xo : Vec F S1000x128 .f32) (s : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 s)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_unit_zero offs2_0]
  simp only [View.readAt_eq_ld, harg2.read_unread, harg3.read_unread, harg5.read_unread, View.ld_unit_zero (S := S1x1000x128) offs3_0, View.ld_unit_zero (S := S1x128x128) offs3_0, View.ld_unit_zero (S := S1000x128) offs2_0]

set_option maxHeartbeats 1000000 in
/-- A point with k = 0: whatever the accumulator held, the body leaves it at zero plus the block product. -/
theorem runFirst0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : isFirst0 i) (hc1 : ¬isLast0 i)
    (x0 : Vec F S1x1000x128 .f32) (x1 : Vec F S1x128x128 .f32) (xo : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 (k0_pay1 (F := F)))) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_cons_unit_zero (S := S1000x128) offs2_0]
  simp only [View.readAt_eq_ld, harg2.read_unread, harg3.read_unread, View.ld_unit_zero (S := S1x1000x128) offs3_0, View.ld_unit_zero (S := S1x128x128) offs3_0, View.readCov_unit_zero (S := S1000x128) _ offs2_0]

set_option maxHeartbeats 1000000 in
/-- A point with k = 4: the accumulator ends at `s` plus the block product, and the output's buffer, whatever it held,
    ends at the same. -/
theorem runLast0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst0 i) (hc1 : isLast0 i)
    (x0 : Vec F S1x1000x128 .f32) (x1 : Vec F S1x128x128 .f32) (s : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero offs2_0 inb_S1000x128_S1000x128_0_0 y⟩), View.canon_unit_zero offs2_0]
    simp only [View.readAt_eq_ld, harg2.read_unread, harg3.read_unread, harg5.read_unread, View.ld_unit_zero (S := S1x1000x128) offs3_0, View.ld_unit_zero (S := S1x128x128) offs3_0, View.ld_unit_zero (S := S1000x128) offs2_0, View.readCov_unit_zero (S := S1000x128) _ offs2_0]
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_unit_zero offs2_0]
  simp only [View.readAt_eq_ld, harg2.read_unread, harg3.read_unread, harg5.read_unread, View.ld_unit_zero (S := S1x1000x128) offs3_0, View.ld_unit_zero (S := S1x128x128) offs3_0, View.ld_unit_zero (S := S1000x128) offs2_0]

/-! ## Where the windows are live -/

/-- The two input windows are live at every point. -/
theorem live0_0 : ∀ t : Fin cfg0.N, cfg0.idle 0 (grid0.coords t) = false := by decide +kernel
theorem live0_1 : ∀ t : Fin cfg0.N, cfg0.idle 1 (grid0.coords t) = false := by decide +kernel
/-- Away from the last Chebyshev term the output window is idle and is not written back; -/
theorem idle0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
/-- at the last term it is live. -/
theorem live0_2 : ∀ t : Fin cfg0.N, isLast0 (grid0.coords t) → cfg0.idle 2 (grid0.coords t) = false := by decide +kernel

/-! ## The staging memrefs at a point -/

abbrev stg0_0 (t : Fin cfg0.N) : Memref sig .tc .vmem S1x1000x128 .f32 := win0_0.stage (cfg0.slots t 0)
abbrev stgW0_0 (t : Fin cfg0.N) : (stg0_0 t).IsWhole := hstage0_0 ((cfg0.slots t 0).cast nbuf0_0)
abbrev stg0_1 (t : Fin cfg0.N) : Memref sig .tc .vmem S1x128x128 .f32 := win0_1.stage (cfg0.slots t 1)
abbrev stgW0_1 (t : Fin cfg0.N) : (stg0_1 t).IsWhole := hstage0_1 ((cfg0.slots t 1).cast nbuf0_1)
abbrev stg0_2 (t : Fin cfg0.N) : Memref sig .tc .vmem S1000x128 .f32 := win0_2.stage (cfg0.slots t 2)
abbrev stgW0_2 (t : Fin cfg0.N) : (stg0_2 t).IsWhole := hstage0_2 ((cfg0.slots t 2).cast nbuf0_2)

/-! ## What the body finds in the inputs' buffers -/

/-- Both input windows are fetched at every point, so each one's buffer holds its block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-! ## The body at a point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's k selects the case; the invariant hands over the
    accumulator at what the point before left (at anything before the first point) and takes it back at this point's value,
    which is the recurrence of `acc0`; the output's buffer is handed back untouched where it is idle and ends at the
    accumulator's value at k = 4. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  rw [show (dat0 V c).leavesExact 0 t = owns (c : Thread nD τ) (stg0_0 t) fullShare ((dat0 V c).after 0 t) from by
    unfold Dat.leavesExact; rw [live0_0 t], after0_0]
  rw [show (dat0 V c).leavesExact 1 t = owns (c : Thread nD τ) (stg0_1 t) fullShare ((dat0 V c).after 1 t) from by
    unfold Dat.leavesExact; rw [live0_1 t], after0_1]
  by_cases h0 : t.val % 5 = 0
  · have h1 : ¬t.val % 5 = 4 := by omega
    have hl : ¬isLast0 (grid0.coords t) := fun h => h1 ((isLast0_iff t).mp h)
    rw [Dat.leavesExact_idle (dat0 V c) 2 t (idle0_2 t hl) (noFlush0_2 t hl)]
    rw [acc0_reset V c t h0]
    by_cases hz : t.val = 0
    · rw [PhiS0_castSucc V c t, PhiS0_zero V c _ _ hz]
      iintro ⟨HA, Ho, ⟨%d0, H0⟩, ⟨%d1, H1⟩, ⟨%d2, H2⟩⟩
      ihave HA' := (PhiA0_split (F := F) c) $$ HA
      icases HA' with ⟨⟨HS, Hr⟩, Hg⟩
      iapply (runFirst0 c (grid0.coords t) _ _ _ _ _ _ _ _ ((isFirst0_iff t).mpr h0) hl (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hr⟩, Hg⟩, Ho, ⟨%d0, H0⟩, ⟨%d1, H1⟩, ⟨%d2, H2⟩⟩
      iapply (runFirst0 c (grid0.coords t) _ _ _ _ _ _ _ _ ((isFirst0_iff t).mpr h0) hl (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hf : ¬isFirst0 (grid0.coords t) := fun h => h0 ((isFirst0_iff t).mp h)
    have hz : t.val ≠ 0 := fun hz => h0 (by rw [hz])
    rw [acc0_step V c t h0]
    rw [PhiS0_castSucc V c t, PhiS0_pos V c _ _ hz]
    by_cases h1 : t.val % 5 = 4
    · have hl : isLast0 (grid0.coords t) := (isLast0_iff t).mpr h1
      rw [show (dat0 V c).leavesExact 2 t = owns (c : Thread nD τ) (stg0_2 t) fullShare ((dat0 V c).after 2 t) from by
        unfold Dat.leavesExact; rw [live0_2 t hl], after0_2, acc0_step V c t h0]
      iintro ⟨⟨⟨HS, Hr⟩, Hg⟩, Ho, ⟨%d0, H0⟩, ⟨%d1, H1⟩, ⟨%d2, H2⟩⟩
      iapply (runLast0 c (grid0.coords t) _ _ _ _ _ _ _ _ hf hl (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬isLast0 (grid0.coords t) := fun h => h1 ((isLast0_iff t).mp h)
      rw [Dat.leavesExact_idle (dat0 V c) 2 t (idle0_2 t hl) (noFlush0_2 t hl)]
      iintro ⟨⟨⟨HS, Hr⟩, Hg⟩, Ho, ⟨%d0, H0⟩, ⟨%d1, H1⟩, ⟨%d2, H2⟩⟩
      iapply (runMid0 c (grid0.coords t) _ _ _ _ _ _ _ _ hf hl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  Region 1 (the first channel-mixing kernel): the body obligation. A grid point t = 5·i + k adds the product of its two
  input blocks onto the accumulator, which it first resets to zero when k = 0, and copies the accumulator to the output
  block when k = 4. Three cases of k: k = 0 (reset, then add), 0 < k < 4 (add), k = 4 (add, then copy). In each the body is
  run on whole memrefs at named contents and leaves the accumulator at the block product added onto zero (k = 0) or onto
  what it held; this is the recurrence that defines `acc1`, so the invariant between points is kept. The output's buffer is
  idle and handed back untouched unless k = 4, where it ends at the accumulator's value.
-/
import proofs.«402212_j24189255811803_4_alg».proof.Proof.KDat1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point handles Chebyshev term 0: the accumulator is reset there. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 5 = 0 :=
  (by decide +kernel : ∀ t : Fin grid1.N, isFirst1 (grid1.coords t) ↔ t.val % 5 = 0)

/-- The point handles the last Chebyshev term: the accumulator is copied to the output block there. -/
abbrev isLast1 (i : grid1.Coords) : Prop := k1_cond2 i = 1#1
theorem isLast1_iff : ∀ t : Fin cfg1.N, isLast1 (grid1.coords t) ↔ t.val % 5 = 4 :=
  (by decide +kernel : ∀ t : Fin grid1.N, isLast1 (grid1.coords t) ↔ t.val % 5 = 4)

/-! ## The body on whole memrefs, case by case -/

theorem offs2_1 : (![0, 0] : Fin 2 → ℕ) = fun _ => 0 := funext fun a => by fin_cases a <;> rfl
theorem offs3_1 : (![0, 0, 0] : Fin 3 → ℕ) = fun _ => 0 := funext fun a => by fin_cases a <;> rfl

set_option maxHeartbeats 1000000 in
/-- A point with 0 < k < 4: on whole memrefs holding the two input blocks `x0`, `x1`, the output's buffer at `xo` and the
    accumulator at `s`, the body leaves the inputs and the output's buffer as they were and the accumulator at
    `s` plus the block product. -/
theorem runMid1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst1 i) (hc1 : ¬isLast1 i)
    (x0 : Vec F S1x1000x128 .f32) (x1 : Vec F S1x128x128 .f32) (xo : Vec F S1000x128 .f32) (s : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 s)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_unit_zero offs2_1]
  simp only [View.readAt_eq_ld, harg2.read_unread, harg3.read_unread, harg5.read_unread, View.ld_unit_zero (S := S1x1000x128) offs3_1, View.ld_unit_zero (S := S1x128x128) offs3_1, View.ld_unit_zero (S := S1000x128) offs2_1]

set_option maxHeartbeats 1000000 in
/-- A point with k = 0: whatever the accumulator held, the body leaves it at zero plus the block product. -/
theorem runFirst1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : isFirst1 i) (hc1 : ¬isLast1 i)
    (x0 : Vec F S1x1000x128 .f32) (x1 : Vec F S1x128x128 .f32) (xo : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 (k1_pay1 (F := F)))) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_cons_unit_zero (S := S1000x128) offs2_1]
  simp only [View.readAt_eq_ld, harg2.read_unread, harg3.read_unread, View.ld_unit_zero (S := S1x1000x128) offs3_1, View.ld_unit_zero (S := S1x128x128) offs3_1, View.readCov_unit_zero (S := S1000x128) _ offs2_1]

set_option maxHeartbeats 1000000 in
/-- A point with k = 4: the accumulator ends at `s` plus the block product, and the output's buffer, whatever it held,
    ends at the same. -/
theorem runLast1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst1 i) (hc1 : isLast1 i)
    (x0 : Vec F S1x1000x128 .f32) (x1 : Vec F S1x128x128 .f32) (s : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero offs2_1 inb_S1000x128_S1000x128_0_0 y⟩), View.canon_unit_zero offs2_1]
    simp only [View.readAt_eq_ld, harg2.read_unread, harg3.read_unread, harg5.read_unread, View.ld_unit_zero (S := S1x1000x128) offs3_1, View.ld_unit_zero (S := S1x128x128) offs3_1, View.ld_unit_zero (S := S1000x128) offs2_1, View.readCov_unit_zero (S := S1000x128) _ offs2_1]
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_unit_zero offs2_1]
  simp only [View.readAt_eq_ld, harg2.read_unread, harg3.read_unread, harg5.read_unread, View.ld_unit_zero (S := S1x1000x128) offs3_1, View.ld_unit_zero (S := S1x128x128) offs3_1, View.ld_unit_zero (S := S1000x128) offs2_1]

/-! ## Where the windows are live -/

/-- The two input windows are live at every point. -/
theorem live1_0 : ∀ t : Fin cfg1.N, cfg1.idle 0 (grid1.coords t) = false := by decide +kernel
theorem live1_1 : ∀ t : Fin cfg1.N, cfg1.idle 1 (grid1.coords t) = false := by decide +kernel
/-- Away from the last Chebyshev term the output window is idle and is not written back; -/
theorem idle1_2 : ∀ t : Fin cfg1.N, ¬isLast1 (grid1.coords t) → cfg1.idle 2 (grid1.coords t) = true := by decide +kernel
theorem noFlush1_2 : ∀ t : Fin cfg1.N, ¬isLast1 (grid1.coords t) → (cfg1.win 2).flush t = false := by decide +kernel
/-- at the last term it is live. -/
theorem live1_2 : ∀ t : Fin cfg1.N, isLast1 (grid1.coords t) → cfg1.idle 2 (grid1.coords t) = false := by decide +kernel

/-! ## The staging memrefs at a point -/

abbrev stg1_0 (t : Fin cfg1.N) : Memref sig .tc .vmem S1x1000x128 .f32 := win1_0.stage (cfg1.slots t 0)
abbrev stgW1_0 (t : Fin cfg1.N) : (stg1_0 t).IsWhole := hstage1_0 ((cfg1.slots t 0).cast nbuf1_0)
abbrev stg1_1 (t : Fin cfg1.N) : Memref sig .tc .vmem S1x128x128 .f32 := win1_1.stage (cfg1.slots t 1)
abbrev stgW1_1 (t : Fin cfg1.N) : (stg1_1 t).IsWhole := hstage1_1 ((cfg1.slots t 1).cast nbuf1_1)
abbrev stg1_2 (t : Fin cfg1.N) : Memref sig .tc .vmem S1000x128 .f32 := win1_2.stage (cfg1.slots t 2)
abbrev stgW1_2 (t : Fin cfg1.N) : (stg1_2 t).IsWhole := hstage1_2 ((cfg1.slots t 2).cast nbuf1_2)

/-! ## What the body finds in the inputs' buffers -/

/-- Both input windows are fetched at every point, so each one's buffer holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body at a point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's k selects the case; the invariant hands over the
    accumulator at what the point before left (at anything before the first point) and takes it back at this point's value,
    which is the recurrence of `acc1`; the output's buffer is handed back untouched where it is idle and ends at the
    accumulator's value at k = 4. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  rw [show (dat1 V c).leavesExact 0 t = owns (c : Thread nD τ) (stg1_0 t) fullShare ((dat1 V c).after 0 t) from by
    unfold Dat.leavesExact; rw [live1_0 t], after1_0]
  rw [show (dat1 V c).leavesExact 1 t = owns (c : Thread nD τ) (stg1_1 t) fullShare ((dat1 V c).after 1 t) from by
    unfold Dat.leavesExact; rw [live1_1 t], after1_1]
  by_cases h0 : t.val % 5 = 0
  · have h1 : ¬t.val % 5 = 4 := by omega
    have hl : ¬isLast1 (grid1.coords t) := fun h => h1 ((isLast1_iff t).mp h)
    rw [Dat.leavesExact_idle (dat1 V c) 2 t (idle1_2 t hl) (noFlush1_2 t hl)]
    rw [acc1_reset V c t h0]
    by_cases hz : t.val = 0
    · rw [PhiS1_castSucc V c t, PhiS1_zero V c _ _ hz]
      iintro ⟨HA, Ho, ⟨%d0, H0⟩, ⟨%d1, H1⟩, ⟨%d2, H2⟩⟩
      ihave HA' := (PhiA1_split (F := F) c) $$ HA
      icases HA' with ⟨⟨HS, Hr⟩, Hg⟩
      iapply (runFirst1 c (grid1.coords t) _ _ _ _ _ _ _ _ ((isFirst1_iff t).mpr h0) hl (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hr⟩, Hg⟩, Ho, ⟨%d0, H0⟩, ⟨%d1, H1⟩, ⟨%d2, H2⟩⟩
      iapply (runFirst1 c (grid1.coords t) _ _ _ _ _ _ _ _ ((isFirst1_iff t).mpr h0) hl (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hf : ¬isFirst1 (grid1.coords t) := fun h => h0 ((isFirst1_iff t).mp h)
    have hz : t.val ≠ 0 := fun hz => h0 (by rw [hz])
    rw [acc1_step V c t h0]
    rw [PhiS1_castSucc V c t, PhiS1_pos V c _ _ hz]
    by_cases h1 : t.val % 5 = 4
    · have hl : isLast1 (grid1.coords t) := (isLast1_iff t).mpr h1
      rw [show (dat1 V c).leavesExact 2 t = owns (c : Thread nD τ) (stg1_2 t) fullShare ((dat1 V c).after 2 t) from by
        unfold Dat.leavesExact; rw [live1_2 t hl], after1_2, acc1_step V c t h0]
      iintro ⟨⟨⟨HS, Hr⟩, Hg⟩, Ho, ⟨%d0, H0⟩, ⟨%d1, H1⟩, ⟨%d2, H2⟩⟩
      iapply (runLast1 c (grid1.coords t) _ _ _ _ _ _ _ _ hf hl (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬isLast1 (grid1.coords t) := fun h => h1 ((isLast1_iff t).mp h)
      rw [Dat.leavesExact_idle (dat1 V c) 2 t (idle1_2 t hl) (noFlush1_2 t hl)]
      iintro ⟨⟨⟨HS, Hr⟩, Hg⟩, Ho, ⟨%d0, H0⟩, ⟨%d1, H1⟩, ⟨%d2, H2⟩⟩
      iapply (runMid1 c (grid1.coords t) _ _ _ _ _ _ _ _ hf hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The run of @main: eleven segments — three stretches of host operations, the first channel-mixing region, three more
  stretches, the second region, three last stretches — composed by the library's launch theorem for a list of segments.
  `W0 … W11` are the TensorCore's buffer contents at the segment boundaries: a fold from the launch memory, a stretch
  applying its operations, a region replacing its arrays by what its write-backs leave. The thread state between
  segments is "every unscoped buffer at the boundary's contents, the generator register at some state, nothing owed".
  `run_main` says every weakly fair execution terminates with every unscoped buffer at `W11`.
-/
import proofs.«402212_j24189255811803_4_alg».proof.Proof.KDat0
import proofs.«402212_j24189255811803_4_alg».proof.Proof.KDat1
import proofs.«402212_j24189255811803_4_alg».proof.Proof.KKeep
import proofs.«402212_j24189255811803_4_alg».proof.Proof.KBody0
import proofs.«402212_j24189255811803_4_alg».proof.Proof.KBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry contents. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs folded in),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- Region 1's entry contents. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
/-- At region 1's exit: its arrays at what the pipeline leaves (the inputs as entered, the output's write-backs folded in),
    every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
/-- The contents when @main returns. -/
abbrev W11 : Dev nD → Valuation τ sig (Elt F) := fun c => StableHlo.after hostOps2_2 (W10 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No operation of a stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W3`, left at `W4`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine .trans (show (pdats m ρ 0 c).Φ (Fin.last _) ⊢ Pipeline.ΦA spec0 c from hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W7`, left at `W8`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine .trans (show (pdats m ρ 1 c).Φ (Fin.last _) ⊢ Pipeline.ΦA spec1 c from hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main on the TensorCores terminates, nothing
    faulting, and every final state has every unscoped TensorCore buffer at `W11`. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

/-! ## The argument arrays end as launched -/

/-- No host operation and no region writes an argument array: the fold at an argument's buffer walks back to the launch
    memory (a region reads an argument through an input window or bypasses it). -/
theorem W11_arg (c : Dev nD) (j : Fin 10) :
    W11 m ρ c (Proc.devRef .tc (argRef j)) = m ((c : Thread nD τ).loc (argRef j)) := by
  have h8 : W8 m ρ c (Proc.devRef .tc (argRef j)) = W7 m ρ c (Proc.devRef .tc (argRef j)) := by
    fin_cases j <;> first
      | exact W8_of_ne m ρ c _ (by decide)
      | exact (W8_arr m ρ c 1).trans (((dat1 (V7 m ρ) c).arrAt_in 1 rfl _).trans (A_eq1 (V7 m ρ) c 1))
  have h4 : W4 m ρ c (Proc.devRef .tc (argRef j)) = W3 m ρ c (Proc.devRef .tc (argRef j)) := by
    fin_cases j <;> first
      | exact W4_of_ne m ρ c _ (by decide)
      | exact (W4_arr m ρ c 1).trans (((dat0 (V3 m ρ) c).arrAt_in 1 rfl _).trans (A_eq0 (V3 m ρ) c 1))
  calc W11 m ρ c (Proc.devRef .tc (argRef j))
    _ = W10 m ρ c (Proc.devRef .tc (argRef j)) := keep_hostOps2_2 _ j
    _ = W9 m ρ c (Proc.devRef .tc (argRef j)) := keep_hostOps2_1 _ j
    _ = W8 m ρ c (Proc.devRef .tc (argRef j)) := keep_hostOps2 _ j
    _ = W7 m ρ c (Proc.devRef .tc (argRef j)) := h8
    _ = W6 m ρ c (Proc.devRef .tc (argRef j)) := keep_hostOps1_2 _ j
    _ = W5 m ρ c (Proc.devRef .tc (argRef j)) := keep_hostOps1_1 _ j
    _ = W4 m ρ c (Proc.devRef .tc (argRef j)) := keep_hostOps1 _ j
    _ = W3 m ρ c (Proc.devRef .tc (argRef j)) := h4
    _ = W2 m ρ c (Proc.devRef .tc (argRef j)) := keep_hostOps0_2 _ j
    _ = W1 m ρ c (Proc.devRef .tc (argRef j)) := keep_hostOps0_1 _ j
    _ = W0 m ρ c (Proc.devRef .tc (argRef j)) := keep_hostOps0 _ j
    _ = m ((c : Thread nD τ).loc (argRef j)) := rfl

/-- The frame: @main runs to the end, faults nowhere, and leaves its ten argument arrays as launched. -/
theorem frame : θ_run defs (onTc (τ := τ) (main (F := F))) ⟨m, fun _ => 0, ρ⟩ (fun r => ∀ c : Dev nD, ∀ j : Fin 10,
      r.2.mem ((c.tc : Thread nD τ).loc (argRef j)) = m ((c.tc : Thread nD τ).loc (argRef j))) :=
  (θ_run defs _ _).mono (fun _ h c j => (h c (argRef j) (by fin_cases j <;> decide)).trans (W11_arg m ρ c j)) (run_main m ρ)

end Cert.KernelIdeal.Hand

end
-- ==== Proof.BDat0.lean ====
/-
  Region 0 (the first channel-mixing kernel): the quantities its frame and its value are stated over, at a parameter
  `V`, the TensorCore's buffer contents when the region is entered. A grid point t = 5·i + k handles row block i and
  Chebyshev term k. `iblk0` is a window's block at a point; `acc0` is what the accumulator scratch holds after point t:
  the block product of the point's two input blocks added onto zero when k = 0 and onto what the point before left
  otherwise; `rest0` is the other scoped buffers, which the kernel never touches; `PhiS0` is the invariant between points
  (before the first point every scoped buffer at anything, afterwards the scratch at `acc0` of the point before);
  `dat0` is the pipeline's proof data: after the body each input's staging buffer holds its block and the output's holds
  the accumulator (it is written back, and so read, only at the points with k = 4).
-/
import proofs.«402212_j24189255811803_4_alg».proof.Proof.Gen.Kernel.Launch
import proofs.«402212_j24189255811803_4_alg».proof.Proof.Gen.Kernel.Skeleton
import proofs.«402212_j24189255811803_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`. -/
def acc0 (c : Dev nD) : (n : ℕ) → n < cfg0.N → Vec F S1000x128 .f32
  | 0, hn => k0_pay2 (iblk0 V c 0 ⟨0, hn⟩) (iblk0 V c 1 ⟨0, hn⟩) (k0_pay1 (F := F))
  | n + 1, hn =>
    if (n + 1) % 5 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with k = 0 the accumulator restarts from zero. -/
theorem acc0_reset (c : Dev nD) (t : Fin cfg0.N) (h : t.val % 5 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other point it adds onto what the point before left. -/
theorem acc0_step (c : Dev nD) (t : Fin cfg0.N) (h : ¬t.val % 5 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, as a memref. -/
abbrev scM0_0 : Memref sig .tc .vmem S1000x128 .f32 := Memref.whole cc0_scratch0

/-- The scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off: the scratch at some contents, the other scoped buffers, the generator
    register at some state. -/
theorem PhiA0_eq (c : Dev nD) :
    (Pipeline.ΦA spec0 c : sProp 𝕄)
      = iprop(((∃ d, owns (c : Thread nD τ) scM0_0 fullShare d) ∗ rest0 (F := F) c) ∗ (∃ r, prngReg c r)) := by
  unfold Pipeline.ΦA; rw [scopedRest0_eq]; simp only [scM0_0, owns_whole, rest0]; try rfl

/-- The same as two entailments (the form the body's proof uses). -/
theorem PhiA0_split (c : Dev nD) :
    (Pipeline.ΦA spec0 c : sProp 𝕄)
      ⊢ iprop(((∃ d, owns (c : Thread nD τ) scM0_0 fullShare d) ∗ rest0 (F := F) c) ∗ (∃ r, prngReg c r)) := by
  rw [PhiA0_eq]
theorem PhiA0_join (c : Dev nD) :
    iprop(((∃ d, owns (c : Thread nD τ) scM0_0 fullShare d) ∗ rest0 (F := F) c) ∗ (∃ r, prngReg c r))
      ⊢ (Pipeline.ΦA spec0 c : sProp 𝕄) := by
  rw [PhiA0_eq]

/-- The region invariant before position `n`: before the first point the class's; afterwards the scratch at what the point
    before left, the other scoped buffers, the generator register. -/
def PhiS0 (c : Dev nD) : (n : ℕ) → n ≤ cfg0.N → sProp 𝕄
  | 0, _ => Pipeline.ΦA spec0 c
  | n + 1, hn => iprop((owns (c : Thread nD τ) scM0_0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega)) ∗ rest0 (F := F) c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_join c)
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi0_out V c _ (by rw [Fin.val_last]; have : cfg0.N = 250 := N_0; omega)

end Cert.Kernel.Hand

end
-- ==== Proof.BDat1.lean ====
/-
  Region 1 (the second channel-mixing kernel): the quantities its frame and its value are stated over, at a parameter
  `V`, the TensorCore's buffer contents when the region is entered. A grid point t = 5·i + k handles row block i and
  Chebyshev term k. `iblk1` is a window's block at a point; `acc1` is what the accumulator scratch holds after point t:
  the block product of the point's two input blocks added onto zero when k = 0 and onto what the point before left
  otherwise; `rest1` is the other scoped buffers, which the kernel never touches; `PhiS1` is the invariant between points
  (before the first point every scoped buffer at anything, afterwards the scratch at `acc1` of the point before);
  `dat1` is the pipeline's proof data: after the body each input's staging buffer holds its block and the output's holds
  the accumulator (it is written back, and so read, only at the points with k = 4).
-/
import proofs.«402212_j24189255811803_4_alg».proof.Proof.Gen.Kernel.Launch
import proofs.«402212_j24189255811803_4_alg».proof.Proof.Gen.Kernel.Skeleton
import proofs.«402212_j24189255811803_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`. -/
def acc1 (c : Dev nD) : (n : ℕ) → n < cfg1.N → Vec F S1000x128 .f32
  | 0, hn => k1_pay2 (iblk1 V c 0 ⟨0, hn⟩) (iblk1 V c 1 ⟨0, hn⟩) (k1_pay1 (F := F))
  | n + 1, hn =>
    if (n + 1) % 5 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point with k = 0 the accumulator restarts from zero. -/
theorem acc1_reset (c : Dev nD) (t : Fin cfg1.N) (h : t.val % 5 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other point it adds onto what the point before left. -/
theorem acc1_step (c : Dev nD) (t : Fin cfg1.N) (h : ¬t.val % 5 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, as a memref. -/
abbrev scM1_0 : Memref sig .tc .vmem S1000x128 .f32 := Memref.whole cc1_scratch0

/-- The scoped buffers that are neither a staging buffer of this region nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch split off: the scratch at some contents, the other scoped buffers, the generator
    register at some state (this region's scratch is the last of the scoped buffers the class invariant lists). -/
theorem PhiA1_split (c : Dev nD) :
    (Pipeline.ΦA spec1 c : sProp 𝕄)
      ⊢ iprop(((∃ d, owns (c : Thread nD τ) scM1_0 fullShare d) ∗ rest1 (F := F) c) ∗ (∃ r, prngReg c r)) := by
  unfold Pipeline.ΦA; rw [scopedRest1_eq]; simp only [scM1_0, owns_whole, rest1]
  iintro ⟨⟨H1, H2, H3, H4, H5, H6, H7, HS⟩, Hg⟩
  isplitr [Hg]
  · isplitl [HS]
    · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop(((∃ d, owns (c : Thread nD τ) scM1_0 fullShare d) ∗ rest1 (F := F) c) ∗ (∃ r, prngReg c r))
      ⊢ (Pipeline.ΦA spec1 c : sProp 𝕄) := by
  unfold Pipeline.ΦA; rw [scopedRest1_eq]; simp only [scM1_0, owns_whole, rest1]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The region invariant before position `n`: before the first point the class's; afterwards the scratch at what the point
    before left, the other scoped buffers, the generator register. -/
def PhiS1 (c : Dev nD) : (n : ℕ) → n ≤ cfg1.N → sProp 𝕄
  | 0, _ => Pipeline.ΦA spec1 c
  | n + 1, hn => iprop((owns (c : Thread nD τ) scM1_0 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop((owns (c : Thread nD τ) scM1_0 fullShare (acc1 V c (n - 1) (by omega)) ∗ rest1 (F := F) c) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi1_out V c _ (by rw [Fin.val_last]; have : cfg1.N = 250 := N_1; omega)

end Cert.Kernel.Hand

end
-- ==== Proof.BKeep.lean ====
/-
  No host operation of the kernel program writes one of the ten arguments: for each of the nine stretches of host
  operations, the list of the references its operations write, the fact that every operation writes inside that list, and
  from it that a reference outside the list — an argument in particular — holds after the stretch what it held before.
-/
import proofs.«402212_j24189255811803_4_alg».proof.Proof.Gen.Kernel.Launch
import Idealize.ShloMosaic.Lib.StableHlo.Run

set_option maxRecDepth 3012

noncomputable section

namespace Cert.Kernel.Hand

open Cert.Kernel Cert.Kernel.Gen Idealize.ShloMosaic Idealize.ShloMosaic.StableHlo

variable {F : FTy → Type} [FloatOps F]

/-- The ten arguments of @main. -/
abbrev argRef : Fin 10 → Ref sig .tc :=
  ![main_arg0, main_arg1, main_arg2, main_arg3, main_arg4, main_arg5, main_arg6, main_arg7, main_arg8, main_arg9]

/-- The references written by the first stretch of @main (`hostOps0`), in order. -/
abbrev hostOps0_W : List (Ref sig .tc) :=
  [main_v0, main_v1, main_v2, main_v3, main_cst, main_v4, main_cst_0, main_v5, main_v6, main_v7, main_cst_1, main_v8, main_v9, main_cst_2, main_v10,
   main_v11, main_v12, main_cst_3]
/-- Every operation of `hostOps0` writes a reference of the list. -/
theorem hostOps0_writes :
    (hostOps0 : List (HloOp τ sig (Elt F))).Forall fun op => op.writes ⊆ (hostOps0_W.map (Proc.devRef (τ := τ) .tc)).toFinset := by
  simp only [hostOps0, List.Forall, nullary_writes, unary_writes, binary_writes, ternary_writes, reshape_writes, nary_writes, Finset.singleton_subset_iff, List.mem_toFinset]
  repeat' apply And.intro
  all_goals exact List.mem_map_of_mem (by decide)
/-- A reference `hostOps0` does not write keeps its contents. -/
theorem keepW_hostOps0 (V : Valuation τ sig (Elt F)) (r : Ref sig .tc) (h : r ∉ hostOps0_W) :
    after hostOps0 V (Proc.devRef .tc r) = V (Proc.devRef .tc r) :=
  after_of_writes_sub hostOps0 V hostOps0_writes h
/-- No argument is written by `hostOps0`. -/
theorem keep_hostOps0 (V : Valuation τ sig (Elt F)) (j : Fin 10) :
    after hostOps0 V (Proc.devRef .tc (argRef j)) = V (Proc.devRef .tc (argRef j)) :=
  keepW_hostOps0 V (argRef j) ((by decide : ∀ j : Fin 10, argRef j ∉ hostOps0_W) j)

/-- The references written by the called @_where (`hostOps0_1`), in order. -/
abbrev hostOps0_1_W : List (Ref sig .tc) :=
  [main_call0_v0, main_call0_v1, main_v13]
/-- Every operation of `hostOps0_1` writes a reference of the list. -/
theorem hostOps0_1_writes :
    (hostOps0_1 : List (HloOp τ sig (Elt F))).Forall fun op => op.writes ⊆ (hostOps0_1_W.map (Proc.devRef (τ := τ) .tc)).toFinset := by
  simp only [hostOps0_1, List.Forall, nullary_writes, unary_writes, binary_writes, ternary_writes, reshape_writes, nary_writes, Finset.singleton_subset_iff, List.mem_toFinset]
  repeat' apply And.intro
  all_goals exact List.mem_map_of_mem (by decide)
/-- A reference `hostOps0_1` does not write keeps its contents. -/
theorem keepW_hostOps0_1 (V : Valuation τ sig (Elt F)) (r : Ref sig .tc) (h : r ∉ hostOps0_1_W) :
    after hostOps0_1 V (Proc.devRef .tc r) = V (Proc.devRef .tc r) :=
  after_of_writes_sub hostOps0_1 V hostOps0_1_writes h
/-- No argument is written by `hostOps0_1`. -/
theorem keep_hostOps0_1 (V : Valuation τ sig (Elt F)) (j : Fin 10) :
    after hostOps0_1 V (Proc.devRef .tc (argRef j)) = V (Proc.devRef .tc (argRef j)) :=
  keepW_hostOps0_1 V (argRef j) ((by decide : ∀ j : Fin 10, argRef j ∉ hostOps0_1_W) j)

/-- The references written by the second stretch of @main (`hostOps0_2`), in order. -/
abbrev hostOps0_2_W : List (Ref sig .tc) :=
  [main_c, main_v14, main_v15, main_c_4, main_v16, main_v17, main_v18, main_v19, main_v20, main_c_5, main_v21, main_v22, main_c_6, main_v23,
   main_v24, main_v25, main_v26, main_v27, main_c_7, main_v28, main_v29, main_c_8, main_v30, main_v31, main_v32, main_v33, main_v34, main_cst_9,
   main_v35, main_v36, main_c_10, main_v37, main_v38, main_c_11, main_v39, main_v40, main_v41, main_v42, main_v43, main_v44, main_v45, main_c_12,
   main_v46, main_v47, main_c_13, main_v48, main_v49, main_v50, main_v51, main_v52, main_cst_14, main_v53, main_v54, main_cst_15, main_v55, main_v56,
   main_v57, main_c_16, main_v58, main_v59, main_c_17, main_v60, main_v61, main_v62, main_v63, main_v64, main_v65, main_v66, main_v67, main_cst_18,
   main_v68, main_v69, main_v70, main_v71, main_v72, main_v73, main_c_19, main_v74, main_v75, main_c_20, main_v76, main_v77, main_v78, main_v79,
   main_v80, main_v81, main_v82, main_v83, main_cst_21, main_v84, main_v85, main_v86, main_v87, main_v88, main_v89, main_cst_22, main_v90, main_v91,
   main_v92, main_c_23, main_v93, main_v94, main_c_24, main_v95, main_v96, main_v97, main_v98, main_v99, main_v100, main_v101, main_v102,
   main_cst_25, main_v103, main_v104, main_v105, main_v106, main_v107, main_v108, main_cst_26, main_v109, main_v110, main_v111, main_c_27, main_v112,
   main_v113, main_c_28, main_v114, main_v115, main_v116, main_v117, main_v118, main_v119, main_v120, main_v121, main_cst_29, main_v122, main_v123,
   main_v124, main_v125, main_v126, main_v127, main_cst_30, main_v128, main_v129, main_v130, main_v131, main_v132, main_v133, main_v134, main_v135,
   main_v136]
set_option maxHeartbeats 4000000 in
/-- Every operation of `hostOps0_2` writes a reference of the list. -/
theorem hostOps0_2_writes :
    (hostOps0_2 : List (HloOp τ sig (Elt F))).Forall fun op => op.writes ⊆ (hostOps0_2_W.map (Proc.devRef (τ := τ) .tc)).toFinset := by
  simp only [hostOps0_2, List.Forall, nullary_writes, unary_writes, binary_writes, ternary_writes, reshape_writes, nary_writes, Finset.singleton_subset_iff, List.mem_toFinset]
  repeat' apply And.intro
  all_goals exact List.mem_map_of_mem (by decide)
/-- A reference `hostOps0_2` does not write keeps its contents. -/
theorem keepW_hostOps0_2 (V : Valuation τ sig (Elt F)) (r : Ref sig .tc) (h : r ∉ hostOps0_2_W) :
    after hostOps0_2 V (Proc.devRef .tc r) = V (Proc.devRef .tc r) :=
  after_of_writes_sub hostOps0_2 V hostOps0_2_writes h
/-- No argument is written by `hostOps0_2`. -/
theorem keep_hostOps0_2 (V : Valuation τ sig (Elt F)) (j : Fin 10) :
    after hostOps0_2 V (Proc.devRef .tc (argRef j)) = V (Proc.devRef .tc (argRef j)) :=
  keepW_hostOps0_2 V (argRef j) ((by decide : ∀ j : Fin 10, argRef j ∉ hostOps0_2_W) j)

/-- The references written by the stretch after the first kernel (`hostOps1`), in order. -/
abbrev hostOps1_W : List (Ref sig .tc) :=
  [main_v138, main_v139, main_v140]
/-- Every operation of `hostOps1` writes a reference of the list. -/
theorem hostOps1_writes :
    (hostOps1 : List (HloOp τ sig (Elt F))).Forall fun op => op.writes ⊆ (hostOps1_W.map (Proc.devRef (τ := τ) .tc)).toFinset := by
  simp only [hostOps1, List.Forall, nullary_writes, unary_writes, binary_writes, ternary_writes, reshape_writes, nary_writes, Finset.singleton_subset_iff, List.mem_toFinset]
  repeat' apply And.intro
  all_goals exact List.mem_map_of_mem (by decide)
/-- A reference `hostOps1` does not write keeps its contents. -/
theorem keepW_hostOps1 (V : Valuation τ sig (Elt F)) (r : Ref sig .tc) (h : r ∉ hostOps1_W) :
    after hostOps1 V (Proc.devRef .tc r) = V (Proc.devRef .tc r) :=
  after_of_writes_sub hostOps1 V hostOps1_writes h
/-- No argument is written by `hostOps1`. -/
theorem keep_hostOps1 (V : Valuation τ sig (Elt F)) (j : Fin 10) :
    after hostOps1 V (Proc.devRef .tc (argRef j)) = V (Proc.devRef .tc (argRef j)) :=
  keepW_hostOps1 V (argRef j) ((by decide : ∀ j : Fin 10, argRef j ∉ hostOps1_W) j)

/-- The references written by the first called @relu (`hostOps1_1`), in order. -/
abbrev hostOps1_1_W : List (Ref sig .tc) :=
  [main_call1_cst, main_call1_v0, main_v141]
/-- Every operation of `hostOps1_1` writes a reference of the list. -/
theorem hostOps1_1_writes :
    (hostOps1_1 : List (HloOp τ sig (Elt F))).Forall fun op => op.writes ⊆ (hostOps1_1_W.map (Proc.devRef (τ := τ) .tc)).toFinset := by
  simp only [hostOps1_1, List.Forall, nullary_writes, unary_writes, binary_writes, ternary_writes, reshape_writes, nary_writes, Finset.singleton_subset_iff, List.mem_toFinset]
  repeat' apply And.intro
  all_goals exact List.mem_map_of_mem (by decide)
/-- A reference `hostOps1_1` does not write keeps its contents. -/
theorem keepW_hostOps1_1 (V : Valuation τ sig (Elt F)) (r : Ref sig .tc) (h : r ∉ hostOps1_1_W) :
    after hostOps1_1 V (Proc.devRef .tc r) = V (Proc.devRef .tc r) :=
  after_of_writes_sub hostOps1_1 V hostOps1_1_writes h
/-- No argument is written by `hostOps1_1`. -/
theorem keep_hostOps1_1 (V : Valuation τ sig (Elt F)) (j : Fin 10) :
    after hostOps1_1 V (Proc.devRef .tc (argRef j)) = V (Proc.devRef .tc (argRef j)) :=
  keepW_hostOps1_1 V (argRef j) ((by decide : ∀ j : Fin 10, argRef j ∉ hostOps1_1_W) j)

/-- The references written by the stretch up to the second kernel (`hostOps1_2`), in order. -/
abbrev hostOps1_2_W : List (Ref sig .tc) :=
  [main_c_31, main_v142, main_v143, main_c_32, main_v144, main_v145, main_v146, main_v147, main_v148, main_v149, main_v150, main_v151, main_cst_33,
   main_v152, main_v153, main_v154, main_v155, main_v156, main_v157, main_c_34, main_v158, main_v159, main_c_35, main_v160, main_v161, main_v162,
   main_v163, main_v164, main_v165, main_v166, main_v167, main_cst_36, main_v168, main_v169, main_v170, main_v171, main_v172, main_v173, main_cst_37,
   main_v174, main_v175, main_v176, main_c_38, main_v177, main_v178, main_c_39, main_v179, main_v180, main_v181, main_v182, main_v183, main_v184,
   main_v185, main_v186, main_cst_40, main_v187, main_v188, main_v189, main_v190, main_v191, main_v192, main_cst_41, main_v193, main_v194, main_v195,
   main_c_42, main_v196, main_v197, main_c_43, main_v198, main_v199, main_v200, main_v201, main_v202, main_v203, main_v204, main_v205, main_cst_44,
   main_v206, main_v207, main_v208, main_v209, main_v210, main_v211, main_cst_45, main_v212, main_v213, main_v214, main_v215, main_v216, main_v217,
   main_v218, main_v219, main_v220]
set_option maxHeartbeats 4000000 in
/-- Every operation of `hostOps1_2` writes a reference of the list. -/
theorem hostOps1_2_writes :
    (hostOps1_2 : List (HloOp τ sig (Elt F))).Forall fun op => op.writes ⊆ (hostOps1_2_W.map (Proc.devRef (τ := τ) .tc)).toFinset := by
  simp only [hostOps1_2, List.Forall, nullary_writes, unary_writes, binary_writes, ternary_writes, reshape_writes, nary_writes, Finset.singleton_subset_iff, List.mem_toFinset]
  repeat' apply And.intro
  all_goals exact List.mem_map_of_mem (by decide)
/-- A reference `hostOps1_2` does not write keeps its contents. -/
theorem keepW_hostOps1_2 (V : Valuation τ sig (Elt F)) (r : Ref sig .tc) (h : r ∉ hostOps1_2_W) :
    after hostOps1_2 V (Proc.devRef .tc r) = V (Proc.devRef .tc r) :=
  after_of_writes_sub hostOps1_2 V hostOps1_2_writes h
/-- No argument is written by `hostOps1_2`. -/
theorem keep_hostOps1_2 (V : Valuation τ sig (Elt F)) (j : Fin 10) :
    after hostOps1_2 V (Proc.devRef .tc (argRef j)) = V (Proc.devRef .tc (argRef j)) :=
  keepW_hostOps1_2 V (argRef j) ((by decide : ∀ j : Fin 10, argRef j ∉ hostOps1_2_W) j)

/-- The references written by the stretch after the second kernel (`hostOps2`), in order. -/
abbrev hostOps2_W : List (Ref sig .tc) :=
  [main_v222, main_v223, main_v224]
/-- Every operation of `hostOps2` writes a reference of the list. -/
theorem hostOps2_writes :
    (hostOps2 : List (HloOp τ sig (Elt F))).Forall fun op => op.writes ⊆ (hostOps2_W.map (Proc.devRef (τ := τ) .tc)).toFinset := by
  simp only [hostOps2, List.Forall, nullary_writes, unary_writes, binary_writes, ternary_writes, reshape_writes, nary_writes, Finset.singleton_subset_iff, List.mem_toFinset]
  repeat' apply And.intro
  all_goals exact List.mem_map_of_mem (by decide)
/-- A reference `hostOps2` does not write keeps its contents. -/
theorem keepW_hostOps2 (V : Valuation τ sig (Elt F)) (r : Ref sig .tc) (h : r ∉ hostOps2_W) :
    after hostOps2 V (Proc.devRef .tc r) = V (Proc.devRef .tc r) :=
  after_of_writes_sub hostOps2 V hostOps2_writes h
/-- No argument is written by `hostOps2`. -/
theorem keep_hostOps2 (V : Valuation τ sig (Elt F)) (j : Fin 10) :
    after hostOps2 V (Proc.devRef .tc (argRef j)) = V (Proc.devRef .tc (argRef j)) :=
  keepW_hostOps2 V (argRef j) ((by decide : ∀ j : Fin 10, argRef j ∉ hostOps2_W) j)

/-- The references written by the second called @relu (`hostOps2_1`), in order. -/
abbrev hostOps2_1_W : List (Ref sig .tc) :=
  [main_call2_cst, main_call2_v0, main_v225]
/-- Every operation of `hostOps2_1` writes a reference of the list. -/
theorem hostOps2_1_writes :
    (hostOps2_1 : List (HloOp τ sig (Elt F))).Forall fun op => op.writes ⊆ (hostOps2_1_W.map (Proc.devRef (τ := τ) .tc)).toFinset := by
  simp only [hostOps2_1, List.Forall, nullary_writes, unary_writes, binary_writes, ternary_writes, reshape_writes, nary_writes, Finset.singleton_subset_iff, List.mem_toFinset]
  repeat' apply And.intro
  all_goals exact List.mem_map_of_mem (by decide)
/-- A reference `hostOps2_1` does not write keeps its contents. -/
theorem keepW_hostOps2_1 (V : Valuation τ sig (Elt F)) (r : Ref sig .tc) (h : r ∉ hostOps2_1_W) :
    after hostOps2_1 V (Proc.devRef .tc r) = V (Proc.devRef .tc r) :=
  after_of_writes_sub hostOps2_1 V hostOps2_1_writes h
/-- No argument is written by `hostOps2_1`. -/
theorem keep_hostOps2_1 (V : Valuation τ sig (Elt F)) (j : Fin 10) :
    after hostOps2_1 V (Proc.devRef .tc (argRef j)) = V (Proc.devRef .tc (argRef j)) :=
  keepW_hostOps2_1 V (argRef j) ((by decide : ∀ j : Fin 10, argRef j ∉ hostOps2_1_W) j)

/-- The references written by the last stretch of @main (`hostOps2_2`), in order. -/
abbrev hostOps2_2_W : List (Ref sig .tc) :=
  [main_cst_46, main_v226, main_v227, main_v228, main_cst_47, main_v229, main_cst_48, main_v230, main_v231, main_v232, main_cst_49, main_v233,
   main_v234, main_v235, main_v236, main_v237, main_v238, main_v239, main_v240]
/-- Every operation of `hostOps2_2` writes a reference of the list. -/
theorem hostOps2_2_writes :
    (hostOps2_2 : List (HloOp τ sig (Elt F))).Forall fun op => op.writes ⊆ (hostOps2_2_W.map (Proc.devRef (τ := τ) .tc)).toFinset := by
  simp only [hostOps2_2, List.Forall, nullary_writes, unary_writes, binary_writes, ternary_writes, reshape_writes, nary_writes, Finset.singleton_subset_iff, List.mem_toFinset]
  repeat' apply And.intro
  all_goals exact List.mem_map_of_mem (by decide)
/-- A reference `hostOps2_2` does not write keeps its contents. -/
theorem keepW_hostOps2_2 (V : Valuation τ sig (Elt F)) (r : Ref sig .tc) (h : r ∉ hostOps2_2_W) :
    after hostOps2_2 V (Proc.devRef .tc r) = V (Proc.devRef .tc r) :=
  after_of_writes_sub hostOps2_2 V hostOps2_2_writes h
/-- No argument is written by `hostOps2_2`. -/
theorem keep_hostOps2_2 (V : Valuation τ sig (Elt F)) (j : Fin 10) :
    after hostOps2_2 V (Proc.devRef .tc (argRef j)) = V (Proc.devRef .tc (argRef j)) :=
  keepW_hostOps2_2 V (argRef j) ((by decide : ∀ j : Fin 10, argRef j ∉ hostOps2_2_W) j)

end Cert.Kernel.Hand

end
-- ==== Proof.BBody0.lean ====
/-
  Region 0 (the first channel-mixing kernel): the body obligation. A grid point t = 5·i + k adds the product of its two
  input blocks onto the accumulator, which it first resets to zero when k = 0, and copies the accumulator to the output
  block when k = 4. Three cases of k: k = 0 (reset, then add), 0 < k < 4 (add), k = 4 (add, then copy). In each the body is
  run on whole memrefs at named contents and leaves the accumulator at the block product added onto zero (k = 0) or onto
  what it held; this is the recurrence that defines `acc0`, so the invariant between points is kept. The output's buffer is
  idle and handed back untouched unless k = 4, where it ends at the accumulator's value.
-/
import proofs.«402212_j24189255811803_4_alg».proof.Proof.BDat0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point handles Chebyshev term 0: the accumulator is reset there. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 5 = 0 :=
  (by decide +kernel : ∀ t : Fin grid0.N, isFirst0 (grid0.coords t) ↔ t.val % 5 = 0)

/-- The point handles the last Chebyshev term: the accumulator is copied to the output block there. -/
abbrev isLast0 (i : grid0.Coords) : Prop := k0_cond2 i = 1#1
theorem isLast0_iff : ∀ t : Fin cfg0.N, isLast0 (grid0.coords t) ↔ t.val % 5 = 4 :=
  (by decide +kernel : ∀ t : Fin grid0.N, isLast0 (grid0.coords t) ↔ t.val % 5 = 4)

/-! ## The body on whole memrefs, case by case -/

theorem offs2_0 : (![0, 0] : Fin 2 → ℕ) = fun _ => 0 := funext fun a => by fin_cases a <;> rfl
theorem offs3_0 : (![0, 0, 0] : Fin 3 → ℕ) = fun _ => 0 := funext fun a => by fin_cases a <;> rfl

set_option maxHeartbeats 1000000 in
/-- A point with 0 < k < 4: on whole memrefs holding the two input blocks `x0`, `x1`, the output's buffer at `xo` and the
    accumulator at `s`, the body leaves the inputs and the output's buffer as they were and the accumulator at
    `s` plus the block product. -/
theorem runMid0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst0 i) (hc1 : ¬isLast0 i)
    (x0 : Vec F S1x1000x128 .f32) (x1 : Vec F S1x128x128 .f32) (xo : Vec F S1000x128 .f32) (s : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 s)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_unit_zero offs2_0]
  simp only [View.readAt_eq_ld, harg2.read_unread, harg3.read_unread, harg5.read_unread, View.ld_unit_zero (S := S1x1000x128) offs3_0, View.ld_unit_zero (S := S1x128x128) offs3_0, View.ld_unit_zero (S := S1000x128) offs2_0]

set_option maxHeartbeats 1000000 in
/-- A point with k = 0: whatever the accumulator held, the body leaves it at zero plus the block product. -/
theorem runFirst0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : isFirst0 i) (hc1 : ¬isLast0 i)
    (x0 : Vec F S1x1000x128 .f32) (x1 : Vec F S1x128x128 .f32) (xo : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 (k0_pay1 (F := F)))) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_cons_unit_zero (S := S1000x128) offs2_0]
  simp only [View.readAt_eq_ld, harg2.read_unread, harg3.read_unread, View.ld_unit_zero (S := S1x1000x128) offs3_0, View.ld_unit_zero (S := S1x128x128) offs3_0, View.readCov_unit_zero (S := S1000x128) _ offs2_0]

set_option maxHeartbeats 1000000 in
/-- A point with k = 4: the accumulator ends at `s` plus the block product, and the output's buffer, whatever it held,
    ends at the same. -/
theorem runLast0 (c : Dev nD) (i : grid0.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst0 i) (hc1 : isLast0 i)
    (x0 : Vec F S1x1000x128 .f32) (x1 : Vec F S1x128x128 .f32) (s : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero offs2_0 inb_S1000x128_S1000x128_0_0 y⟩), View.canon_unit_zero offs2_0]
    simp only [View.readAt_eq_ld, harg2.read_unread, harg3.read_unread, harg5.read_unread, View.ld_unit_zero (S := S1x1000x128) offs3_0, View.ld_unit_zero (S := S1x128x128) offs3_0, View.ld_unit_zero (S := S1000x128) offs2_0, View.readCov_unit_zero (S := S1000x128) _ offs2_0]
  iexists _; isplitr
  swap; · iexact HS
  ipureintro
  sl_unfold_words
  rw [View.read_writes_eq_canon _ _ _ (fun y => ⟨_, List.mem_cons_self, View.mem_set_unit_zero offs2_0 inb_S1000x128_S1000x128_0_0 y⟩), View.canon_unit_zero offs2_0]
  simp only [View.readAt_eq_ld, harg2.read_unread, harg3.read_unread, harg5.read_unread, View.ld_unit_zero (S := S1x1000x128) offs3_0, View.ld_unit_zero (S := S1x128x128) offs3_0, View.ld_unit_zero (S := S1000x128) offs2_0]

/-! ## Where the windows are live -/

/-- The two input windows are live at every point. -/
theorem live0_0 : ∀ t : Fin cfg0.N, cfg0.idle 0 (grid0.coords t) = false := by decide +kernel
theorem live0_1 : ∀ t : Fin cfg0.N, cfg0.idle 1 (grid0.coords t) = false := by decide +kernel
/-- Away from the last Chebyshev term the output window is idle and is not written back; -/
theorem idle0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
/-- at the last term it is live. -/
theorem live0_2 : ∀ t : Fin cfg0.N, isLast0 (grid0.coords t) → cfg0.idle 2 (grid0.coords t) = false := by decide +kernel

/-! ## The staging memrefs at a point -/

abbrev stg0_0 (t : Fin cfg0.N) : Memref sig .tc .vmem S1x1000x128 .f32 := win0_0.stage (cfg0.slots t 0)
abbrev stgW0_0 (t : Fin cfg0.N) : (stg0_0 t).IsWhole := hstage0_0 ((cfg0.slots t 0).cast nbuf0_0)
abbrev stg0_1 (t : Fin cfg0.N) : Memref sig .tc .vmem S1x128x128 .f32 := win0_1.stage (cfg0.slots t 1)
abbrev stgW0_1 (t : Fin cfg0.N) : (stg0_1 t).IsWhole := hstage0_1 ((cfg0.slots t 1).cast nbuf0_1)
abbrev stg0_2 (t : Fin cfg0.N) : Memref sig .tc .vmem S1000x128 .f32 := win0_2.stage (cfg0.slots t 2)
abbrev stgW0_2 (t : Fin cfg0.N) : (stg0_2 t).IsWhole := hstage0_2 ((cfg0.slots t 2).cast nbuf0_2)

/-! ## What the body finds in the inputs' buffers -/

/-- Both input windows are fetched at every point, so each one's buffer holds its block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-! ## The body at a point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's k selects the case; the invariant hands over the
    accumulator at what the point before left (at anything before the first point) and takes it back at this point's value,
    which is the recurrence of `acc0`; the output's buffer is handed back untouched where it is idle and ends at the
    accumulator's value at k = 4. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  rw [show (dat0 V c).leavesExact 0 t = owns (c : Thread nD τ) (stg0_0 t) fullShare ((dat0 V c).after 0 t) from by
    unfold Dat.leavesExact; rw [live0_0 t], after0_0]
  rw [show (dat0 V c).leavesExact 1 t = owns (c : Thread nD τ) (stg0_1 t) fullShare ((dat0 V c).after 1 t) from by
    unfold Dat.leavesExact; rw [live0_1 t], after0_1]
  by_cases h0 : t.val % 5 = 0
  · have h1 : ¬t.val % 5 = 4 := by omega
    have hl : ¬isLast0 (grid0.coords t) := fun h => h1 ((isLast0_iff t).mp h)
    rw [Dat.leavesExact_idle (dat0 V c) 2 t (idle0_2 t hl) (noFlush0_2 t hl)]
    rw [acc0_reset V c t h0]
    by_cases hz : t.val = 0
    · rw [PhiS0_castSucc V c t, PhiS0_zero V c _ _ hz]
      iintro ⟨HA, Ho, ⟨%d0, H0⟩, ⟨%d1, H1⟩, ⟨%d2, H2⟩⟩
      ihave HA' := (PhiA0_split (F := F) c) $$ HA
      icases HA' with ⟨⟨HS, Hr⟩, Hg⟩
      iapply (runFirst0 c (grid0.coords t) _ _ _ _ _ _ _ _ ((isFirst0_iff t).mpr h0) hl (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hr⟩, Hg⟩, Ho, ⟨%d0, H0⟩, ⟨%d1, H1⟩, ⟨%d2, H2⟩⟩
      iapply (runFirst0 c (grid0.coords t) _ _ _ _ _ _ _ _ ((isFirst0_iff t).mpr h0) hl (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hf : ¬isFirst0 (grid0.coords t) := fun h => h0 ((isFirst0_iff t).mp h)
    have hz : t.val ≠ 0 := fun hz => h0 (by rw [hz])
    rw [acc0_step V c t h0]
    rw [PhiS0_castSucc V c t, PhiS0_pos V c _ _ hz]
    by_cases h1 : t.val % 5 = 4
    · have hl : isLast0 (grid0.coords t) := (isLast0_iff t).mpr h1
      rw [show (dat0 V c).leavesExact 2 t = owns (c : Thread nD τ) (stg0_2 t) fullShare ((dat0 V c).after 2 t) from by
        unfold Dat.leavesExact; rw [live0_2 t hl], after0_2, acc0_step V c t h0]
      iintro ⟨⟨⟨HS, Hr⟩, Hg⟩, Ho, ⟨%d0, H0⟩, ⟨%d1, H1⟩, ⟨%d2, H2⟩⟩
      iapply (runLast0 c (grid0.coords t) _ _ _ _ _ _ _ _ hf hl (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬isLast0 (grid0.coords t) := fun h => h1 ((isLast0_iff t).mp h)
      rw [Dat.leavesExact_idle (dat0 V c) 2 t (idle0_2 t hl) (noFlush0_2 t hl)]
      iintro ⟨⟨⟨HS, Hr⟩, Hg⟩, Ho, ⟨%d0, H0⟩, ⟨%d1, H1⟩, ⟨%d2, H2⟩⟩
      iapply (runMid0 c (grid0.coords t) _ _ _ _ _ _ _ _ hf hl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  Region 1 (the first channel-mixing kernel): the body obligation. A grid point t = 5·i + k adds the product of its two
  input blocks onto the accumulator, which it first resets to zero when k = 0, and copies the accumulator to the output
  block when k = 4. Three cases of k: k = 0 (reset, then add), 0 < k < 4 (add), k = 4 (add, then copy). In each the body is
  run on whole memrefs at named contents and leaves the accumulator at the block product added onto zero (k = 0) or onto
  what it held; this is the recurrence that defines `acc1`, so the invariant between points is kept. The output's buffer is
  idle and handed back untouched unless k = 4, where it ends at the accumulator's value.
-/
import proofs.«402212_j24189255811803_4_alg».proof.Proof.BDat1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point handles Chebyshev term 0: the accumulator is reset there. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 5 = 0 :=
  (by decide +kernel : ∀ t : Fin grid1.N, isFirst1 (grid1.coords t) ↔ t.val % 5 = 0)

/-- The point handles the last Chebyshev term: the accumulator is copied to the output block there. -/
abbrev isLast1 (i : grid1.Coords) : Prop := k1_cond2 i = 1#1
theorem isLast1_iff : ∀ t : Fin cfg1.N, isLast1 (grid1.coords t) ↔ t.val % 5 = 4 :=
  (by decide +kernel : ∀ t : Fin grid1.N, isLast1 (grid1.coords t) ↔ t.val % 5 = 4)

/-! ## The body on whole memrefs, case by case -/

theorem offs2_1 : (![0, 0] : Fin 2 → ℕ) = fun _ => 0 := funext fun a => by fin_cases a <;> rfl
theorem offs3_1 : (![0, 0, 0] : Fin 3 → ℕ) = fun _ => 0 := funext fun a => by fin_cases a <;> rfl

set_option maxHeartbeats 1000000 in
/-- A point with 0 < k < 4: on whole memrefs holding the two input blocks `x0`, `x1`, the output's buffer at `xo` and the
    accumulator at `s`, the body leaves the inputs and the output's buffer as they were and the accumulator at
    `s` plus the block product. -/
theorem runMid1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst1 i) (hc1 : ¬isLast1 i)
    (x0 : Vec F S1x1000x128 .f32) (x1 : Vec F S1x128x128 .f32) (xo : Vec F S1000x128 .f32) (s : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 s)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_unit_zero offs2_1]
  simp only [View.readAt_eq_ld, harg2.read_unread, harg3.read_unread, harg5.read_unread, View.ld_unit_zero (S := S1x1000x128) offs3_1, View.ld_unit_zero (S := S1x128x128) offs3_1, View.ld_unit_zero (S := S1000x128) offs2_1]

set_option maxHeartbeats 1000000 in
/-- A point with k = 0: whatever the accumulator held, the body leaves it at zero plus the block product. -/
theorem runFirst1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : isFirst1 i) (hc1 : ¬isLast1 i)
    (x0 : Vec F S1x1000x128 .f32) (x1 : Vec F S1x128x128 .f32) (xo : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 (k1_pay1 (F := F)))) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_cons_unit_zero (S := S1000x128) offs2_1]
  simp only [View.readAt_eq_ld, harg2.read_unread, harg3.read_unread, View.ld_unit_zero (S := S1x1000x128) offs3_1, View.ld_unit_zero (S := S1x128x128) offs3_1, View.readCov_unit_zero (S := S1000x128) _ offs2_1]

set_option maxHeartbeats 1000000 in
/-- A point with k = 4: the accumulator ends at `s` plus the block product, and the output's buffer, whatever it held,
    ends at the same. -/
theorem runLast1 (c : Dev nD) (i : grid1.Coords)
    (arg2 : Memref sig .tc .vmem S1x1000x128 .f32) (harg2 : arg2.IsWhole)
    (arg3 : Memref sig .tc .vmem S1x128x128 .f32) (harg3 : arg3.IsWhole)
    (arg4 : Memref sig .tc .vmem S1000x128 .f32) (harg4 : arg4.IsWhole)
    (arg5 : Memref sig .tc .vmem S1000x128 .f32) (harg5 : arg5.IsWhole)
    (hc0 : ¬isFirst1 i) (hc1 : isLast1 i)
    (x0 : Vec F S1x1000x128 .f32) (x1 : Vec F S1x128x128 .f32) (s : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero offs2_1 inb_S1000x128_S1000x128_0_0 y⟩), View.canon_unit_zero offs2_1]
    simp only [View.readAt_eq_ld, harg2.read_unread, harg3.read_unread, harg5.read_unread, View.ld_unit_zero (S := S1x1000x128) offs3_1, View.ld_unit_zero (S := S1x128x128) offs3_1, View.ld_unit_zero (S := S1000x128) offs2_1, View.readCov_unit_zero (S := S1000x128) _ offs2_1]
  iexists _; isplitr
  swap; · iexact HS
  ipureintro
  sl_unfold_words
  rw [View.read_writes_eq_canon _ _ _ (fun y => ⟨_, List.mem_cons_self, View.mem_set_unit_zero offs2_1 inb_S1000x128_S1000x128_0_0 y⟩), View.canon_unit_zero offs2_1]
  simp only [View.readAt_eq_ld, harg2.read_unread, harg3.read_unread, harg5.read_unread, View.ld_unit_zero (S := S1x1000x128) offs3_1, View.ld_unit_zero (S := S1x128x128) offs3_1, View.ld_unit_zero (S := S1000x128) offs2_1]

/-! ## Where the windows are live -/

/-- The two input windows are live at every point. -/
theorem live1_0 : ∀ t : Fin cfg1.N, cfg1.idle 0 (grid1.coords t) = false := by decide +kernel
theorem live1_1 : ∀ t : Fin cfg1.N, cfg1.idle 1 (grid1.coords t) = false := by decide +kernel
/-- Away from the last Chebyshev term the output window is idle and is not written back; -/
theorem idle1_2 : ∀ t : Fin cfg1.N, ¬isLast1 (grid1.coords t) → cfg1.idle 2 (grid1.coords t) = true := by decide +kernel
theorem noFlush1_2 : ∀ t : Fin cfg1.N, ¬isLast1 (grid1.coords t) → (cfg1.win 2).flush t = false := by decide +kernel
/-- at the last term it is live. -/
theorem live1_2 : ∀ t : Fin cfg1.N, isLast1 (grid1.coords t) → cfg1.idle 2 (grid1.coords t) = false := by decide +kernel

/-! ## The staging memrefs at a point -/

abbrev stg1_0 (t : Fin cfg1.N) : Memref sig .tc .vmem S1x1000x128 .f32 := win1_0.stage (cfg1.slots t 0)
abbrev stgW1_0 (t : Fin cfg1.N) : (stg1_0 t).IsWhole := hstage1_0 ((cfg1.slots t 0).cast nbuf1_0)
abbrev stg1_1 (t : Fin cfg1.N) : Memref sig .tc .vmem S1x128x128 .f32 := win1_1.stage (cfg1.slots t 1)
abbrev stgW1_1 (t : Fin cfg1.N) : (stg1_1 t).IsWhole := hstage1_1 ((cfg1.slots t 1).cast nbuf1_1)
abbrev stg1_2 (t : Fin cfg1.N) : Memref sig .tc .vmem S1000x128 .f32 := win1_2.stage (cfg1.slots t 2)
abbrev stgW1_2 (t : Fin cfg1.N) : (stg1_2 t).IsWhole := hstage1_2 ((cfg1.slots t 2).cast nbuf1_2)

/-! ## What the body finds in the inputs' buffers -/

/-- Both input windows are fetched at every point, so each one's buffer holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body at a point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's k selects the case; the invariant hands over the
    accumulator at what the point before left (at anything before the first point) and takes it back at this point's value,
    which is the recurrence of `acc1`; the output's buffer is handed back untouched where it is idle and ends at the
    accumulator's value at k = 4. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  rw [show (dat1 V c).leavesExact 0 t = owns (c : Thread nD τ) (stg1_0 t) fullShare ((dat1 V c).after 0 t) from by
    unfold Dat.leavesExact; rw [live1_0 t], after1_0]
  rw [show (dat1 V c).leavesExact 1 t = owns (c : Thread nD τ) (stg1_1 t) fullShare ((dat1 V c).after 1 t) from by
    unfold Dat.leavesExact; rw [live1_1 t], after1_1]
  by_cases h0 : t.val % 5 = 0
  · have h1 : ¬t.val % 5 = 4 := by omega
    have hl : ¬isLast1 (grid1.coords t) := fun h => h1 ((isLast1_iff t).mp h)
    rw [Dat.leavesExact_idle (dat1 V c) 2 t (idle1_2 t hl) (noFlush1_2 t hl)]
    rw [acc1_reset V c t h0]
    by_cases hz : t.val = 0
    · rw [PhiS1_castSucc V c t, PhiS1_zero V c _ _ hz]
      iintro ⟨HA, Ho, ⟨%d0, H0⟩, ⟨%d1, H1⟩, ⟨%d2, H2⟩⟩
      ihave HA' := (PhiA1_split (F := F) c) $$ HA
      icases HA' with ⟨⟨HS, Hr⟩, Hg⟩
      iapply (runFirst1 c (grid1.coords t) _ _ _ _ _ _ _ _ ((isFirst1_iff t).mpr h0) hl (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hr⟩, Hg⟩, Ho, ⟨%d0, H0⟩, ⟨%d1, H1⟩, ⟨%d2, H2⟩⟩
      iapply (runFirst1 c (grid1.coords t) _ _ _ _ _ _ _ _ ((isFirst1_iff t).mpr h0) hl (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hf : ¬isFirst1 (grid1.coords t) := fun h => h0 ((isFirst1_iff t).mp h)
    have hz : t.val ≠ 0 := fun hz => h0 (by rw [hz])
    rw [acc1_step V c t h0]
    rw [PhiS1_castSucc V c t, PhiS1_pos V c _ _ hz]
    by_cases h1 : t.val % 5 = 4
    · have hl : isLast1 (grid1.coords t) := (isLast1_iff t).mpr h1
      rw [show (dat1 V c).leavesExact 2 t = owns (c : Thread nD τ) (stg1_2 t) fullShare ((dat1 V c).after 2 t) from by
        unfold Dat.leavesExact; rw [live1_2 t hl], after1_2, acc1_step V c t h0]
      iintro ⟨⟨⟨HS, Hr⟩, Hg⟩, Ho, ⟨%d0, H0⟩, ⟨%d1, H1⟩, ⟨%d2, H2⟩⟩
      iapply (runLast1 c (grid1.coords t) _ _ _ _ _ _ _ _ hf hl (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬isLast1 (grid1.coords t) := fun h => h1 ((isLast1_iff t).mp h)
      rw [Dat.leavesExact_idle (dat1 V c) 2 t (idle1_2 t hl) (noFlush1_2 t hl)]
      iintro ⟨⟨⟨HS, Hr⟩, Hg⟩, Ho, ⟨%d0, H0⟩, ⟨%d1, H1⟩, ⟨%d2, H2⟩⟩
      iapply (runMid1 c (grid1.coords t) _ _ _ _ _ _ _ _ hf hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The run of @main: eleven segments — three stretches of host operations, the first channel-mixing region, three more
  stretches, the second region, three last stretches — composed by the library's launch theorem for a list of segments.
  `W0 … W11` are the TensorCore's buffer contents at the segment boundaries: a fold from the launch memory, a stretch
  applying its operations, a region replacing its arrays by what its write-backs leave. The thread state between
  segments is "every unscoped buffer at the boundary's contents, the generator register at some state, nothing owed".
  `run_main` says every weakly fair execution terminates with every unscoped buffer at `W11`.
-/
import proofs.«402212_j24189255811803_4_alg».proof.Proof.BDat0
import proofs.«402212_j24189255811803_4_alg».proof.Proof.BDat1
import proofs.«402212_j24189255811803_4_alg».proof.Proof.BKeep
import proofs.«402212_j24189255811803_4_alg».proof.Proof.BBody0
import proofs.«402212_j24189255811803_4_alg».proof.Proof.BBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry contents. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs folded in),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- Region 1's entry contents. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
/-- At region 1's exit: its arrays at what the pipeline leaves (the inputs as entered, the output's write-backs folded in),
    every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
/-- The contents when @main returns. -/
abbrev W11 : Dev nD → Valuation τ sig (Elt F) := fun c => StableHlo.after hostOps2_2 (W10 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No operation of a stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W3`, left at `W4`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine .trans (show (pdats m ρ 0 c).Φ (Fin.last _) ⊢ Pipeline.ΦA spec0 c from hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W7`, left at `W8`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine .trans (show (pdats m ρ 1 c).Φ (Fin.last _) ⊢ Pipeline.ΦA spec1 c from hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main on the TensorCores terminates, nothing
    faulting, and every final state has every unscoped TensorCore buffer at `W11`. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

/-! ## The argument arrays end as launched -/

/-- No host operation and no region writes an argument array: the fold at an argument's buffer walks back to the launch
    memory (a region reads an argument through an input window or bypasses it). -/
theorem W11_arg (c : Dev nD) (j : Fin 10) :
    W11 m ρ c (Proc.devRef .tc (argRef j)) = m ((c : Thread nD τ).loc (argRef j)) := by
  have h8 : W8 m ρ c (Proc.devRef .tc (argRef j)) = W7 m ρ c (Proc.devRef .tc (argRef j)) := by
    fin_cases j <;> first
      | exact W8_of_ne m ρ c _ (by decide)
      | exact (W8_arr m ρ c 1).trans (((dat1 (V7 m ρ) c).arrAt_in 1 rfl _).trans (A_eq1 (V7 m ρ) c 1))
  have h4 : W4 m ρ c (Proc.devRef .tc (argRef j)) = W3 m ρ c (Proc.devRef .tc (argRef j)) := by
    fin_cases j <;> first
      | exact W4_of_ne m ρ c _ (by decide)
      | exact (W4_arr m ρ c 1).trans (((dat0 (V3 m ρ) c).arrAt_in 1 rfl _).trans (A_eq0 (V3 m ρ) c 1))
  calc W11 m ρ c (Proc.devRef .tc (argRef j))
    _ = W10 m ρ c (Proc.devRef .tc (argRef j)) := keep_hostOps2_2 _ j
    _ = W9 m ρ c (Proc.devRef .tc (argRef j)) := keep_hostOps2_1 _ j
    _ = W8 m ρ c (Proc.devRef .tc (argRef j)) := keep_hostOps2 _ j
    _ = W7 m ρ c (Proc.devRef .tc (argRef j)) := h8
    _ = W6 m ρ c (Proc.devRef .tc (argRef j)) := keep_hostOps1_2 _ j
    _ = W5 m ρ c (Proc.devRef .tc (argRef j)) := keep_hostOps1_1 _ j
    _ = W4 m ρ c (Proc.devRef .tc (argRef j)) := keep_hostOps1 _ j
    _ = W3 m ρ c (Proc.devRef .tc (argRef j)) := h4
    _ = W2 m ρ c (Proc.devRef .tc (argRef j)) := keep_hostOps0_2 _ j
    _ = W1 m ρ c (Proc.devRef .tc (argRef j)) := keep_hostOps0_1 _ j
    _ = W0 m ρ c (Proc.devRef .tc (argRef j)) := keep_hostOps0 _ j
    _ = m ((c : Thread nD τ).loc (argRef j)) := rfl

/-- The frame: @main runs to the end, faults nowhere, and leaves its ten argument arrays as launched. -/
theorem frame : θ_run defs (onTc (τ := τ) (main (F := F))) ⟨m, fun _ => 0, ρ⟩ (fun r => ∀ c : Dev nD, ∀ j : Fin 10,
      r.2.mem ((c.tc : Thread nD τ).loc (argRef j)) = m ((c.tc : Thread nD τ).loc (argRef j))) :=
  (θ_run defs _ _).mono (fun _ h c j => (h c (argRef j) (by fin_cases j <;> decide)).trans (W11_arg m ρ c j)) (run_main m ρ)

end Cert.Kernel.Hand

end
-- ==== Proof.Spec.lean ====
/-
  What the two programs compute, as functions of arrays: the pieces of a two-layer Chebyshev graph convolution.
  `edgeRow` / `edgeCol` are the two rows of the edge list; `wrapIdx` is jnp's index normalisation (a negative index
  counts from the end); `degInvSqrt` is D^{-1/2} with isolated nodes at 0; `edgeWeight` is the off-diagonal of the scaled
  Laplacian, -2 · dis[row] · dis[col] / lambda_max[batch[row]]; `diagVec` is its diagonal, 2 / lambda_max[batch] - 1;
  `lapApply` is one application L̂ v = scatter-add over rows of (weight · v[col]) + diag · v, the diagonal entering as a
  column that is broadcast along the channels; `chebNext` is one step of the recurrence T_{k+1} = 2 L̂ T_k - T_{k-1};
  `stack5` piles five feature arrays on a new leading axis; `biasRelu` adds the bias row and clamps at zero;
  `poolHead` is the mean over each graph of the batch followed by the linear classifier.
-/
import proofs.«402212_j24189255811803_4_alg».proof.Proof.Gen.KernelIdeal

noncomputable section

namespace Cert.KernelIdeal.Spec

open Cert.KernelIdeal Cert.KernelIdeal.Gen Idealize.ShloMosaic

variable {F : FTy → Type} [FloatOps F]

/-- An integer array of shape `S`. -/
abbrev IArr (F : FTy → Type) (S : Shape) := (⟨S, .i32⟩ : BufTy).Contents (Elt F)
/-- A float array of shape `S`. -/
abbrev FArr (F : FTy → Type) (S : Shape) := (⟨S, .f32⟩ : BufTy).Contents (Elt F)

/-- Row 0 of the edge list: the target node of each edge. -/
def edgeRow (ei : IArr F S2x800000) : IArr F S800000 :=
  shapeCast S800000 (extractStridedSlice S1x800000 ![0, 0] ei slices_S2x800000_S1x800000_0_0) shapeCasts_S1x800000_S800000
/-- Row 1 of the edge list: the source node of each edge. -/
def edgeCol (ei : IArr F S2x800000) : IArr F S800000 :=
  shapeCast S800000 (extractStridedSlice S1x800000 ![1, 0] ei slices_S2x800000_S1x800000_1_0) shapeCasts_S1x800000_S800000

/-- jnp's index normalisation over the edges: a negative index has the extent `n` added; then a trailing unit axis. -/
def wrapIdxE (n : BitVec 32) (v : IArr F S800000) : IArr F S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 n))) v)
/-- The same over the nodes. -/
def wrapIdxN (n : BitVec 32) (v : IArr F S50000) : IArr F S50000x1 :=
  broadcastInDim S50000x1 ![0] bcast_S50000_S50000x1_0
    (select (cmpi .slt v (broadcastInDim S50000 ![] bcast_S_S50000 (constantI S_ 32 0#32)))
      (addi v (broadcastInDim S50000 ![] bcast_S_S50000 (constantI S_ 32 n))) v)

/-- The in-degree of every node: ones scattered over the edges' targets. -/
def degree (row : IArr F S800000) : FArr F S50000 :=
  Host.scatterAdd scatter_S50000_S800000x1_S800000_n_0_0_1
    (broadcastInDim S50000 ![] bcast_S_S50000 (constant S_ .f32 0x00000000#32))
    (broadcastInDim S800000x1 ![0] bcast_S800000_S800000x1_0 row)
    (broadcastInDim S800000 ![] bcast_S_S800000 (constant S_ .f32 0x3F800000#32))

/-- deg^{-1/2} where the degree is positive, 0 elsewhere. -/
def degInvSqrt (row : IArr F S800000) : FArr F S50000 :=
  select (cmpf .ogt (degree row) (broadcastInDim S50000 ![] bcast_S_S50000 (constant S_ .f32 0x00000000#32)))
    (Host.rsqrt (maximumf (degree row) (broadcastInDim S50000 ![] bcast_S_S50000 (constant S_ .f32 0x2B8CBCCC#32))))
    (broadcastInDim S50000 ![] bcast_S_S50000 (id (constant S_ .f32 0x00000000#32)))

/-- The edge weights -2 · dis[row] · dis[col] / lambda_max[batch[row]]. -/
def edgeWeight (row col : IArr F S800000) (batch : IArr F S50000) (lam : FArr F S8) : FArr F S800000 :=
  Host.divf
    (mulf (mulf (broadcastInDim S800000 ![] bcast_S_S800000 (constant S_ .f32 0xC0000000#32))
        (Host.gather gather_S50000_S800000x1_S800000_n_0_n_n_0_1_1 (degInvSqrt row) (wrapIdxE 50000#32 row)))
      (Host.gather gather_S50000_S800000x1_S800000_n_0_n_n_0_1_1 (degInvSqrt row) (wrapIdxE 50000#32 col)))
    (Host.gather gather_S8_S800000x1_S800000_n_0_n_n_0_1_1 lam
      (wrapIdxE 8#32 (Host.gather gather_S50000_S800000x1_S800000_n_0_n_n_0_1_1 batch (wrapIdxE 50000#32 row))))

/-- The diagonal 2 / lambda_max[batch] - 1, one entry per node. -/
def diagVec (batch : IArr F S50000) (lam : FArr F S8) : FArr F S50000 :=
  subf (Host.divf (broadcastInDim S50000 ![] bcast_S_S50000 (constant S_ .f32 0x40000000#32))
      (Host.gather gather_S8_S50000x1_S50000_n_0_n_n_0_1_1 lam (wrapIdxN 8#32 batch)))
    (broadcastInDim S50000 ![] bcast_S_S50000 (constant S_ .f32 0x3F800000#32))

/-- The diagonal as a column, by a reshape (the kernel's spelling). -/
def diagColReshape (d : FArr F S50000) : FArr F S50000x1 := shapeCast S50000x1 d shapeCasts_S50000_S50000x1
/-- The diagonal as a column, by a broadcast (the reference's spelling). -/
def diagColBcast (d : FArr F S50000) : FArr F S50000x1 := broadcastInDim S50000x1 ![0] bcast_S50000_S50000x1_0 d

/-- One application of the scaled Laplacian to a feature array: the messages `weight · v[col]` summed at the edges'
    targets, plus the diagonal column times `v`. -/
def lapApply (dcol : FArr F S50000x1) (row col : IArr F S800000) (w : FArr F S800000) (v : FArr F S50000x128) : FArr F S50000x128 :=
  addf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 row)
      (mulf (Host.gather gather_S50000x128_S800000x1_S800000x128_1_0_n_n_0_1_1128 v (wrapIdxE 50000#32 col))
        (broadcastInDim S800000x128 ![0, 1] bcast_S800000x1_S800000x128_0_1 (broadcastInDim S800000x1 ![0] bcast_S800000_S800000x1_0 w))))
    (mulf (broadcastInDim S50000x128 ![0, 1] bcast_S50000x1_S50000x128_0_1 dcol) v)

/-- One step of the Chebyshev recurrence: `2 · L̂ t1 - t0`. -/
def chebNext (dcol : FArr F S50000x1) (row col : IArr F S800000) (w : FArr F S800000) (t1 t0 : FArr F S50000x128) : FArr F S50000x128 :=
  subf (mulf (broadcastInDim S50000x128 ![] bcast_S_S50000x128 (constant S_ .f32 0x40000000#32)) (lapApply dcol row col w t1)) t0

/-- The Chebyshev terms T₁ … T₄ of a feature array `x` (T₀ = x): T₁ = L̂ x, T_{k+1} = 2 L̂ T_k - T_{k-1}. -/
def cheb1 (dcol : FArr F S50000x1) (row col : IArr F S800000) (w : FArr F S800000) (x : FArr F S50000x128) : FArr F S50000x128 :=
  lapApply dcol row col w x
def cheb2 (dcol : FArr F S50000x1) (row col : IArr F S800000) (w : FArr F S800000) (x : FArr F S50000x128) : FArr F S50000x128 :=
  chebNext dcol row col w (cheb1 dcol row col w x) x
def cheb3 (dcol : FArr F S50000x1) (row col : IArr F S800000) (w : FArr F S800000) (x : FArr F S50000x128) : FArr F S50000x128 :=
  chebNext dcol row col w (cheb2 dcol row col w x) (cheb1 dcol row col w x)
def cheb4 (dcol : FArr F S50000x1) (row col : IArr F S800000) (w : FArr F S800000) (x : FArr F S50000x128) : FArr F S50000x128 :=
  chebNext dcol row col w (cheb3 dcol row col w x) (cheb2 dcol row col w x)

/-- Five feature arrays piled on a new leading axis. -/
def stack5 (t0 t1 t2 t3 t4 : FArr F S50000x128) : FArr F S5x50000x128 :=
  concatenate S5x50000x128 0
    [⟨S1x50000x128, broadcastInDim S1x50000x128 ![1, 2] bcast_S50000x128_S1x50000x128_1_2 t0⟩,
     ⟨S1x50000x128, broadcastInDim S1x50000x128 ![1, 2] bcast_S50000x128_S1x50000x128_1_2 t1⟩,
     ⟨S1x50000x128, broadcastInDim S1x50000x128 ![1, 2] bcast_S50000x128_S1x50000x128_1_2 t2⟩,
     ⟨S1x50000x128, broadcastInDim S1x50000x128 ![1, 2] bcast_S50000x128_S1x50000x128_1_2 t3⟩,
     ⟨S1x50000x128, broadcastInDim S1x50000x128 ![1, 2] bcast_S50000x128_S1x50000x128_1_2 t4⟩]
    concatenates_S1x50000x128_S1x50000x128_S1x50000x128_S1x50000x128_S1x50000x128_S5x50000x128_d0

/-- The five Chebyshev terms of `x`, piled up: what the channel-mixing kernel is handed. -/
def chebStack (dcol : FArr F S50000x1) (row col : IArr F S800000) (w : FArr F S800000) (x : FArr F S50000x128) : FArr F S5x50000x128 :=
  stack5 x (cheb1 dcol row col w x) (cheb2 dcol row col w x) (cheb3 dcol row col w x) (cheb4 dcol row col w x)

/-- The bias row added to every node, then the clamp at zero. -/
def biasRelu (x : FArr F S50000x128) (b : FArr F S128) : FArr F S50000x128 :=
  maximumf
    (addf x (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The mean of the node features over each graph of the batch (a graph with no node divides by 1), then the linear
    classifier and its bias. -/
def poolHead (h : FArr F S50000x128) (batch : IArr F S50000) (wl : FArr F S128x10) (bl : FArr F S10) : FArr F S8x10 :=
  addf
    (Host.dotGeneral dot_S8x128_S128x10_S8x10_1_0_0_1_n_n none
      (Host.divf
        (Host.scatterAdd scatter_S8x128_S50000x1_S50000x128_1_0_0_1
          (broadcastInDim S8x128 ![] bcast_S_S8x128 (constant S_ .f32 0x00000000#32))
          (broadcastInDim S50000x1 ![0] bcast_S50000_S50000x1_0 batch) h)
        (broadcastInDim S8x128 ![0, 1] bcast_S8x1_S8x128_0_1
          (maximumf
            (Host.scatterAdd scatter_S8x1_S50000x1_S50000x1_1_0_0_1
              (broadcastInDim S8x1 ![] bcast_S_S8x1 (constant S_ .f32 0x00000000#32))
              (broadcastInDim S50000x1 ![0] bcast_S50000_S50000x1_0 batch)
              (broadcastInDim S50000x1 ![] bcast_S_S50000x1 (constant S_ .f32 0x3F800000#32)))
            (broadcastInDim S8x1 ![] bcast_S_S8x1 (constant S_ .f32 0x3F800000#32)))))
      wl)
    (broadcastInDim S8x10 ![0, 1] bcast_S1x10_S8x10_0_1 (broadcastInDim S1x10 ![1] bcast_S10_S1x10_1 bl))

end Cert.KernelIdeal.Spec

end
-- ==== Proof.MixDef.lean ====
/-
  The channel-mixing kernel's result as one function of the stacked terms and the stacked weights, over the extended
  reals: at node r and channel c the five block products `∑ j, T_k (r, j) · W_k (j, c)` added, in the order k = 0 … 4,
  onto the zero the accumulator starts from.
-/
import proofs.«402212_j24189255811803_4_alg».proof.Proof.Spec
import Idealize.ShloMosaic.PureOps.Ideal
import Idealize.ShloMosaic.Lib.ValueIdx

noncomputable section

namespace Cert.KernelIdeal.Spec

open Cert.KernelIdeal Idealize.ShloMosaic Idealize.ShloMosaic.ValueIdx

/-- Term k's block product at (r, c). -/
def dotAt (tx : FVec Ideal S5x50000x128 .f32) (W : FVec Ideal S5x128x128 .f32) (k : Fin 5) (r : Fin 50000) (c : Fin 128) : EReal :=
  ∑ j : Fin 128, tx (ix3 k r j) * W (ix3 k j c)

/-- The accumulated value at (r, c). -/
def mixAt (tx : FVec Ideal S5x50000x128 .f32) (W : FVec Ideal S5x128x128 .f32) (r : Fin 50000) (c : Fin 128) : EReal :=
  ((((0 + dotAt tx W 0 r c) + dotAt tx W 1 r c) + dotAt tx W 2 r c) + dotAt tx W 3 r c) + dotAt tx W 4 r c

/-- The kernel's result array. -/
def mixI (tx : FVec Ideal S5x50000x128 .f32) (W : FVec Ideal S5x128x128 .f32) : FVec Ideal S50000x128 .f32 :=
  fun i => mixAt tx W (i 0) (i 1)

theorem mixI_apply (tx : FVec Ideal S5x50000x128 .f32) (W : FVec Ideal S5x128x128 .f32) (r : Fin 50000) (c : Fin 128) :
    mixI tx W (ix2 r c) = mixAt tx W r c := rfl

end Cert.KernelIdeal.Spec

end
-- ==== Proof.RefMix.lean ====
/-
  The reference's channel mixing: the five Chebyshev terms each multiplied by its own 128 × 128 slice of the stacked
  weights, the five products added up from the left.
-/
import proofs.«402212_j24189255811803_4_alg».proof.Proof.Spec
import proofs.«402212_j24189255811803_4_alg».proof.Proof.Gen.ReferenceIdeal

noncomputable section

namespace Cert.ReferenceIdeal.Spec

open Cert.ReferenceIdeal Cert.ReferenceIdeal.Gen Idealize.ShloMosaic

variable {F : FTy → Type} [FloatOps F]

/-- Slice `k` of the stacked weights, as a 128 × 128 matrix. -/
def wSlice0 (W : (⟨S5x128x128, .f32⟩ : BufTy).Contents (Elt F)) : (⟨S128x128, .f32⟩ : BufTy).Contents (Elt F) :=
  shapeCast S128x128 (extractStridedSlice S1x128x128 ![0, 0, 0] W slices_S5x128x128_S1x128x128_0_0_0) shapeCasts_S1x128x128_S128x128
def wSlice1 (W : (⟨S5x128x128, .f32⟩ : BufTy).Contents (Elt F)) : (⟨S128x128, .f32⟩ : BufTy).Contents (Elt F) :=
  shapeCast S128x128 (extractStridedSlice S1x128x128 ![1, 0, 0] W slices_S5x128x128_S1x128x128_1_0_0) shapeCasts_S1x128x128_S128x128
def wSlice2 (W : (⟨S5x128x128, .f32⟩ : BufTy).Contents (Elt F)) : (⟨S128x128, .f32⟩ : BufTy).Contents (Elt F) :=
  shapeCast S128x128 (extractStridedSlice S1x128x128 ![2, 0, 0] W slices_S5x128x128_S1x128x128_2_0_0) shapeCasts_S1x128x128_S128x128
def wSlice3 (W : (⟨S5x128x128, .f32⟩ : BufTy).Contents (Elt F)) : (⟨S128x128, .f32⟩ : BufTy).Contents (Elt F) :=
  shapeCast S128x128 (extractStridedSlice S1x128x128 ![3, 0, 0] W slices_S5x128x128_S1x128x128_3_0_0) shapeCasts_S1x128x128_S128x128
def wSlice4 (W : (⟨S5x128x128, .f32⟩ : BufTy).Contents (Elt F)) : (⟨S128x128, .f32⟩ : BufTy).Contents (Elt F) :=
  shapeCast S128x128 (extractStridedSlice S1x128x128 ![4, 0, 0] W slices_S5x128x128_S1x128x128_4_0_0) shapeCasts_S1x128x128_S128x128

/-- One term times its slice. -/
def dotW (t : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none t w

/-- The five products, added from the left. -/
def mixR (t0 t1 t2 t3 t4 : (⟨S50000x128, .f32⟩ : BufTy).Contents (Elt F)) (W : (⟨S5x128x128, .f32⟩ : BufTy).Contents (Elt F)) :
    (⟨S50000x128, .f32⟩ : BufTy).Contents (Elt F) :=
  addf (addf (addf (addf (dotW t0 (wSlice0 W)) (dotW t1 (wSlice1 W))) (dotW t2 (wSlice2 W))) (dotW t3 (wSlice3 W))) (dotW t4 (wSlice4 W))

end Cert.ReferenceIdeal.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.MixAlg.lean ====
/-
  The algebra that joins the two channel mixings. The kernel's result at node r and channel c is the zero the accumulator
  starts from plus the five block products ∑ j, T_k (r, j) · W (k, j, c), k = 0 … 4, added in that order; the reference's is
  the five matrix products T_k · W_k added from the left, W_k the k-th 128 × 128 slice of the stacked weights. Read at
  (r, c): the stack of the five terms at (k, r, j) is term k at (r, j); slice k of the weights at (j, c) is the stacked
  weights at (k, j, c); a rows × columns product is the sum over the contracted coordinate; and 0 + x = x. Both sides
  are then the same five sums, associated to the left. Also: a vector reshaped to a column and the same vector broadcast
  to a column read the same entry at every index.
-/
import proofs.«402212_j24189255811803_4_alg».proof.Proof.Spec
import proofs.«402212_j24189255811803_4_alg».proof.Proof.MixDef
import proofs.«402212_j24189255811803_4_alg».proof.Proof.RefMix
import proofs.«402212_j24189255811803_4_alg».proof.Proof.LibDotSum
import Idealize.ShloMosaic.PureOps.Ideal.Laws
import Idealize.ShloMosaic.Lib.ValueIdx
import Idealize.ShloMosaic.Lib.Pipeline.Value

noncomputable section

namespace Cert.KernelIdeal.Spec

open Cert.KernelIdeal Idealize.ShloMosaic Idealize.ShloMosaic.ValueIdx

/-! ## The stack of five terms read at (k, r, j): term k at (r, j) -/

theorem stack5_at0 {F : FTy → Type} [FloatOps F] (t0 t1 t2 t3 t4 : FArr F S50000x128) (r : Fin 50000) (j : Fin 128) :
    stack5 t0 t1 t2 t3 t4 (ix3 (0 : Fin 5) r j) = t0 (ix2 r j) := by
  unfold stack5
  refine Eq.trans (concatenate_apply_piece (0 : Fin 3) _ _ (ix3 (0 : Fin 5) r j) 0 ?_ S1x50000x128
    (broadcastInDim S1x50000x128 ![1, 2] Gen.bcast_S50000x128_S1x50000x128_1_2 t0) ?_ rfl 0 ?_
    (ix3 (0 : Fin 1) r j) (fun b hb => ?_) rfl) ?_
  · show (0 : Nat) < 5
    omega
  · rfl
  · rfl
  · match b with
    | ⟨0, _⟩ => exact absurd rfl hb
    | ⟨1, _⟩ => rfl
    | ⟨2, _⟩ => rfl
  · exact broadcastInDim_apply _ _ t0 (ix3 (0 : Fin 1) r j) (ix2 r j) (fun a => match a with | ⟨0, _⟩ => rfl | ⟨1, _⟩ => rfl)

theorem stack5_at1 {F : FTy → Type} [FloatOps F] (t0 t1 t2 t3 t4 : FArr F S50000x128) (r : Fin 50000) (j : Fin 128) :
    stack5 t0 t1 t2 t3 t4 (ix3 (1 : Fin 5) r j) = t1 (ix2 r j) := by
  unfold stack5
  refine Eq.trans (concatenate_apply_piece (0 : Fin 3) _ _ (ix3 (1 : Fin 5) r j) 1 ?_ S1x50000x128
    (broadcastInDim S1x50000x128 ![1, 2] Gen.bcast_S50000x128_S1x50000x128_1_2 t1) ?_ rfl 1 ?_
    (ix3 (0 : Fin 1) r j) (fun b hb => ?_) rfl) ?_
  · show (1 : Nat) < 5
    omega
  · rfl
  · rfl
  · match b with
    | ⟨0, _⟩ => exact absurd rfl hb
    | ⟨1, _⟩ => rfl
    | ⟨2, _⟩ => rfl
  · exact broadcastInDim_apply _ _ t1 (ix3 (0 : Fin 1) r j) (ix2 r j) (fun a => match a with | ⟨0, _⟩ => rfl | ⟨1, _⟩ => rfl)

theorem stack5_at2 {F : FTy → Type} [FloatOps F] (t0 t1 t2 t3 t4 : FArr F S50000x128) (r : Fin 50000) (j : Fin 128) :
    stack5 t0 t1 t2 t3 t4 (ix3 (2 : Fin 5) r j) = t2 (ix2 r j) := by
  unfold stack5
  refine Eq.trans (concatenate_apply_piece (0 : Fin 3) _ _ (ix3 (2 : Fin 5) r j) 2 ?_ S1x50000x128
    (broadcastInDim S1x50000x128 ![1, 2] Gen.bcast_S50000x128_S1x50000x128_1_2 t2) ?_ rfl 2 ?_
    (ix3 (0 : Fin 1) r j) (fun b hb => ?_) rfl) ?_
  · show (2 : Nat) < 5
    omega
  · rfl
  · rfl
  · match b with
    | ⟨0, _⟩ => exact absurd rfl hb
    | ⟨1, _⟩ => rfl
    | ⟨2, _⟩ => rfl
  · exact broadcastInDim_apply _ _ t2 (ix3 (0 : Fin 1) r j) (ix2 r j) (fun a => match a with | ⟨0, _⟩ => rfl | ⟨1, _⟩ => rfl)

theorem stack5_at3 {F : FTy → Type} [FloatOps F] (t0 t1 t2 t3 t4 : FArr F S50000x128) (r : Fin 50000) (j : Fin 128) :
    stack5 t0 t1 t2 t3 t4 (ix3 (3 : Fin 5) r j) = t3 (ix2 r j) := by
  unfold stack5
  refine Eq.trans (concatenate_apply_piece (0 : Fin 3) _ _ (ix3 (3 : Fin 5) r j) 3 ?_ S1x50000x128
    (broadcastInDim S1x50000x128 ![1, 2] Gen.bcast_S50000x128_S1x50000x128_1_2 t3) ?_ rfl 3 ?_
    (ix3 (0 : Fin 1) r j) (fun b hb => ?_) rfl) ?_
  · show (3 : Nat) < 5
    omega
  · rfl
  · rfl
  · match b with
    | ⟨0, _⟩ => exact absurd rfl hb
    | ⟨1, _⟩ => rfl
    | ⟨2, _⟩ => rfl
  · exact broadcastInDim_apply _ _ t3 (ix3 (0 : Fin 1) r j) (ix2 r j) (fun a => match a with | ⟨0, _⟩ => rfl | ⟨1, _⟩ => rfl)

theorem stack5_at4 {F : FTy → Type} [FloatOps F] (t0 t1 t2 t3 t4 : FArr F S50000x128) (r : Fin 50000) (j : Fin 128) :
    stack5 t0 t1 t2 t3 t4 (ix3 (4 : Fin 5) r j) = t4 (ix2 r j) := by
  unfold stack5
  refine Eq.trans (concatenate_apply_piece (0 : Fin 3) _ _ (ix3 (4 : Fin 5) r j) 4 ?_ S1x50000x128
    (broadcastInDim S1x50000x128 ![1, 2] Gen.bcast_S50000x128_S1x50000x128_1_2 t4) ?_ rfl 4 ?_
    (ix3 (0 : Fin 1) r j) (fun b hb => ?_) rfl) ?_
  · show (4 : Nat) < 5
    omega
  · rfl
  · rfl
  · match b with
    | ⟨0, _⟩ => exact absurd rfl hb
    | ⟨1, _⟩ => rfl
    | ⟨2, _⟩ => rfl
  · exact broadcastInDim_apply _ _ t4 (ix3 (0 : Fin 1) r j) (ix2 r j) (fun a => match a with | ⟨0, _⟩ => rfl | ⟨1, _⟩ => rfl)

/-! ## Slice k of the stacked weights read at (j, c): the stacked weights at (k, j, c) -/

theorem wSlice0_apply {F : FTy → Type} [FloatOps F] (W : FArr F S5x128x128) (j c : Fin 128) :
    Cert.ReferenceIdeal.Spec.wSlice0 (F := F) W (ix2 j c) = W (ix3 (0 : Fin 5) j c) := by
  unfold Cert.ReferenceIdeal.Spec.wSlice0
  refine (shapeCast_apply _ _ (ix2 j c) (ix3 (0 : Fin 1) j c) ?_).trans ?_
  · rw [Shape.rowMajor_val_three, Shape.rowMajor_val_two]
    show ((0 : Nat) * 128 + j.val) * 128 + c.val = j.val * 128 + c.val
    omega
  · refine extractStridedSlice_apply _ W _ (ix3 (0 : Fin 1) j c) (ix3 (0 : Fin 5) j c) (fun a => ?_)
    match a with
    | ⟨0, _⟩ => rfl
    | ⟨1, _⟩ => exact (Nat.zero_add _).symm
    | ⟨2, _⟩ => exact (Nat.zero_add _).symm

theorem wSlice1_apply {F : FTy → Type} [FloatOps F] (W : FArr F S5x128x128) (j c : Fin 128) :
    Cert.ReferenceIdeal.Spec.wSlice1 (F := F) W (ix2 j c) = W (ix3 (1 : Fin 5) j c) := by
  unfold Cert.ReferenceIdeal.Spec.wSlice1
  refine (shapeCast_apply _ _ (ix2 j c) (ix3 (0 : Fin 1) j c) ?_).trans ?_
  · rw [Shape.rowMajor_val_three, Shape.rowMajor_val_two]
    show ((0 : Nat) * 128 + j.val) * 128 + c.val = j.val * 128 + c.val
    omega
  · refine extractStridedSlice_apply _ W _ (ix3 (0 : Fin 1) j c) (ix3 (1 : Fin 5) j c) (fun a => ?_)
    match a with
    | ⟨0, _⟩ => rfl
    | ⟨1, _⟩ => exact (Nat.zero_add _).symm
    | ⟨2, _⟩ => exact (Nat.zero_add _).symm

theorem wSlice2_apply {F : FTy → Type} [FloatOps F] (W : FArr F S5x128x128) (j c : Fin 128) :
    Cert.ReferenceIdeal.Spec.wSlice2 (F := F) W (ix2 j c) = W (ix3 (2 : Fin 5) j c) := by
  unfold Cert.ReferenceIdeal.Spec.wSlice2
  refine (shapeCast_apply _ _ (ix2 j c) (ix3 (0 : Fin 1) j c) ?_).trans ?_
  · rw [Shape.rowMajor_val_three, Shape.rowMajor_val_two]
    show ((0 : Nat) * 128 + j.val) * 128 + c.val = j.val * 128 + c.val
    omega
  · refine extractStridedSlice_apply _ W _ (ix3 (0 : Fin 1) j c) (ix3 (2 : Fin 5) j c) (fun a => ?_)
    match a with
    | ⟨0, _⟩ => rfl
    | ⟨1, _⟩ => exact (Nat.zero_add _).symm
    | ⟨2, _⟩ => exact (Nat.zero_add _).symm

theorem wSlice3_apply {F : FTy → Type} [FloatOps F] (W : FArr F S5x128x128) (j c : Fin 128) :
    Cert.ReferenceIdeal.Spec.wSlice3 (F := F) W (ix2 j c) = W (ix3 (3 : Fin 5) j c) := by
  unfold Cert.ReferenceIdeal.Spec.wSlice3
  refine (shapeCast_apply _ _ (ix2 j c) (ix3 (0 : Fin 1) j c) ?_).trans ?_
  · rw [Shape.rowMajor_val_three, Shape.rowMajor_val_two]
    show ((0 : Nat) * 128 + j.val) * 128 + c.val = j.val * 128 + c.val
    omega
  · refine extractStridedSlice_apply _ W _ (ix3 (0 : Fin 1) j c) (ix3 (3 : Fin 5) j c) (fun a => ?_)
    match a with
    | ⟨0, _⟩ => rfl
    | ⟨1, _⟩ => exact (Nat.zero_add _).symm
    | ⟨2, _⟩ => exact (Nat.zero_add _).symm

theorem wSlice4_apply {F : FTy → Type} [FloatOps F] (W : FArr F S5x128x128) (j c : Fin 128) :
    Cert.ReferenceIdeal.Spec.wSlice4 (F := F) W (ix2 j c) = W (ix3 (4 : Fin 5) j c) := by
  unfold Cert.ReferenceIdeal.Spec.wSlice4
  refine (shapeCast_apply _ _ (ix2 j c) (ix3 (0 : Fin 1) j c) ?_).trans ?_
  · rw [Shape.rowMajor_val_three, Shape.rowMajor_val_two]
    show ((0 : Nat) * 128 + j.val) * 128 + c.val = j.val * 128 + c.val
    omega
  · refine extractStridedSlice_apply _ W _ (ix3 (0 : Fin 1) j c) (ix3 (4 : Fin 5) j c) (fun a => ?_)
    match a with
    | ⟨0, _⟩ => rfl
    | ⟨1, _⟩ => exact (Nat.zero_add _).symm
    | ⟨2, _⟩ => exact (Nat.zero_add _).symm

/-! ## One term times its slice, at (r, c): the sum over the contracted coordinate -/

theorem dotW_wSlice0_apply (t : FArr Ideal S50000x128) (W : FArr Ideal S5x128x128) (r : Fin 50000) (c : Fin 128) :
    Cert.ReferenceIdeal.Spec.dotW (F := Ideal) t (Cert.ReferenceIdeal.Spec.wSlice0 (F := Ideal) W) (ix2 r c)
      = ∑ j : Fin 128, t (ix2 r j) * W (ix3 (0 : Fin 5) j c) := by
  unfold Cert.ReferenceIdeal.Spec.dotW
  refine (Cert.Lib.dotGeneral_rc_apply Cert.ReferenceIdeal.dot_S50000x128_S128x128_S50000x128_1_0_0_1_n_n rfl rfl rfl rfl rfl rfl none
    t (Cert.ReferenceIdeal.Spec.wSlice0 (F := Ideal) W) r c).trans ?_
  refine Finset.sum_congr rfl fun j _ => ?_
  rw [wSlice0_apply]

theorem dotW_wSlice1_apply (t : FArr Ideal S50000x128) (W : FArr Ideal S5x128x128) (r : Fin 50000) (c : Fin 128) :
    Cert.ReferenceIdeal.Spec.dotW (F := Ideal) t (Cert.ReferenceIdeal.Spec.wSlice1 (F := Ideal) W) (ix2 r c)
      = ∑ j : Fin 128, t (ix2 r j) * W (ix3 (1 : Fin 5) j c) := by
  unfold Cert.ReferenceIdeal.Spec.dotW
  refine (Cert.Lib.dotGeneral_rc_apply Cert.ReferenceIdeal.dot_S50000x128_S128x128_S50000x128_1_0_0_1_n_n rfl rfl rfl rfl rfl rfl none
    t (Cert.ReferenceIdeal.Spec.wSlice1 (F := Ideal) W) r c).trans ?_
  refine Finset.sum_congr rfl fun j _ => ?_
  rw [wSlice1_apply]

theorem dotW_wSlice2_apply (t : FArr Ideal S50000x128) (W : FArr Ideal S5x128x128) (r : Fin 50000) (c : Fin 128) :
    Cert.ReferenceIdeal.Spec.dotW (F := Ideal) t (Cert.ReferenceIdeal.Spec.wSlice2 (F := Ideal) W) (ix2 r c)
      = ∑ j : Fin 128, t (ix2 r j) * W (ix3 (2 : Fin 5) j c) := by
  unfold Cert.ReferenceIdeal.Spec.dotW
  refine (Cert.Lib.dotGeneral_rc_apply Cert.ReferenceIdeal.dot_S50000x128_S128x128_S50000x128_1_0_0_1_n_n rfl rfl rfl rfl rfl rfl none
    t (Cert.ReferenceIdeal.Spec.wSlice2 (F := Ideal) W) r c).trans ?_
  refine Finset.sum_congr rfl fun j _ => ?_
  rw [wSlice2_apply]

theorem dotW_wSlice3_apply (t : FArr Ideal S50000x128) (W : FArr Ideal S5x128x128) (r : Fin 50000) (c : Fin 128) :
    Cert.ReferenceIdeal.Spec.dotW (F := Ideal) t (Cert.ReferenceIdeal.Spec.wSlice3 (F := Ideal) W) (ix2 r c)
      = ∑ j : Fin 128, t (ix2 r j) * W (ix3 (3 : Fin 5) j c) := by
  unfold Cert.ReferenceIdeal.Spec.dotW
  refine (Cert.Lib.dotGeneral_rc_apply Cert.ReferenceIdeal.dot_S50000x128_S128x128_S50000x128_1_0_0_1_n_n rfl rfl rfl rfl rfl rfl none
    t (Cert.ReferenceIdeal.Spec.wSlice3 (F := Ideal) W) r c).trans ?_
  refine Finset.sum_congr rfl fun j _ => ?_
  rw [wSlice3_apply]

theorem dotW_wSlice4_apply (t : FArr Ideal S50000x128) (W : FArr Ideal S5x128x128) (r : Fin 50000) (c : Fin 128) :
    Cert.ReferenceIdeal.Spec.dotW (F := Ideal) t (Cert.ReferenceIdeal.Spec.wSlice4 (F := Ideal) W) (ix2 r c)
      = ∑ j : Fin 128, t (ix2 r j) * W (ix3 (4 : Fin 5) j c) := by
  unfold Cert.ReferenceIdeal.Spec.dotW
  refine (Cert.Lib.dotGeneral_rc_apply Cert.ReferenceIdeal.dot_S50000x128_S128x128_S50000x128_1_0_0_1_n_n rfl rfl rfl rfl rfl rfl none
    t (Cert.ReferenceIdeal.Spec.wSlice4 (F := Ideal) W) r c).trans ?_
  refine Finset.sum_congr rfl fun j _ => ?_
  rw [wSlice4_apply]

/-! ## The two mixings are equal -/

theorem mix_eq (t0 t1 t2 t3 t4 : FArr Ideal S50000x128) (W : FArr Ideal S5x128x128) :
    mixI (stack5 t0 t1 t2 t3 t4) W = Cert.ReferenceIdeal.Spec.mixR (F := Ideal) t0 t1 t2 t3 t4 W := by
  funext i
  obtain ⟨r, c, rfl⟩ : ∃ (r : Fin 50000) (c : Fin 128), i = ix2 r c := ⟨i 0, i 1, eq_ix2 i⟩
  rw [mixI_apply]
  unfold mixAt dotAt Cert.ReferenceIdeal.Spec.mixR
  rw [addf_apply, addf_apply, addf_apply, addf_apply,
    dotW_wSlice0_apply, dotW_wSlice1_apply, dotW_wSlice2_apply, dotW_wSlice3_apply, dotW_wSlice4_apply, zero_add]
  simp only [stack5_at0, stack5_at1, stack5_at2, stack5_at3, stack5_at4]

/-! ## The diagonal as a column: the reshape and the broadcast agree -/

theorem diagCol_eq {F : FTy → Type} [FloatOps F] (d : FArr F S50000) : diagColReshape d = diagColBcast d := by
  funext i
  obtain ⟨r, u, rfl⟩ : ∃ (r : Fin 50000) (u : Fin 1), i = ix2 r u := ⟨i 0, i 1, eq_ix2 i⟩
  unfold diagColReshape diagColBcast
  refine (shapeCast_apply d _ (ix2 r u) (ix1 r) ?_).trans (broadcastInDim_apply _ _ d (ix2 r u) (ix1 r) ?_).symm
  · rw [Shape.rowMajor_val_one, Shape.rowMajor_val_two]
    show r.val = r.val * 1 + u.val
    have := u.isLt
    omega
  · intro a
    match a with
    | ⟨0, _⟩ => rfl

end Cert.KernelIdeal.Spec

end
-- ==== Proof.Net.lean ====
/-
  The two programs' results as functions of the ten argument arrays. Both compute the edge rows, the edge weights and
  the diagonal column once, run two layers (Chebyshev terms of the layer's input, channel mixing, bias and clamp) and
  finish with the mean pooling and the classifier. They differ in two spellings only: the diagonal column (a reshape
  against a broadcast) and the channel mixing (the accumulated block products over the stacked terms against the five
  matrix products added from the left). With those two equal, the results are equal.
-/
import proofs.«402212_j24189255811803_4_alg».proof.Proof.Spec
import proofs.«402212_j24189255811803_4_alg».proof.Proof.MixDef
import proofs.«402212_j24189255811803_4_alg».proof.Proof.RefMix
import proofs.«402212_j24189255811803_4_alg».proof.Proof.MixAlg

noncomputable section

namespace Cert.KernelIdeal.Spec

open Cert.KernelIdeal Idealize.ShloMosaic

/-- One layer, the reference's way: the five Chebyshev terms of `x` each times its slice of `W`, added from the left,
    then the bias and the clamp. -/
def layerR {F : FTy → Type} [FloatOps F] (dcol : FArr F S50000x1) (row col : IArr F S800000) (w : FArr F S800000)
    (x : FArr F S50000x128) (W : FArr F S5x128x128) (b : FArr F S128) : FArr F S50000x128 :=
  biasRelu
    (Cert.ReferenceIdeal.Spec.mixR (F := F) x (cheb1 dcol row col w x) (cheb2 dcol row col w x) (cheb3 dcol row col w x)
      (cheb4 dcol row col w x) W)
    b

/-- The reference's result: two layers over the graph's operator (the diagonal column by a broadcast), then the pooling
    and the classifier. -/
def netR {F : FTy → Type} [FloatOps F] (a0 : FArr F S50000x128) (a1 : IArr F S2x800000) (a2 : IArr F S50000) (a3 : FArr F S8)
    (a4 : FArr F S5x128x128) (a5 : FArr F S128) (a6 : FArr F S5x128x128) (a7 : FArr F S128) (a8 : FArr F S128x10) (a9 : FArr F S10) : FArr F S8x10 :=
  poolHead
    (layerR (diagColBcast (diagVec a2 a3)) (edgeRow a1) (edgeCol a1) (edgeWeight (edgeRow a1) (edgeCol a1) a2 a3)
      (layerR (diagColBcast (diagVec a2 a3)) (edgeRow a1) (edgeCol a1) (edgeWeight (edgeRow a1) (edgeCol a1) a2 a3) a0 a4 a5)
      a6 a7)
    a2 a8 a9

/-- One layer, the kernel's way: the accumulated block products over the stacked Chebyshev terms of `x`, then the bias
    and the clamp. -/
def layerK (dcol : FArr Ideal S50000x1) (row col : IArr Ideal S800000) (w : FArr Ideal S800000)
    (x : FArr Ideal S50000x128) (W : FArr Ideal S5x128x128) (b : FArr Ideal S128) : FArr Ideal S50000x128 :=
  biasRelu (F := Ideal) (mixI (chebStack dcol row col w x) W) b

/-- The kernel program's result: two layers over the graph's operator (the diagonal column by a reshape), then the
    pooling and the classifier. -/
def netK (a0 : FArr Ideal S50000x128) (a1 : IArr Ideal S2x800000) (a2 : IArr Ideal S50000) (a3 : FArr Ideal S8)
    (a4 : FArr Ideal S5x128x128) (a5 : FArr Ideal S128) (a6 : FArr Ideal S5x128x128) (a7 : FArr Ideal S128) (a8 : FArr Ideal S128x10) (a9 : FArr Ideal S10) : FArr Ideal S8x10 :=
  poolHead (F := Ideal)
    (layerK (diagColReshape (diagVec a2 a3)) (edgeRow a1) (edgeCol a1) (edgeWeight (edgeRow a1) (edgeCol a1) a2 a3)
      (layerK (diagColReshape (diagVec a2 a3)) (edgeRow a1) (edgeCol a1) (edgeWeight (edgeRow a1) (edgeCol a1) a2 a3) a0 a4 a5)
      a6 a7)
    a2 a8 a9

/-- A layer is the same either way: the stacked terms are the stack of the five terms, and the two mixings agree. -/
theorem layer_eq (dcol : FArr Ideal S50000x1) (row col : IArr Ideal S800000) (w : FArr Ideal S800000)
    (x : FArr Ideal S50000x128) (W : FArr Ideal S5x128x128) (b : FArr Ideal S128) :
    layerK dcol row col w x W b = layerR (F := Ideal) dcol row col w x W b := by
  unfold layerK layerR chebStack
  rw [mix_eq]

/-- The two programs' results are equal. -/
theorem net_eq (a0 : FArr Ideal S50000x128) (a1 : IArr Ideal S2x800000) (a2 : IArr Ideal S50000) (a3 : FArr Ideal S8)
    (a4 : FArr Ideal S5x128x128) (a5 : FArr Ideal S128) (a6 : FArr Ideal S5x128x128) (a7 : FArr Ideal S128) (a8 : FArr Ideal S128x10) (a9 : FArr Ideal S10) :
    netK a0 a1 a2 a3 a4 a5 a6 a7 a8 a9 = netR (F := Ideal) a0 a1 a2 a3 a4 a5 a6 a7 a8 a9 := by
  unfold netK netR
  rw [diagCol_eq, layer_eq, layer_eq]

end Cert.KernelIdeal.Spec

end
-- ==== Proof.KHost.lean ====
/-
  What the kernel program's host operations compute, stretch by stretch, for any family of floats.

  Before the first kernel: the two rows of the edge list, D^{-1/2}, the edge weights, the diagonal column, and the five
  Chebyshev terms of the input features piled on a leading axis. Between the kernels: the bias and the clamp at zero, then
  the five Chebyshev terms of the result, piled up the same way. After the second kernel: bias, clamp, the mean over each
  graph and the classifier. No stretch writes an argument.

  The long stretches are cut where a named quantity is complete; each piece is read once, from an arbitrary valuation, as
  the value it writes (a function of the contents it reads) and the statement that every other reference is left alone;
  the pieces are then composed from the last to the first.
-/
import proofs.«402212_j24189255811803_4_alg».proof.Proof.Spec
import proofs.«402212_j24189255811803_4_alg».proof.Proof.KKeep
import proofs.«402212_j24189255811803_4_alg».proof.Proof.Gen.KernelIdeal.Launch
import Idealize.ShloMosaic.Lib.StableHlo.Run

set_option maxRecDepth 3012

noncomputable section

namespace Cert.KernelIdeal.KHost

open Cert.KernelIdeal Cert.KernelIdeal.Gen Cert.KernelIdeal.Spec Cert.KernelIdeal.Hand
open Idealize.ShloMosaic Idealize.ShloMosaic.StableHlo Idealize.ShloMosaic.TcCoe

variable {F : FTy → Type} [FloatOps F]

/-- The contents when the first kernel is entered. -/
abbrev pre (V : Valuation τ sig (Elt F)) : Valuation τ sig (Elt F) := after hostOps0_2 (after hostOps0_1 (after hostOps0 V))
/-- The contents when the second kernel is entered, from those the first one left. -/
abbrev mid (V : Valuation τ sig (Elt F)) : Valuation τ sig (Elt F) := after hostOps1_2 (after hostOps1_1 (after hostOps1 V))
/-- The contents at the end, from those the second kernel left. -/
abbrev post (V : Valuation τ sig (Elt F)) : Valuation τ sig (Elt F) := after hostOps2_2 (after hostOps2_1 (after hostOps2 V))

/-- Two stretches run one after the other are their concatenation run as one. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The first stretch and the called select: the edge list's rows and D^{-1/2} -/

theorem head_v1 (V : Valuation τ sig (Elt F)) : after hostOps0_1 (after hostOps0 V) main_v1 = edgeRow (V main_arg1) := by
  simp only [hostOps0, hostOps0_1]
  after_results
  rfl
theorem head_v3 (V : Valuation τ sig (Elt F)) : after hostOps0_1 (after hostOps0 V) main_v3 = edgeCol (V main_arg1) := by
  simp only [hostOps0, hostOps0_1]
  after_results
  rfl
theorem head_v13 (V : Valuation τ sig (Elt F)) : after hostOps0_1 (after hostOps0 V) main_v13 = degInvSqrt (edgeRow (V main_arg1)) := by
  simp only [hostOps0, hostOps0_1]
  after_results
  rfl
/-- What neither writes is as it was. -/
theorem head_keep (V : Valuation τ sig (Elt F)) (r : Ref sig .tc) (h0 : r ∉ hostOps0_W) (h1 : r ∉ hostOps0_1_W) :
    after hostOps0_1 (after hostOps0 V) r = V r := by
  rw [keepW_hostOps0_1 _ r h1, keepW_hostOps0 _ r h0]

/-! ## The second stretch, cut into eight pieces -/

/-- The edge weights: the two endpoint gathers of D^{-1/2}, their product with -2, divided by lambda_max gathered through the batch. -/
abbrev A0 : List (HloOp τ sig (Elt F)) := (hostOps0_2 (F := F)).take 41
/-- The references it writes. -/
abbrev A0_W : List (Ref sig .tc) := (hostOps0_2_W).take 41
theorem A0_writes : (A0 : List (HloOp τ sig (Elt F))).Forall fun op => op.writes ⊆ (A0_W.map (Proc.devRef (τ := τ) .tc)).toFinset := by
  simp only [A0, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A0_keep (U : Valuation τ sig (Elt F)) (r : Ref sig .tc) (h : r ∉ A0_W) : after A0 U r = U r :=
  after_of_writes_sub A0 U A0_writes h

/-- The diagonal 2 / lambda_max[batch] - 1, as a column. -/
abbrev A1 : List (HloOp τ sig (Elt F)) := ((hostOps0_2 (F := F)).drop 41).take 16
/-- The references it writes. -/
abbrev A1_W : List (Ref sig .tc) := ((hostOps0_2_W).drop 41).take 16
theorem A1_writes : (A1 : List (HloOp τ sig (Elt F))).Forall fun op => op.writes ⊆ (A1_W.map (Proc.devRef (τ := τ) .tc)).toFinset := by
  simp only [A1, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A1_keep (U : Valuation τ sig (Elt F)) (r : Ref sig .tc) (h : r ∉ A1_W) : after A1 U r = U r :=
  after_of_writes_sub A1 U A1_writes h

/-- T₁ = L̂ x. -/
abbrev A2 : List (HloOp τ sig (Elt F)) := ((hostOps0_2 (F := F)).drop 57).take 19
/-- The references it writes. -/
abbrev A2_W : List (Ref sig .tc) := ((hostOps0_2_W).drop 57).take 19
theorem A2_writes : (A2 : List (HloOp τ sig (Elt F))).Forall fun op => op.writes ⊆ (A2_W.map (Proc.devRef (τ := τ) .tc)).toFinset := by
  simp only [A2, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A2_keep (U : Valuation τ sig (Elt F)) (r : Ref sig .tc) (h : r ∉ A2_W) : after A2 U r = U r :=
  after_of_writes_sub A2 U A2_writes h

/-- T₂ = 2 L̂ T₁ - x. -/
abbrev A3 : List (HloOp τ sig (Elt F)) := ((hostOps0_2 (F := F)).drop 76).take 23
/-- The references it writes. -/
abbrev A3_W : List (Ref sig .tc) := ((hostOps0_2_W).drop 76).take 23
theorem A3_writes : (A3 : List (HloOp τ sig (Elt F))).Forall fun op => op.writes ⊆ (A3_W.map (Proc.devRef (τ := τ) .tc)).toFinset := by
  simp only [A3, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A3_keep (U : Valuation τ sig (Elt F)) (r : Ref sig .tc) (h : r ∉ A3_W) : after A3 U r = U r :=
  after_of_writes_sub A3 U A3_writes h

/-- T₃ = 2 L̂ T₂ - T₁. -/
abbrev A4 : List (HloOp τ sig (Elt F)) := ((hostOps0_2 (F := F)).drop 99).take 23
/-- The references it writes. -/
abbrev A4_W : List (Ref sig .tc) := ((hostOps0_2_W).drop 99).take 23
theorem A4_writes : (A4 : List (HloOp τ sig (Elt F))).Forall fun op => op.writes ⊆ (A4_W.map (Proc.devRef (τ := τ) .tc)).toFinset := by
  simp only [A4, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A4_keep (U : Valuation τ sig (Elt F)) (r : Ref sig .tc) (h : r ∉ A4_W) : after A4 U r = U r :=
  after_of_writes_sub A4 U A4_writes h

/-- T₄ = 2 L̂ T₃ - T₂. -/
abbrev A5 : List (HloOp τ sig (Elt F)) := ((hostOps0_2 (F := F)).drop 122).take 23
/-- The references it writes. -/
abbrev A5_W : List (Ref sig .tc) := ((hostOps0_2_W).drop 122).take 23
theorem A5_writes : (A5 : List (HloOp τ sig (Elt F))).Forall fun op => op.writes ⊆ (A5_W.map (Proc.devRef (τ := τ) .tc)).toFinset := by
  simp only [A5, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A5_keep (U : Valuation τ sig (Elt F)) (r : Ref sig .tc) (h : r ∉ A5_W) : after A5 U r = U r :=
  after_of_writes_sub A5 U A5_writes h

/-- Each of the five terms given a leading unit axis. -/
abbrev A6 : List (HloOp τ sig (Elt F)) := ((hostOps0_2 (F := F)).drop 145).take 5
/-- The references it writes. -/
abbrev A6_W : List (Ref sig .tc) := ((hostOps0_2_W).drop 145).take 5
theorem A6_writes : (A6 : List (HloOp τ sig (Elt F))).Forall fun op => op.writes ⊆ (A6_W.map (Proc.devRef (τ := τ) .tc)).toFinset := by
  simp only [A6, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A6_keep (U : Valuation τ sig (Elt F)) (r : Ref sig .tc) (h : r ∉ A6_W) : after A6 U r = U r :=
  after_of_writes_sub A6 U A6_writes h

/-- The five terms piled up. -/
abbrev A7 : List (HloOp τ sig (Elt F)) := ((hostOps0_2 (F := F)).drop 150).take 1
/-- The references it writes. -/
abbrev A7_W : List (Ref sig .tc) := ((hostOps0_2_W).drop 150).take 1
theorem A7_writes : (A7 : List (HloOp τ sig (Elt F))).Forall fun op => op.writes ⊆ (A7_W.map (Proc.devRef (τ := τ) .tc)).toFinset := by
  simp only [A7, hostOps0_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem A7_keep (U : Valuation τ sig (Elt F)) (r : Ref sig .tc) (h : r ∉ A7_W) : after A7 U r = U r :=
  after_of_writes_sub A7 U A7_writes h

/-- The pieces in a row are the stretch. -/
theorem split0 : (hostOps0_2 : List (HloOp τ sig (Elt F))) = A0 ++ (A1 ++ (A2 ++ (A3 ++ (A4 ++ (A5 ++ (A6 ++ A7)))))) := rfl
theorem after_split0 (X : Valuation τ sig (Elt F)) :
    after hostOps0_2 X = after A7 (after A6 (after A5 (after A4 (after A3 (after A2 (after A1 (after A0 X))))))) := by
  have h := congrArg (fun l => after l X) (split0 (F := F))
  simpa only [after_app] using h

/-! ### What each piece writes -/

set_option maxHeartbeats 4000000 in
theorem A0_v45 (U : Valuation τ sig (Elt F)) (h13 : U main_v13 = degInvSqrt (U main_v1)) :
    after A0 U main_v45 = edgeWeight (U main_v1) (U main_v3) (U main_arg2) (U main_arg3) := by
  simp only [A0, hostOps0_2, List.drop_succ_cons, List.take_succ_cons, List.take_zero, List.drop_zero]
  after_results_simp
  rw [h13]
  rfl

set_option maxHeartbeats 4000000 in
theorem A1_v57 (U : Valuation τ sig (Elt F)) :
    after A1 U main_v57 = diagColReshape (diagVec (U main_arg2) (U main_arg3)) := by
  simp only [A1, hostOps0_2, List.drop_succ_cons, List.take_succ_cons, List.take_zero, List.drop_zero]
  after_results_simp
  rfl

set_option maxHeartbeats 4000000 in
theorem A2_v73 (U : Valuation τ sig (Elt F)) :
    after A2 U main_v73 = cheb1 (U main_v57) (U main_v1) (U main_v3) (U main_v45) (U main_arg0) := by
  simp only [A2, hostOps0_2, List.drop_succ_cons, List.take_succ_cons, List.take_zero, List.drop_zero]
  after_results_simp
  rfl

set_option maxHeartbeats 4000000 in
theorem A3_v92 (U : Valuation τ sig (Elt F)) :
    after A3 U main_v92 = chebNext (U main_v57) (U main_v1) (U main_v3) (U main_v45) (U main_v73) (U main_arg0) := by
  simp only [A3, hostOps0_2, List.drop_succ_cons, List.take_succ_cons, List.take_zero, List.drop_zero]
  after_results_simp
  rfl

set_option maxHeartbeats 4000000 in
theorem A4_v111 (U : Valuation τ sig (Elt F)) :
    after A4 U main_v111 = chebNext (U main_v57) (U main_v1) (U main_v3) (U main_v45) (U main_v92) (U main_v73) := by
  simp only [A4, hostOps0_2, List.drop_succ_cons, List.take_succ_cons, List.take_zero, List.drop_zero]
  after_results_simp
  rfl

set_option maxHeartbeats 4000000 in
theorem A5_v130 (U : Valuation τ sig (Elt F)) :
    after A5 U main_v130 = chebNext (U main_v57) (U main_v1) (U main_v3) (U main_v45) (U main_v111) (U main_v92) := by
  simp only [A5, hostOps0_2, List.drop_succ_cons, List.take_succ_cons, List.take_zero, List.drop_zero]
  after_results_simp
  rfl

set_option maxHeartbeats 4000000 in
theorem A6_v131 (U : Valuation τ sig (Elt F)) :
    after A6 U main_v131 = broadcastInDim S1x50000x128 ![1, 2] bcast_S50000x128_S1x50000x128_1_2 (U main_arg0) := by
  simp only [A6, hostOps0_2, List.drop_succ_cons, List.take_succ_cons, List.take_zero, List.drop_zero]
  after_results

set_option maxHeartbeats 4000000 in
theorem A6_v132 (U : Valuation τ sig (Elt F)) :
    after A6 U main_v132 = broadcastInDim S1x50000x128 ![1, 2] bcast_S50000x128_S1x50000x128_1_2 (U main_v73) := by
  simp only [A6, hostOps0_2, List.drop_succ_cons, List.take_succ_cons, List.take_zero, List.drop_zero]
  after_results

set_option maxHeartbeats 4000000 in
theorem A6_v133 (U : Valuation τ sig (Elt F)) :
    after A6 U main_v133 = broadcastInDim S1x50000x128 ![1, 2] bcast_S50000x128_S1x50000x128_1_2 (U main_v92) := by
  simp only [A6, hostOps0_2, List.drop_succ_cons, List.take_succ_cons, List.take_zero, List.drop_zero]
  after_results

set_option maxHeartbeats 4000000 in
theorem A6_v134 (U : Valuation τ sig (Elt F)) :
    after A6 U main_v134 = broadcastInDim S1x50000x128 ![1, 2] bcast_S50000x128_S1x50000x128_1_2 (U main_v111) := by
  simp only [A6, hostOps0_2, List.drop_succ_cons, List.take_succ_cons, List.take_zero, List.drop_zero]
  after_results

set_option maxHeartbeats 4000000 in
theorem A6_v135 (U : Valuation τ sig (Elt F)) :
    after A6 U main_v135 = broadcastInDim S1x50000x128 ![1, 2] bcast_S50000x128_S1x50000x128_1_2 (U main_v130) := by
  simp only [A6, hostOps0_2, List.drop_succ_cons, List.take_succ_cons, List.take_zero, List.drop_zero]
  after_results

set_option maxHeartbeats 4000000 in
theorem A7_v136 (U : Valuation τ sig (Elt F)) :
    after A7 U main_v136 = concatenate S5x50000x128 0
        [⟨S1x50000x128, U main_v131⟩, ⟨S1x50000x128, U main_v132⟩, ⟨S1x50000x128, U main_v133⟩, ⟨S1x50000x128, U main_v134⟩, ⟨S1x50000x128, U main_v135⟩]
        concatenates_S1x50000x128_S1x50000x128_S1x50000x128_S1x50000x128_S1x50000x128_S5x50000x128_d0 := by
  simp only [A7, hostOps0_2, List.drop_succ_cons, List.take_succ_cons, List.take_zero, List.drop_zero]
  after_results
  rfl

/-- The last two pieces: the pile of the five terms. -/
theorem stack0 (U : Valuation τ sig (Elt F)) :
    after A7 (after A6 U) main_v136 = stack5 (U main_arg0) (U main_v73) (U main_v92) (U main_v111) (U main_v130) := by
  rw [A7_v136, A6_v131, A6_v132, A6_v133, A6_v134, A6_v135]
  rfl

/-- From the diagonal column, the rows of the edge list and the weights: the five terms of the input features, piled up. -/
theorem chain0 (U : Valuation τ sig (Elt F)) :
    after A7 (after A6 (after A5 (after A4 (after A3 (after A2 U))))) main_v136
      = chebStack (U main_v57) (U main_v1) (U main_v3) (U main_v45) (U main_arg0) := by
  rw [stack0]
  rw [A5_v130, A5_keep _ main_v111 (by decide), A5_keep _ main_v92 (by decide), A5_keep _ main_v73 (by decide), A5_keep _ main_arg0 (by decide)]
  rw [A4_v111, A4_keep _ main_v92 (by decide), A4_keep _ main_v73 (by decide), A4_keep _ main_arg0 (by decide), A4_keep _ main_v57 (by decide), A4_keep _ main_v1 (by decide), A4_keep _ main_v3 (by decide), A4_keep _ main_v45 (by decide)]
  rw [A3_v92, A3_keep _ main_v73 (by decide), A3_keep _ main_arg0 (by decide), A3_keep _ main_v57 (by decide), A3_keep _ main_v1 (by decide), A3_keep _ main_v3 (by decide), A3_keep _ main_v45 (by decide)]
  rw [A2_v73, A2_keep _ main_arg0 (by decide), A2_keep _ main_v57 (by decide), A2_keep _ main_v1 (by decide), A2_keep _ main_v3 (by decide), A2_keep _ main_v45 (by decide)]
  rfl

/-! ## When the first kernel is entered -/

/-- The edge weights after the first two pieces. -/
theorem w_of (V : Valuation τ sig (Elt F)) :
    after A0 (after hostOps0_1 (after hostOps0 V)) main_v45
      = edgeWeight (edgeRow (V main_arg1)) (edgeCol (V main_arg1)) (V main_arg2) (V main_arg3) := by
  rw [A0_v45 _ (by rw [head_v13, head_v1]), head_v1, head_v3,
    head_keep V main_arg2 (by decide) (by decide), head_keep V main_arg3 (by decide) (by decide)]
/-- The diagonal column after the first two pieces. -/
theorem dcol_of (V : Valuation τ sig (Elt F)) :
    after A1 (after A0 (after hostOps0_1 (after hostOps0 V))) main_v57
      = diagColReshape (diagVec (V main_arg2) (V main_arg3)) := by
  rw [A1_v57, A0_keep _ main_arg2 (by decide), A0_keep _ main_arg3 (by decide),
    head_keep V main_arg2 (by decide) (by decide), head_keep V main_arg3 (by decide) (by decide)]

theorem pre_v1 (V : Valuation τ sig (Elt F)) :
    after hostOps0_2 (after hostOps0_1 (after hostOps0 V)) main_v1 = edgeRow (V main_arg1) := by
  rw [keepW_hostOps0_2 _ main_v1 (by decide), head_v1]
theorem pre_v3 (V : Valuation τ sig (Elt F)) :
    after hostOps0_2 (after hostOps0_1 (after hostOps0 V)) main_v3 = edgeCol (V main_arg1) := by
  rw [keepW_hostOps0_2 _ main_v3 (by decide), head_v3]
theorem pre_v45 (V : Valuation τ sig (Elt F)) :
    after hostOps0_2 (after hostOps0_1 (after hostOps0 V)) main_v45
      = edgeWeight (edgeRow (V main_arg1)) (edgeCol (V main_arg1)) (V main_arg2) (V main_arg3) := by
  rw [after_split0, A7_keep _ main_v45 (by decide), A6_keep _ main_v45 (by decide), A5_keep _ main_v45 (by decide), A4_keep _ main_v45 (by decide), A3_keep _ main_v45 (by decide), A2_keep _ main_v45 (by decide), A1_keep _ main_v45 (by decide), w_of]
theorem pre_v57 (V : Valuation τ sig (Elt F)) :
    after hostOps0_2 (after hostOps0_1 (after hostOps0 V)) main_v57
      = diagColReshape (diagVec (V main_arg2) (V main_arg3)) := by
  rw [after_split0, A7_keep _ main_v57 (by decide), A6_keep _ main_v57 (by decide), A5_keep _ main_v57 (by decide), A4_keep _ main_v57 (by decide), A3_keep _ main_v57 (by decide), A2_keep _ main_v57 (by decide), dcol_of]
/-- The five Chebyshev terms of the input features, piled up: what the first kernel is handed. -/
theorem pre_v136 (V : Valuation τ sig (Elt F)) :
    after hostOps0_2 (after hostOps0_1 (after hostOps0 V)) main_v136
      = chebStack (diagColReshape (diagVec (V main_arg2) (V main_arg3))) (edgeRow (V main_arg1)) (edgeCol (V main_arg1))
          (edgeWeight (edgeRow (V main_arg1)) (edgeCol (V main_arg1)) (V main_arg2) (V main_arg3)) (V main_arg0) := by
  rw [after_split0, chain0, dcol_of, A1_keep _ main_v1 (by decide), A1_keep _ main_v3 (by decide), A1_keep _ main_v45 (by decide), A1_keep _ main_arg0 (by decide), w_of,
    A0_keep _ main_v1 (by decide), A0_keep _ main_v3 (by decide), A0_keep _ main_arg0 (by decide), head_v1, head_v3, head_keep V main_arg0 (by decide) (by decide)]
/-- The arguments are as they were. -/
theorem pre_arg (V : Valuation τ sig (Elt F)) (j : Fin 10) :
    after hostOps0_2 (after hostOps0_1 (after hostOps0 V)) (Proc.devRef .tc (argRef j)) = V (Proc.devRef .tc (argRef j)) := by
  rw [keep_hostOps0_2, keep_hostOps0_1, keep_hostOps0]

/-! ## Between the kernels -/

/-- The bias row added and the clamp at zero. -/
theorem inner_v141 (V : Valuation τ sig (Elt F)) :
    after hostOps1_1 (after hostOps1 V) main_v141 = biasRelu (V main_v137) (V main_arg5) := by
  simp only [hostOps1, hostOps1_1]
  after_results
  rfl
theorem inner_keep (V : Valuation τ sig (Elt F)) (r : Ref sig .tc) (h0 : r ∉ hostOps1_W) (h1 : r ∉ hostOps1_1_W) :
    after hostOps1_1 (after hostOps1 V) r = V r := by
  rw [keepW_hostOps1_1 _ r h1, keepW_hostOps1 _ r h0]

/-- T₁ = L̂ h. -/
abbrev B2 : List (HloOp τ sig (Elt F)) := (hostOps1_2 (F := F)).take 19
/-- The references it writes. -/
abbrev B2_W : List (Ref sig .tc) := (hostOps1_2_W).take 19
theorem B2_writes : (B2 : List (HloOp τ sig (Elt F))).Forall fun op => op.writes ⊆ (B2_W.map (Proc.devRef (τ := τ) .tc)).toFinset := by
  simp only [B2, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B2_keep (U : Valuation τ sig (Elt F)) (r : Ref sig .tc) (h : r ∉ B2_W) : after B2 U r = U r :=
  after_of_writes_sub B2 U B2_writes h

/-- T₂ = 2 L̂ T₁ - h. -/
abbrev B3 : List (HloOp τ sig (Elt F)) := ((hostOps1_2 (F := F)).drop 19).take 23
/-- The references it writes. -/
abbrev B3_W : List (Ref sig .tc) := ((hostOps1_2_W).drop 19).take 23
theorem B3_writes : (B3 : List (HloOp τ sig (Elt F))).Forall fun op => op.writes ⊆ (B3_W.map (Proc.devRef (τ := τ) .tc)).toFinset := by
  simp only [B3, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B3_keep (U : Valuation τ sig (Elt F)) (r : Ref sig .tc) (h : r ∉ B3_W) : after B3 U r = U r :=
  after_of_writes_sub B3 U B3_writes h

/-- T₃ = 2 L̂ T₂ - T₁. -/
abbrev B4 : List (HloOp τ sig (Elt F)) := ((hostOps1_2 (F := F)).drop 42).take 23
/-- The references it writes. -/
abbrev B4_W : List (Ref sig .tc) := ((hostOps1_2_W).drop 42).take 23
theorem B4_writes : (B4 : List (HloOp τ sig (Elt F))).Forall fun op => op.writes ⊆ (B4_W.map (Proc.devRef (τ := τ) .tc)).toFinset := by
  simp only [B4, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B4_keep (U : Valuation τ sig (Elt F)) (r : Ref sig .tc) (h : r ∉ B4_W) : after B4 U r = U r :=
  after_of_writes_sub B4 U B4_writes h

/-- T₄ = 2 L̂ T₃ - T₂. -/
abbrev B5 : List (HloOp τ sig (Elt F)) := ((hostOps1_2 (F := F)).drop 65).take 23
/-- The references it writes. -/
abbrev B5_W : List (Ref sig .tc) := ((hostOps1_2_W).drop 65).take 23
theorem B5_writes : (B5 : List (HloOp τ sig (Elt F))).Forall fun op => op.writes ⊆ (B5_W.map (Proc.devRef (τ := τ) .tc)).toFinset := by
  simp only [B5, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B5_keep (U : Valuation τ sig (Elt F)) (r : Ref sig .tc) (h : r ∉ B5_W) : after B5 U r = U r :=
  after_of_writes_sub B5 U B5_writes h

/-- Each of the five terms given a leading unit axis. -/
abbrev B6 : List (HloOp τ sig (Elt F)) := ((hostOps1_2 (F := F)).drop 88).take 5
/-- The references it writes. -/
abbrev B6_W : List (Ref sig .tc) := ((hostOps1_2_W).drop 88).take 5
theorem B6_writes : (B6 : List (HloOp τ sig (Elt F))).Forall fun op => op.writes ⊆ (B6_W.map (Proc.devRef (τ := τ) .tc)).toFinset := by
  simp only [B6, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B6_keep (U : Valuation τ sig (Elt F)) (r : Ref sig .tc) (h : r ∉ B6_W) : after B6 U r = U r :=
  after_of_writes_sub B6 U B6_writes h

/-- The five terms piled up. -/
abbrev B7 : List (HloOp τ sig (Elt F)) := ((hostOps1_2 (F := F)).drop 93).take 1
/-- The references it writes. -/
abbrev B7_W : List (Ref sig .tc) := ((hostOps1_2_W).drop 93).take 1
theorem B7_writes : (B7 : List (HloOp τ sig (Elt F))).Forall fun op => op.writes ⊆ (B7_W.map (Proc.devRef (τ := τ) .tc)).toFinset := by
  simp only [B7, hostOps1_2, List.drop_succ_cons, List.take_succ_cons, List.take_zero, List.drop_zero, List.Forall, nullary_writes, unary_writes, binary_writes, ternary_writes, reshape_writes, nary_writes, Finset.singleton_subset_iff, List.mem_toFinset]
  repeat' apply And.intro
  all_goals exact List.mem_map_of_mem (by decide)
/-- Every other reference keeps its contents. -/
theorem B7_keep (U : Valuation τ sig (Elt F)) (r : Ref sig .tc) (h : r ∉ B7_W) : after B7 U r = U r :=
  after_of_writes_sub B7 U B7_writes h

/-- The pieces in a row are the stretch. -/
theorem split1 : (hostOps1_2 : List (HloOp τ sig (Elt F))) = B2 ++ (B3 ++ (B4 ++ (B5 ++ (B6 ++ B7)))) := rfl
theorem after_split1 (X : Valuation τ sig (Elt F)) :
    after hostOps1_2 X = after B7 (after B6 (after B5 (after B4 (after B3 (after B2 X))))) := by
  have h := congrArg (fun l => after l X) (split1 (F := F))
  simpa only [after_app] using h

set_option maxHeartbeats 4000000 in
theorem B2_v157 (U : Valuation τ sig (Elt F)) :
    after B2 U main_v157 = cheb1 (U main_v57) (U main_v1) (U main_v3) (U main_v45) (U main_v141) := by
  simp only [B2, hostOps1_2, List.drop_succ_cons, List.take_succ_cons, List.take_zero, List.drop_zero]
  after_results_simp
  rfl

set_option maxHeartbeats 4000000 in
theorem B3_v176 (U : Valuation τ sig (Elt F)) :
    after B3 U main_v176 = chebNext (U main_v57) (U main_v1) (U main_v3) (U main_v45) (U main_v157) (U main_v141) := by
  simp only [B3, hostOps1_2, List.drop_succ_cons, List.take_succ_cons, List.take_zero, List.drop_zero]
  after_results_simp
  rfl

set_option maxHeartbeats 4000000 in
theorem B4_v195 (U : Valuation τ sig (Elt F)) :
    after B4 U main_v195 = chebNext (U main_v57) (U main_v1) (U main_v3) (U main_v45) (U main_v176) (U main_v157) := by
  simp only [B4, hostOps1_2, List.drop_succ_cons, List.take_succ_cons, List.take_zero, List.drop_zero]
  after_results_simp
  rfl

set_option maxHeartbeats 4000000 in
theorem B5_v214 (U : Valuation τ sig (Elt F)) :
    after B5 U main_v214 = chebNext (U main_v57) (U main_v1) (U main_v3) (U main_v45) (U main_v195) (U main_v176) := by
  simp only [B5, hostOps1_2, List.drop_succ_cons, List.take_succ_cons, List.take_zero, List.drop_zero]
  after_results_simp
  rfl

set_option maxHeartbeats 4000000 in
theorem B6_v215 (U : Valuation τ sig (Elt F)) :
    after B6 U main_v215 = broadcastInDim S1x50000x128 ![1, 2] bcast_S50000x128_S1x50000x128_1_2 (U main_v141) := by
  simp only [B6, hostOps1_2, List.drop_succ_cons, List.take_succ_cons, List.take_zero, List.drop_zero]
  after_results

set_option maxHeartbeats 4000000 in
theorem B6_v216 (U : Valuation τ sig (Elt F)) :
    after B6 U main_v216 = broadcastInDim S1x50000x128 ![1, 2] bcast_S50000x128_S1x50000x128_1_2 (U main_v157) := by
  simp only [B6, hostOps1_2, List.drop_succ_cons, List.take_succ_cons, List.take_zero, List.drop_zero]
  after_results

set_option maxHeartbeats 4000000 in
theorem B6_v217 (U : Valuation τ sig (Elt F)) :
    after B6 U main_v217 = broadcastInDim S1x50000x128 ![1, 2] bcast_S50000x128_S1x50000x128_1_2 (U main_v176) := by
  simp only [B6, hostOps1_2, List.drop_succ_cons, List.take_succ_cons, List.take_zero, List.drop_zero]
  after_results

set_option maxHeartbeats 4000000 in
theorem B6_v218 (U : Valuation τ sig (Elt F)) :
    after B6 U main_v218 = broadcastInDim S1x50000x128 ![1, 2] bcast_S50000x128_S1x50000x128_1_2 (U main_v195) := by
  simp only [B6, hostOps1_2, List.drop_succ_cons, List.take_succ_cons, List.take_zero, List.drop_zero]
  after_results

set_option maxHeartbeats 4000000 in
theorem B6_v219 (U : Valuation τ sig (Elt F)) :
    after B6 U main_v219 = broadcastInDim S1x50000x128 ![1, 2] bcast_S50000x128_S1x50000x128_1_2 (U main_v214) := by
  simp only [B6, hostOps1_2, List.drop_succ_cons, List.take_succ_cons, List.take_zero, List.drop_zero]
  after_results

set_option maxHeartbeats 4000000 in
theorem B7_v220 (U : Valuation τ sig (Elt F)) :
    after B7 U main_v220 = concatenate S5x50000x128 0
        [⟨S1x50000x128, U main_v215⟩, ⟨S1x50000x128, U main_v216⟩, ⟨S1x50000x128, U main_v217⟩, ⟨S1x50000x128, U main_v218⟩, ⟨S1x50000x128, U main_v219⟩]
        concatenates_S1x50000x128_S1x50000x128_S1x50000x128_S1x50000x128_S1x50000x128_S5x50000x128_d0 := by
  simp only [B7, hostOps1_2, List.drop_succ_cons, List.take_succ_cons, List.take_zero, List.drop_zero]
  after_results
  rfl

theorem stack1 (U : Valuation τ sig (Elt F)) :
    after B7 (after B6 U) main_v220 = stack5 (U main_v141) (U main_v157) (U main_v176) (U main_v195) (U main_v214) := by
  rw [B7_v220, B6_v215, B6_v216, B6_v217, B6_v218, B6_v219]
  rfl

/-- The five terms of the hidden features, piled up, from any contents. -/
theorem chain1 (U : Valuation τ sig (Elt F)) :
    after hostOps1_2 U main_v220 = chebStack (U main_v57) (U main_v1) (U main_v3) (U main_v45) (U main_v141) := by
  rw [after_split1, stack1]
  rw [B5_v214, B5_keep _ main_v195 (by decide), B5_keep _ main_v176 (by decide), B5_keep _ main_v157 (by decide), B5_keep _ main_v141 (by decide)]
  rw [B4_v195, B4_keep _ main_v176 (by decide), B4_keep _ main_v157 (by decide), B4_keep _ main_v141 (by decide), B4_keep _ main_v57 (by decide), B4_keep _ main_v1 (by decide), B4_keep _ main_v3 (by decide), B4_keep _ main_v45 (by decide)]
  rw [B3_v176, B3_keep _ main_v157 (by decide), B3_keep _ main_v141 (by decide), B3_keep _ main_v57 (by decide), B3_keep _ main_v1 (by decide), B3_keep _ main_v3 (by decide), B3_keep _ main_v45 (by decide)]
  rw [B2_v157, B2_keep _ main_v141 (by decide), B2_keep _ main_v57 (by decide), B2_keep _ main_v1 (by decide), B2_keep _ main_v3 (by decide), B2_keep _ main_v45 (by decide)]
  rfl

/-- The five Chebyshev terms of the hidden features, piled up: what the second kernel is handed. -/
theorem mid_v220 (V : Valuation τ sig (Elt F)) :
    after hostOps1_2 (after hostOps1_1 (after hostOps1 V)) main_v220
      = chebStack (V main_v57) (V main_v1) (V main_v3) (V main_v45) (biasRelu (V main_v137) (V main_arg5)) := by
  rw [chain1, inner_v141, inner_keep V main_v57 (by decide) (by decide), inner_keep V main_v1 (by decide) (by decide),
    inner_keep V main_v3 (by decide) (by decide), inner_keep V main_v45 (by decide) (by decide)]
/-- The arguments are as they were. -/
theorem mid_arg (V : Valuation τ sig (Elt F)) (j : Fin 10) :
    after hostOps1_2 (after hostOps1_1 (after hostOps1 V)) (Proc.devRef .tc (argRef j)) = V (Proc.devRef .tc (argRef j)) := by
  rw [keep_hostOps1_2, keep_hostOps1_1, keep_hostOps1]

/-! ## After the second kernel -/

set_option maxHeartbeats 4000000 in
/-- Bias, clamp, the mean over each graph, the classifier. -/
theorem post_v240 (V : Valuation τ sig (Elt F)) :
    after hostOps2_2 (after hostOps2_1 (after hostOps2 V)) main_v240
      = poolHead (biasRelu (V main_v221) (V main_arg7)) (V main_arg2) (V main_arg8) (V main_arg9) := by
  simp only [hostOps2, hostOps2_1, hostOps2_2]
  after_results
  rfl
/-- The arguments are as they were. -/
theorem post_arg (V : Valuation τ sig (Elt F)) (j : Fin 10) :
    after hostOps2_2 (after hostOps2_1 (after hostOps2 V)) (Proc.devRef .tc (argRef j)) = V (Proc.devRef .tc (argRef j)) := by
  rw [keep_hostOps2_2, keep_hostOps2_1, keep_hostOps2]

end Cert.KernelIdeal.KHost

end
-- ==== Proof.KVal0.lean ====
/-
  Region 0 (the first channel-mixing kernel): the VALUE of its result array once every grid point has run, over the
  extended reals. A grid point t = 5·i + k multiplies rows 1000·i … 1000·i + 999 of Chebyshev term k by term k's weight
  matrix and adds the product into the accumulator, which starts from zero at k = 0; the row block is written back at
  k = 4. Read at (p, q), one point's update is what the accumulator held plus ∑ j, T_k (1000·i + p, j) · W_k (j, q)
  (the narrowing format change is the identity on extended reals, the two reshapes drop a leading unit axis, the block
  product into the zero constant is that sum, the zero block reads 0). So four points after a point with k = 0 the
  accumulator holds ((((0 + D 0) + D 1) + D 2) + D 3) + D 4 at row 1000·i + p — the closed form `mixAt` —, the block a
  point with k = 4 writes back is its rows of `mixI`, and since row r lies in the block of point 5·(r / 1000) + 4 the
  whole result array ends at `mixI` of the stacked terms and the stacked weights as the region found them.
-/
import proofs.«402212_j24189255811803_4_alg».proof.Proof.KDat0
import proofs.«402212_j24189255811803_4_alg».proof.Proof.MixDef
import proofs.«402212_j24189255811803_4_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The stacked Chebyshev terms as the region finds them. -/
abbrev stk0 (c : Dev nD) : FVec Ideal S5x50000x128 .f32 := V c main_v136
/-- The stacked weights as the region finds them. -/
abbrev wts0 (c : Dev nD) : FVec Ideal S5x128x128 .f32 := V c main_arg4

/-- The zero block reads zero. -/
theorem pay1_apply0 (p : Fin 1000) (q : Fin 128) : k0_pay1 (F := Ideal) (ix2 p q) = 0 := by
  unfold k0_pay1
  rw [shapeCast_self]
  exact Ideal.ofBits_zero_f32

/-- One point's update at (p, q): what the accumulator held plus the block product of the two input blocks. -/
theorem pay2_apply0 (x0 : Vec Ideal S1x1000x128 .f32) (x1 : Vec Ideal S1x128x128 .f32) (s : Vec Ideal S1000x128 .f32)
    (p : Fin 1000) (q : Fin 128) :
    k0_pay2 (F := Ideal) x0 x1 s (ix2 p q) = s (ix2 p q) + ∑ j : Fin 128, x0 (ix3 0 p j) * x1 (ix3 0 j q) := by
  unfold k0_pay2
  rw [shapeCast_self]
  refine congrArg (fun z => s (ix2 p q) + z) ?_
  refine (Cert.Lib.matmul_rc_apply dot_S1000x128_S128x128_S1000x128_1_0_0_1_n_n rfl rfl rfl rfl rfl rfl none _ _ p q).trans ?_
  refine Finset.sum_congr rfl fun j _ => ?_
  exact congrArg₂ (· * ·) (shapeCast_1ab_ab_apply x0 shapeCasts_S1x1000x128_S1000x128 p j)
    (shapeCast_1ab_ab_apply x1 shapeCasts_S1x128x128_S128x128 j q)

/-- The printed index maps over the grid: point t = 5·i + k reads term k's row block i of the stack and term k's weights,
    and its output block is row block i. -/
theorem idx_facts0 : ∀ t : Fin cfg0.N,
    win0_0.index t (0 : Fin 3) = t.val % 5 ∧ win0_0.index t (1 : Fin 3) = t.val / 5 ∧ win0_0.index t (2 : Fin 3) = 0
    ∧ win0_1.index t (0 : Fin 3) = t.val % 5 ∧ win0_1.index t (1 : Fin 3) = 0 ∧ win0_1.index t (2 : Fin 3) = 0
    ∧ win0_2.index t (0 : Fin 2) = t.val / 5 ∧ win0_2.index t (1 : Fin 2) = 0 :=
  (by decide +kernel : ∀ t : Fin grid0.N, _)

/-- The first input block at point t, at (0, p, j): the stack at (k, 1000·i + p, j). -/
theorem blkX0 (c : Dev nD) (t : Fin cfg0.N) (k : Fin 5) (hk : k.val = t.val % 5) (r : Fin 50000) (p : Fin 1000)
    (hr : r.val = 1000 * (t.val / 5) + p.val) (j : Fin 128) :
    (iblk0 V c 0 t : Vec Ideal S1x1000x128 .f32) (ix3 0 p j) = stk0 V c (ix3 k r j) := by
  obtain ⟨e0, e1, e2, -⟩ := idx_facts0 t
  unfold iblk0
  rw [View.read_apply]
  show V c main_v136 _ = V c main_v136 _
  congr 1
  funext a
  apply Fin.ext
  match a with
  | ⟨0, _⟩ => show win0_0.index t (0 : Fin 3) * 1 + 1 * 0 = k.val; omega
  | ⟨1, _⟩ => show win0_0.index t (1 : Fin 3) * 1000 + 1 * p.val = r.val; omega
  | ⟨2, _⟩ => show win0_0.index t (2 : Fin 3) * 128 + 1 * j.val = j.val; omega

/-- The second input block at point t, at (0, j, q): the weights at (k, j, q). -/
theorem blkW0 (c : Dev nD) (t : Fin cfg0.N) (k : Fin 5) (hk : k.val = t.val % 5) (j : Fin 128) (q : Fin 128) :
    (iblk0 V c 1 t : Vec Ideal S1x128x128 .f32) (ix3 0 j q) = wts0 V c (ix3 k j q) := by
  obtain ⟨-, -, -, e3, e4, e5, -⟩ := idx_facts0 t
  unfold iblk0
  rw [View.read_apply]
  show V c main_arg4 _ = V c main_arg4 _
  congr 1
  funext a
  apply Fin.ext
  match a with
  | ⟨0, _⟩ => show win0_1.index t (0 : Fin 3) * 1 + 1 * 0 = k.val; omega
  | ⟨1, _⟩ => show win0_1.index t (1 : Fin 3) * 128 + 1 * j.val = j.val; omega
  | ⟨2, _⟩ => show win0_1.index t (2 : Fin 3) * 128 + 1 * q.val = q.val; omega

/-- At a point with k = 0 the accumulator, read at (p, q), is zero plus term k's block product. -/
theorem acc_reset0 (c : Dev nD) (n : ℕ) (hn : n < cfg0.N) (h : n % 5 = 0) (k : Fin 5) (hk : k.val = n % 5)
    (r : Fin 50000) (p : Fin 1000) (hr : r.val = 1000 * (n / 5) + p.val) (q : Fin 128) :
    acc0 V c n hn (ix2 p q) = 0 + dotAt (stk0 V c) (wts0 V c) k r q := by
  refine (congrFun (acc0_reset V c ⟨n, hn⟩ h) (ix2 p q)).trans ?_
  refine (pay2_apply0 (iblk0 V c 0 ⟨n, hn⟩) (iblk0 V c 1 ⟨n, hn⟩) (k0_pay1 (F := Ideal)) p q).trans ?_
  refine congrArg₂ (· + ·) (pay1_apply0 p q) ?_
  unfold dotAt
  refine Finset.sum_congr rfl fun j _ => ?_
  exact congrArg₂ (· * ·) (blkX0 V c ⟨n, hn⟩ k hk r p hr j) (blkW0 V c ⟨n, hn⟩ k hk j q)

/-- At any other point it is what the point before left plus term k's block product. -/
theorem acc_step0 (c : Dev nD) (n : ℕ) (hn : n + 1 < cfg0.N) (h : ¬(n + 1) % 5 = 0) (k : Fin 5) (hk : k.val = (n + 1) % 5)
    (r : Fin 50000) (p : Fin 1000) (hr : r.val = 1000 * ((n + 1) / 5) + p.val) (q : Fin 128) :
    acc0 V c (n + 1) hn (ix2 p q)
      = acc0 V c n (Nat.lt_of_succ_lt hn) (ix2 p q) + dotAt (stk0 V c) (wts0 V c) k r q := by
  have e : acc0 V c (n + 1) hn
      = k0_pay2 (iblk0 V c 0 ⟨n + 1, hn⟩) (iblk0 V c 1 ⟨n + 1, hn⟩) (acc0 V c n (Nat.lt_of_succ_lt hn)) := if_neg h
  refine (congrFun e (ix2 p q)).trans ?_
  refine (pay2_apply0 (iblk0 V c 0 ⟨n + 1, hn⟩) (iblk0 V c 1 ⟨n + 1, hn⟩) (acc0 V c n (Nat.lt_of_succ_lt hn)) p q).trans ?_
  refine congrArg (fun z => acc0 V c n (Nat.lt_of_succ_lt hn) (ix2 p q) + z) ?_
  unfold dotAt
  refine Finset.sum_congr rfl fun j _ => ?_
  exact congrArg₂ (· * ·) (blkX0 V c ⟨n + 1, hn⟩ k hk r p hr j) (blkW0 V c ⟨n + 1, hn⟩ k hk j q)

/-- Four points after a point with k = 0 the accumulator holds the five block products added in order onto zero. -/
theorem acc_flush0 (c : Dev nD) (m : ℕ) (hm : m + 4 < cfg0.N) (h0 : m % 5 = 0) (r : Fin 50000) (p : Fin 1000)
    (hr : r.val = 1000 * (m / 5) + p.val) (q : Fin 128) :
    acc0 V c (m + 4) hm (ix2 p q) = mixAt (stk0 V c) (wts0 V c) r q := by
  have v0 : ((0 : Fin 5).val) = 0 := rfl
  have v1 : ((1 : Fin 5).val) = 1 := rfl
  have v2 : ((2 : Fin 5).val) = 2 := rfl
  have v3 : ((3 : Fin 5).val) = 3 := rfl
  have v4 : ((4 : Fin 5).val) = 4 := rfl
  have h3 : m + 3 < cfg0.N := Nat.lt_of_succ_lt hm
  have h2 : m + 2 < cfg0.N := Nat.lt_of_succ_lt h3
  have h1 : m + 1 < cfg0.N := Nat.lt_of_succ_lt h2
  have hz : m < cfg0.N := Nat.lt_of_succ_lt h1
  have s4 : acc0 V c (m + 4) hm (ix2 p q) = acc0 V c (m + 3) h3 (ix2 p q) + dotAt (stk0 V c) (wts0 V c) 4 r q :=
    acc_step0 V c (m + 3) hm (by omega) 4 (by omega) r p (by omega) q
  have s3 : acc0 V c (m + 3) h3 (ix2 p q) = acc0 V c (m + 2) h2 (ix2 p q) + dotAt (stk0 V c) (wts0 V c) 3 r q :=
    acc_step0 V c (m + 2) h3 (by omega) 3 (by omega) r p (by omega) q
  have s2 : acc0 V c (m + 2) h2 (ix2 p q) = acc0 V c (m + 1) h1 (ix2 p q) + dotAt (stk0 V c) (wts0 V c) 2 r q :=
    acc_step0 V c (m + 1) h2 (by omega) 2 (by omega) r p (by omega) q
  have s1 : acc0 V c (m + 1) h1 (ix2 p q) = acc0 V c m hz (ix2 p q) + dotAt (stk0 V c) (wts0 V c) 1 r q :=
    acc_step0 V c m h1 (by omega) 1 (by omega) r p (by omega) q
  have s0 : acc0 V c m hz (ix2 p q) = 0 + dotAt (stk0 V c) (wts0 V c) 0 r q :=
    acc_reset0 V c m hz h0 0 (by omega) r p hr q
  rw [s4, s3, s2, s1, s0]
  rfl

/-- The same at a point named by itself. -/
theorem acc_flush0' (c : Dev nD) (n : ℕ) (hn : n < cfg0.N) (h4 : n % 5 = 4) (r : Fin 50000) (p : Fin 1000)
    (hr : r.val = 1000 * (n / 5) + p.val) (q : Fin 128) :
    acc0 V c n hn (ix2 p q) = mixAt (stk0 V c) (wts0 V c) r q := by
  obtain ⟨m, rfl⟩ : ∃ m, n = m + 4 := ⟨n - 4, by omega⟩
  exact acc_flush0 V c m hn (by omega) r p (by omega) q

/-- What a point with k = 4 writes back is its row block of the closed form. -/
theorem flushed_eq0 (c : Dev nD) (t : Fin cfg0.N) (hf : (cfg0.win 2).flush t = true) :
    (dat0 V c).flushed 2 t = ((cfg0.win 2).blk t).view.read (Elt Ideal) (mixI (stk0 V c) (wts0 V c)) := by
  have h4 : t.val % 5 = 4 := (flush0_2 t).mp hf
  have hN : cfg0.N = 250 := N_0
  have ht : t.val < cfg0.N := t.isLt
  obtain ⟨-, -, -, -, -, -, e6, e7⟩ := idx_facts0 t
  show (cfg0.win 2).cut (grid0.coords t) ((dat0 V c).after 2 t) = _
  rw [after0_2]
  funext j
  have hp : (j 0).val < 1000 := (j 0).isLt
  have hq : (j 1).val < 128 := (j 1).isLt
  show acc0 V c t.val t.isLt j = mixI (stk0 V c) (wts0 V c) (((cfg0.win 2).blk t).view.emb j)
  have hemb : ((cfg0.win 2).blk t).view.emb j
      = ix2 (⟨1000 * (t.val / 5) + (j 0).val, by omega⟩ : Fin 50000) (⟨(j 1).val, hq⟩ : Fin 128) := by
    funext a; apply Fin.ext
    match a with
    | ⟨0, _⟩ => show win0_2.index t (0 : Fin 2) * 1000 + 1 * (j 0).val = 1000 * (t.val / 5) + (j 0).val; omega
    | ⟨1, _⟩ => show win0_2.index t (1 : Fin 2) * 128 + 1 * (j 1).val = (j 1).val; omega
  have hj : j = ix2 (⟨(j 0).val, hp⟩ : Fin 1000) (⟨(j 1).val, hq⟩ : Fin 128) := by
    funext a
    match a with
    | ⟨0, _⟩ => rfl
    | ⟨1, _⟩ => rfl
  rw [hemb, mixI_apply]
  refine (congrArg (acc0 V c t.val t.isLt) hj).trans ?_
  exact acc_flush0' V c t.val t.isLt h4 _ _ rfl _

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v137).slice (win0_2.rect t)).set ↔ _
  rw [View.set_slice_whole, Rect.mem_set_unit]
  exact Iff.rfl

/-- Every index of the result array is in the block some point with k = 4 writes back: row r is in row block r / 1000. -/
theorem cover0 (i : S50000x128.Idx) :
    ∃ t : Fin cfg0.N, (cfg0.win 2).flush t = true ∧ i ∈ ((cfg0.win 2).blk t).view.set := by
  have hN : cfg0.N = 250 := N_0
  have hi0 : (i 0).val < 50000 := (i 0).isLt
  have hi1 : (i 1).val < 128 := (i 1).isLt
  obtain ⟨t, ht⟩ : ∃ t : Fin cfg0.N, t.val = 5 * ((i 0).val / 1000) + 4 := ⟨⟨5 * ((i 0).val / 1000) + 4, by omega⟩, rfl⟩
  obtain ⟨-, -, -, -, -, -, e6, e7⟩ := idx_facts0 t
  refine ⟨t, (flush0_2 t).mpr (by omega), ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The result array after the pipeline has run is the closed form of the stacked terms and the stacked weights. -/
theorem arr0 (c : Dev nD) :
    (dat0 (F := Ideal) V c).arrAt 2 cfg0.N = mixI (V c main_v136) (V c main_arg4) :=
  (dat0 V c).arrAt_eq_of_cover 2 (mixI (stk0 V c) (wts0 V c)) (fun t ht => flushed_eq0 V c t ht) cover0

end Cert.KernelIdeal.Hand
end
-- ==== Proof.KVal1.lean ====
/-
  Region 1 (the second channel-mixing kernel): the VALUE of its result array once every grid point has run, over the
  extended reals. A grid point t = 5·i + k multiplies rows 1000·i … 1000·i + 999 of Chebyshev term k by term k's weight
  matrix and adds the product into the accumulator, which starts from zero at k = 0; the row block is written back at
  k = 4. Read at (p, q), one point's update is what the accumulator held plus ∑ j, T_k (1000·i + p, j) · W_k (j, q)
  (the narrowing format change is the identity on extended reals, the two reshapes drop a leading unit axis, the block
  product into the zero constant is that sum, the zero block reads 0). So four points after a point with k = 0 the
  accumulator holds ((((0 + D 0) + D 1) + D 2) + D 3) + D 4 at row 1000·i + p — the closed form `mixAt` —, the block a
  point with k = 4 writes back is its rows of `mixI`, and since row r lies in the block of point 5·(r / 1000) + 4 the
  whole result array ends at `mixI` of the stacked terms and the stacked weights as the region found them.
-/
import proofs.«402212_j24189255811803_4_alg».proof.Proof.KDat1
import proofs.«402212_j24189255811803_4_alg».proof.Proof.MixDef
import proofs.«402212_j24189255811803_4_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The stacked Chebyshev terms as the region finds them. -/
abbrev stk1 (c : Dev nD) : FVec Ideal S5x50000x128 .f32 := V c main_v220
/-- The stacked weights as the region finds them. -/
abbrev wts1 (c : Dev nD) : FVec Ideal S5x128x128 .f32 := V c main_arg6

/-- The zero block reads zero. -/
theorem pay1_apply1 (p : Fin 1000) (q : Fin 128) : k1_pay1 (F := Ideal) (ix2 p q) = 0 := by
  unfold k1_pay1
  rw [shapeCast_self]
  exact Ideal.ofBits_zero_f32

/-- One point's update at (p, q): what the accumulator held plus the block product of the two input blocks. -/
theorem pay2_apply1 (x0 : Vec Ideal S1x1000x128 .f32) (x1 : Vec Ideal S1x128x128 .f32) (s : Vec Ideal S1000x128 .f32)
    (p : Fin 1000) (q : Fin 128) :
    k1_pay2 (F := Ideal) x0 x1 s (ix2 p q) = s (ix2 p q) + ∑ j : Fin 128, x0 (ix3 0 p j) * x1 (ix3 0 j q) := by
  unfold k1_pay2
  rw [shapeCast_self]
  refine congrArg (fun z => s (ix2 p q) + z) ?_
  refine (Cert.Lib.matmul_rc_apply dot_S1000x128_S128x128_S1000x128_1_0_0_1_n_n rfl rfl rfl rfl rfl rfl none _ _ p q).trans ?_
  refine Finset.sum_congr rfl fun j _ => ?_
  exact congrArg₂ (· * ·) (shapeCast_1ab_ab_apply x0 shapeCasts_S1x1000x128_S1000x128 p j)
    (shapeCast_1ab_ab_apply x1 shapeCasts_S1x128x128_S128x128 j q)

/-- The printed index maps over the grid: point t = 5·i + k reads term k's row block i of the stack and term k's weights,
    and its output block is row block i. -/
theorem idx_facts1 : ∀ t : Fin cfg1.N,
    win1_0.index t (0 : Fin 3) = t.val % 5 ∧ win1_0.index t (1 : Fin 3) = t.val / 5 ∧ win1_0.index t (2 : Fin 3) = 0
    ∧ win1_1.index t (0 : Fin 3) = t.val % 5 ∧ win1_1.index t (1 : Fin 3) = 0 ∧ win1_1.index t (2 : Fin 3) = 0
    ∧ win1_2.index t (0 : Fin 2) = t.val / 5 ∧ win1_2.index t (1 : Fin 2) = 0 :=
  (by decide +kernel : ∀ t : Fin grid1.N, _)

/-- The first input block at point t, at (0, p, j): the stack at (k, 1000·i + p, j). -/
theorem blkX1 (c : Dev nD) (t : Fin cfg1.N) (k : Fin 5) (hk : k.val = t.val % 5) (r : Fin 50000) (p : Fin 1000)
    (hr : r.val = 1000 * (t.val / 5) + p.val) (j : Fin 128) :
    (iblk1 V c 0 t : Vec Ideal S1x1000x128 .f32) (ix3 0 p j) = stk1 V c (ix3 k r j) := by
  obtain ⟨e0, e1, e2, -⟩ := idx_facts1 t
  unfold iblk1
  rw [View.read_apply]
  show V c main_v220 _ = V c main_v220 _
  congr 1
  funext a
  apply Fin.ext
  match a with
  | ⟨0, _⟩ => show win1_0.index t (0 : Fin 3) * 1 + 1 * 0 = k.val; omega
  | ⟨1, _⟩ => show win1_0.index t (1 : Fin 3) * 1000 + 1 * p.val = r.val; omega
  | ⟨2, _⟩ => show win1_0.index t (2 : Fin 3) * 128 + 1 * j.val = j.val; omega

/-- The second input block at point t, at (0, j, q): the weights at (k, j, q). -/
theorem blkW1 (c : Dev nD) (t : Fin cfg1.N) (k : Fin 5) (hk : k.val = t.val % 5) (j : Fin 128) (q : Fin 128) :
    (iblk1 V c 1 t : Vec Ideal S1x128x128 .f32) (ix3 0 j q) = wts1 V c (ix3 k j q) := by
  obtain ⟨-, -, -, e3, e4, e5, -⟩ := idx_facts1 t
  unfold iblk1
  rw [View.read_apply]
  show V c main_arg6 _ = V c main_arg6 _
  congr 1
  funext a
  apply Fin.ext
  match a with
  | ⟨0, _⟩ => show win1_1.index t (0 : Fin 3) * 1 + 1 * 0 = k.val; omega
  | ⟨1, _⟩ => show win1_1.index t (1 : Fin 3) * 128 + 1 * j.val = j.val; omega
  | ⟨2, _⟩ => show win1_1.index t (2 : Fin 3) * 128 + 1 * q.val = q.val; omega

/-- At a point with k = 0 the accumulator, read at (p, q), is zero plus term k's block product. -/
theorem acc_reset1 (c : Dev nD) (n : ℕ) (hn : n < cfg1.N) (h : n % 5 = 0) (k : Fin 5) (hk : k.val = n % 5)
    (r : Fin 50000) (p : Fin 1000) (hr : r.val = 1000 * (n / 5) + p.val) (q : Fin 128) :
    acc1 V c n hn (ix2 p q) = 0 + dotAt (stk1 V c) (wts1 V c) k r q := by
  refine (congrFun (acc1_reset V c ⟨n, hn⟩ h) (ix2 p q)).trans ?_
  refine (pay2_apply1 (iblk1 V c 0 ⟨n, hn⟩) (iblk1 V c 1 ⟨n, hn⟩) (k1_pay1 (F := Ideal)) p q).trans ?_
  refine congrArg₂ (· + ·) (pay1_apply1 p q) ?_
  unfold dotAt
  refine Finset.sum_congr rfl fun j _ => ?_
  exact congrArg₂ (· * ·) (blkX1 V c ⟨n, hn⟩ k hk r p hr j) (blkW1 V c ⟨n, hn⟩ k hk j q)

/-- At any other point it is what the point before left plus term k's block product. -/
theorem acc_step1 (c : Dev nD) (n : ℕ) (hn : n + 1 < cfg1.N) (h : ¬(n + 1) % 5 = 0) (k : Fin 5) (hk : k.val = (n + 1) % 5)
    (r : Fin 50000) (p : Fin 1000) (hr : r.val = 1000 * ((n + 1) / 5) + p.val) (q : Fin 128) :
    acc1 V c (n + 1) hn (ix2 p q)
      = acc1 V c n (Nat.lt_of_succ_lt hn) (ix2 p q) + dotAt (stk1 V c) (wts1 V c) k r q := by
  have e : acc1 V c (n + 1) hn
      = k1_pay2 (iblk1 V c 0 ⟨n + 1, hn⟩) (iblk1 V c 1 ⟨n + 1, hn⟩) (acc1 V c n (Nat.lt_of_succ_lt hn)) := if_neg h
  refine (congrFun e (ix2 p q)).trans ?_
  refine (pay2_apply1 (iblk1 V c 0 ⟨n + 1, hn⟩) (iblk1 V c 1 ⟨n + 1, hn⟩) (acc1 V c n (Nat.lt_of_succ_lt hn)) p q).trans ?_
  refine congrArg (fun z => acc1 V c n (Nat.lt_of_succ_lt hn) (ix2 p q) + z) ?_
  unfold dotAt
  refine Finset.sum_congr rfl fun j _ => ?_
  exact congrArg₂ (· * ·) (blkX1 V c ⟨n + 1, hn⟩ k hk r p hr j) (blkW1 V c ⟨n + 1, hn⟩ k hk j q)

/-- Four points after a point with k = 0 the accumulator holds the five block products added in order onto zero. -/
theorem acc_flush1 (c : Dev nD) (m : ℕ) (hm : m + 4 < cfg1.N) (h0 : m % 5 = 0) (r : Fin 50000) (p : Fin 1000)
    (hr : r.val = 1000 * (m / 5) + p.val) (q : Fin 128) :
    acc1 V c (m + 4) hm (ix2 p q) = mixAt (stk1 V c) (wts1 V c) r q := by
  have v0 : ((0 : Fin 5).val) = 0 := rfl
  have v1 : ((1 : Fin 5).val) = 1 := rfl
  have v2 : ((2 : Fin 5).val) = 2 := rfl
  have v3 : ((3 : Fin 5).val) = 3 := rfl
  have v4 : ((4 : Fin 5).val) = 4 := rfl
  have h3 : m + 3 < cfg1.N := Nat.lt_of_succ_lt hm
  have h2 : m + 2 < cfg1.N := Nat.lt_of_succ_lt h3
  have h1 : m + 1 < cfg1.N := Nat.lt_of_succ_lt h2
  have hz : m < cfg1.N := Nat.lt_of_succ_lt h1
  have s4 : acc1 V c (m + 4) hm (ix2 p q) = acc1 V c (m + 3) h3 (ix2 p q) + dotAt (stk1 V c) (wts1 V c) 4 r q :=
    acc_step1 V c (m + 3) hm (by omega) 4 (by omega) r p (by omega) q
  have s3 : acc1 V c (m + 3) h3 (ix2 p q) = acc1 V c (m + 2) h2 (ix2 p q) + dotAt (stk1 V c) (wts1 V c) 3 r q :=
    acc_step1 V c (m + 2) h3 (by omega) 3 (by omega) r p (by omega) q
  have s2 : acc1 V c (m + 2) h2 (ix2 p q) = acc1 V c (m + 1) h1 (ix2 p q) + dotAt (stk1 V c) (wts1 V c) 2 r q :=
    acc_step1 V c (m + 1) h2 (by omega) 2 (by omega) r p (by omega) q
  have s1 : acc1 V c (m + 1) h1 (ix2 p q) = acc1 V c m hz (ix2 p q) + dotAt (stk1 V c) (wts1 V c) 1 r q :=
    acc_step1 V c m h1 (by omega) 1 (by omega) r p (by omega) q
  have s0 : acc1 V c m hz (ix2 p q) = 0 + dotAt (stk1 V c) (wts1 V c) 0 r q :=
    acc_reset1 V c m hz h0 0 (by omega) r p hr q
  rw [s4, s3, s2, s1, s0]
  rfl

/-- The same at a point named by itself. -/
theorem acc_flush1' (c : Dev nD) (n : ℕ) (hn : n < cfg1.N) (h4 : n % 5 = 4) (r : Fin 50000) (p : Fin 1000)
    (hr : r.val = 1000 * (n / 5) + p.val) (q : Fin 128) :
    acc1 V c n hn (ix2 p q) = mixAt (stk1 V c) (wts1 V c) r q := by
  obtain ⟨m, rfl⟩ : ∃ m, n = m + 4 := ⟨n - 4, by omega⟩
  exact acc_flush1 V c m hn (by omega) r p (by omega) q

/-- What a point with k = 4 writes back is its row block of the closed form. -/
theorem flushed_eq1 (c : Dev nD) (t : Fin cfg1.N) (hf : (cfg1.win 2).flush t = true) :
    (dat1 V c).flushed 2 t = ((cfg1.win 2).blk t).view.read (Elt Ideal) (mixI (stk1 V c) (wts1 V c)) := by
  have h4 : t.val % 5 = 4 := (flush1_2 t).mp hf
  have hN : cfg1.N = 250 := N_1
  have ht : t.val < cfg1.N := t.isLt
  obtain ⟨-, -, -, -, -, -, e6, e7⟩ := idx_facts1 t
  show (cfg1.win 2).cut (grid1.coords t) ((dat1 V c).after 2 t) = _
  rw [after1_2]
  funext j
  have hp : (j 0).val < 1000 := (j 0).isLt
  have hq : (j 1).val < 128 := (j 1).isLt
  show acc1 V c t.val t.isLt j = mixI (stk1 V c) (wts1 V c) (((cfg1.win 2).blk t).view.emb j)
  have hemb : ((cfg1.win 2).blk t).view.emb j
      = ix2 (⟨1000 * (t.val / 5) + (j 0).val, by omega⟩ : Fin 50000) (⟨(j 1).val, hq⟩ : Fin 128) := by
    funext a; apply Fin.ext
    match a with
    | ⟨0, _⟩ => show win1_2.index t (0 : Fin 2) * 1000 + 1 * (j 0).val = 1000 * (t.val / 5) + (j 0).val; omega
    | ⟨1, _⟩ => show win1_2.index t (1 : Fin 2) * 128 + 1 * (j 1).val = (j 1).val; omega
  have hj : j = ix2 (⟨(j 0).val, hp⟩ : Fin 1000) (⟨(j 1).val, hq⟩ : Fin 128) := by
    funext a
    match a with
    | ⟨0, _⟩ => rfl
    | ⟨1, _⟩ => rfl
  rw [hemb, mixI_apply]
  refine (congrArg (acc1 V c t.val t.isLt) hj).trans ?_
  exact acc_flush1' V c t.val t.isLt h4 _ _ rfl _

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v221).slice (win1_2.rect t)).set ↔ _
  rw [View.set_slice_whole, Rect.mem_set_unit]
  exact Iff.rfl

/-- Every index of the result array is in the block some point with k = 4 writes back: row r is in row block r / 1000. -/
theorem cover1 (i : S50000x128.Idx) :
    ∃ t : Fin cfg1.N, (cfg1.win 2).flush t = true ∧ i ∈ ((cfg1.win 2).blk t).view.set := by
  have hN : cfg1.N = 250 := N_1
  have hi0 : (i 0).val < 50000 := (i 0).isLt
  have hi1 : (i 1).val < 128 := (i 1).isLt
  obtain ⟨t, ht⟩ : ∃ t : Fin cfg1.N, t.val = 5 * ((i 0).val / 1000) + 4 := ⟨⟨5 * ((i 0).val / 1000) + 4, by omega⟩, rfl⟩
  obtain ⟨-, -, -, -, -, -, e6, e7⟩ := idx_facts1 t
  refine ⟨t, (flush1_2 t).mpr (by omega), ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The result array after the pipeline has run is the closed form of the stacked terms and the stacked weights. -/
theorem arr1 (c : Dev nD) :
    (dat1 (F := Ideal) V c).arrAt 2 cfg1.N = mixI (V c main_v220) (V c main_arg6) :=
  (dat1 V c).arrAt_eq_of_cover 2 (mixI (stk1 V c) (wts1 V c)) (fun t ht => flushed_eq1 V c t ht) cover1

end Cert.KernelIdeal.Hand
end
-- ==== Proof.KFinal.lean ====
/-
  The kernel program's result in closed form, over the extended reals. Walking the eleven segments back from the
  returned buffer: the last stretch of host operations is the pooling and the classifier over the second layer's bias
  and clamp; the second layer's mixing is what the second region leaves in its output array, the accumulated block
  products over the stacked Chebyshev terms the middle stretch computes from the first layer's output; the first layer's
  mixing is what the first region leaves, over the stacked terms the first stretch computes from the arguments; the
  graph's pieces (edge rows, edge weights, diagonal column) are computed once by the first stretch and written by nothing
  after it; and no segment writes an argument. Put together this is the composition the two-layer network names.
-/
import proofs.«402212_j24189255811803_4_alg».proof.Proof.KRun
import proofs.«402212_j24189255811803_4_alg».proof.Proof.Net
import proofs.«402212_j24189255811803_4_alg».proof.Proof.KKeep
import proofs.«402212_j24189255811803_4_alg».proof.Proof.KHost
import proofs.«402212_j24189255811803_4_alg».proof.Proof.KVal0
import proofs.«402212_j24189255811803_4_alg».proof.Proof.KVal1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Spec Cert.KernelIdeal.KHost

variable (m : (ℓ : Loc nD τ sig) → Buf (Elt Ideal) ℓ) (ρ : Dev nD → PrngReg) (c : Dev nD)

/-! ## An argument array at the boundaries up to the second region's exit: as launched -/

theorem W3_arg (j : Fin 10) : W3 m ρ c (Proc.devRef .tc (argRef j)) = m ((c : Thread nD τ).loc (argRef j)) :=
  calc W3 m ρ c (Proc.devRef .tc (argRef j))
    _ = W2 m ρ c (Proc.devRef .tc (argRef j)) := keep_hostOps0_2 _ j
    _ = W1 m ρ c (Proc.devRef .tc (argRef j)) := keep_hostOps0_1 _ j
    _ = W0 m ρ c (Proc.devRef .tc (argRef j)) := keep_hostOps0 _ j
    _ = m ((c : Thread nD τ).loc (argRef j)) := rfl

theorem W4_arg (j : Fin 10) : W4 m ρ c (Proc.devRef .tc (argRef j)) = m ((c : Thread nD τ).loc (argRef j)) := by
  have h4 : W4 m ρ c (Proc.devRef .tc (argRef j)) = W3 m ρ c (Proc.devRef .tc (argRef j)) := by
    fin_cases j <;> first
      | exact W4_of_ne m ρ c _ (by decide)
      | exact (W4_arr m ρ c 1).trans (((dat0 (V3 m ρ) c).arrAt_in 1 rfl _).trans (A_eq0 (V3 m ρ) c 1))
  exact h4.trans (W3_arg m ρ c j)

theorem W7_arg (j : Fin 10) : W7 m ρ c (Proc.devRef .tc (argRef j)) = m ((c : Thread nD τ).loc (argRef j)) :=
  calc W7 m ρ c (Proc.devRef .tc (argRef j))
    _ = W6 m ρ c (Proc.devRef .tc (argRef j)) := keep_hostOps1_2 _ j
    _ = W5 m ρ c (Proc.devRef .tc (argRef j)) := keep_hostOps1_1 _ j
    _ = W4 m ρ c (Proc.devRef .tc (argRef j)) := keep_hostOps1 _ j
    _ = m ((c : Thread nD τ).loc (argRef j)) := W4_arg m ρ c j

theorem W8_arg (j : Fin 10) : W8 m ρ c (Proc.devRef .tc (argRef j)) = m ((c : Thread nD τ).loc (argRef j)) := by
  have h8 : W8 m ρ c (Proc.devRef .tc (argRef j)) = W7 m ρ c (Proc.devRef .tc (argRef j)) := by
    fin_cases j <;> first
      | exact W8_of_ne m ρ c _ (by decide)
      | exact (W8_arr m ρ c 1).trans (((dat1 (V7 m ρ) c).arrAt_in 1 rfl _).trans (A_eq1 (V7 m ρ) c 1))
  exact h8.trans (W7_arg m ρ c j)

/-! ## The graph's pieces and the first stack, at the first region's entry -/

theorem W3_v1 : W3 m ρ c (Proc.devRef .tc main_v1) = (edgeRow (m ((c : Thread nD τ).loc main_arg1))) := pre_v1 (W0 m ρ c)

theorem W3_v3 : W3 m ρ c (Proc.devRef .tc main_v3) = (edgeCol (m ((c : Thread nD τ).loc main_arg1))) := pre_v3 (W0 m ρ c)

theorem W3_v45 : W3 m ρ c (Proc.devRef .tc main_v45) =
    (edgeWeight (edgeRow (m ((c : Thread nD τ).loc main_arg1))) (edgeCol (m ((c : Thread nD τ).loc main_arg1))) (m ((c : Thread nD τ).loc main_arg2)) (m ((c : Thread nD τ).loc main_arg3))) := pre_v45 (W0 m ρ c)

theorem W3_v57 : W3 m ρ c (Proc.devRef .tc main_v57) = (diagColReshape (diagVec (m ((c : Thread nD τ).loc main_arg2)) (m ((c : Thread nD τ).loc main_arg3)))) := pre_v57 (W0 m ρ c)

theorem W3_v136 : W3 m ρ c (Proc.devRef .tc main_v136) =
    chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (m ((c : Thread nD τ).loc main_arg0)) := pre_v136 (W0 m ρ c)

/-! ## The first region writes none of the graph's pieces -/

theorem W4_v1 : W4 m ρ c (Proc.devRef .tc main_v1) = (edgeRow (m ((c : Thread nD τ).loc main_arg1))) :=
  (W4_of_ne m ρ c main_v1 (by decide)).trans (W3_v1 m ρ c)

theorem W4_v3 : W4 m ρ c (Proc.devRef .tc main_v3) = (edgeCol (m ((c : Thread nD τ).loc main_arg1))) :=
  (W4_of_ne m ρ c main_v3 (by decide)).trans (W3_v3 m ρ c)

theorem W4_v45 : W4 m ρ c (Proc.devRef .tc main_v45) =
    (edgeWeight (edgeRow (m ((c : Thread nD τ).loc main_arg1))) (edgeCol (m ((c : Thread nD τ).loc main_arg1))) (m ((c : Thread nD τ).loc main_arg2)) (m ((c : Thread nD τ).loc main_arg3))) :=
  (W4_of_ne m ρ c main_v45 (by decide)).trans (W3_v45 m ρ c)

theorem W4_v57 : W4 m ρ c (Proc.devRef .tc main_v57) = (diagColReshape (diagVec (m ((c : Thread nD τ).loc main_arg2)) (m ((c : Thread nD τ).loc main_arg3)))) :=
  (W4_of_ne m ρ c main_v57 (by decide)).trans (W3_v57 m ρ c)

/-! ## The first region's output: the first layer's mixing -/

theorem W4_v137 : W4 m ρ c (Proc.devRef .tc main_v137) =
    mixI (chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (m ((c : Thread nD τ).loc main_arg0))) (m ((c : Thread nD τ).loc main_arg4)) := by
  refine (W4_arr m ρ c 2).trans ((arr0 (V3 m ρ) c).trans ?_)
  show mixI (W3 m ρ c (Proc.devRef .tc main_v136)) (W3 m ρ c (Proc.devRef .tc main_arg4)) = _
  rw [W3_v136 m ρ c, show W3 m ρ c (Proc.devRef .tc main_arg4) = (m ((c : Thread nD τ).loc main_arg4)) from W3_arg m ρ c 4]

/-! ## The second stack, at the second region's entry -/

theorem W7_v220 : W7 m ρ c (Proc.devRef .tc main_v220) =
    (chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (biasRelu (F := Ideal) (mixI (chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (m ((c : Thread nD τ).loc main_arg0))) (m ((c : Thread nD τ).loc main_arg4))) (m ((c : Thread nD τ).loc main_arg5)))) := by
  refine (mid_v220 (W4 m ρ c)).trans ?_
  rw [W4_v57 m ρ c, W4_v1 m ρ c, W4_v3 m ρ c, W4_v45 m ρ c, W4_v137 m ρ c,
    show W4 m ρ c (Proc.devRef .tc main_arg5) = (m ((c : Thread nD τ).loc main_arg5)) from W4_arg m ρ c 5]

/-! ## The second region's output: the second layer's mixing -/

theorem W8_v221 : W8 m ρ c (Proc.devRef .tc main_v221) =
    mixI (chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (biasRelu (F := Ideal) (mixI (chebStack (diagColReshape (diagVec (m ((c : Thread nD τ).loc main_arg2)) (m ((c : Thread nD τ).loc main_arg3)))) (edgeRow (m ((c : Thread nD τ).loc main_arg1))) (edgeCol (m ((c : Thread nD τ).loc main_arg1)))
      (edgeWeight (edgeRow (m ((c : Thread nD τ).loc main_arg1))) (edgeCol (m ((c : Thread nD τ).loc main_arg1))) (m ((c : Thread nD τ).loc main_arg2)) (m ((c : Thread nD τ).loc main_arg3)))
      (m ((c : Thread nD τ).loc main_arg0))) (m ((c : Thread nD τ).loc main_arg4))) (m ((c : Thread nD τ).loc main_arg5)))) (m ((c : Thread nD τ).loc main_arg6)) := by
  refine (W8_arr m ρ c 2).trans ((arr1 (V7 m ρ) c).trans ?_)
  show mixI (W7 m ρ c (Proc.devRef .tc main_v220)) (W7 m ρ c (Proc.devRef .tc main_arg6)) = _
  rw [W7_v220 m ρ c, show W7 m ρ c (Proc.devRef .tc main_arg6) = (m ((c : Thread nD τ).loc main_arg6)) from W7_arg m ρ c 6]

/-! ## The returned buffer -/

theorem W11_v240 (m : (ℓ : Loc nD τ sig) → Buf (Elt Ideal) ℓ) (ρ : Dev nD → PrngReg) (c : Dev nD) :
    W11 (F := Ideal) m ρ c (Proc.devRef .tc main_v240) =
      netK (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9)) := by
  refine (post_v240 (W8 m ρ c)).trans ?_
  unfold netK layerK
  rw [W8_v221 m ρ c,
    show W8 m ρ c (Proc.devRef .tc main_arg7) = (m ((c : Thread nD τ).loc main_arg7)) from W8_arg m ρ c 7,
    show W8 m ρ c (Proc.devRef .tc main_arg2) = (m ((c : Thread nD τ).loc main_arg2)) from W8_arg m ρ c 2,
    show W8 m ρ c (Proc.devRef .tc main_arg8) = (m ((c : Thread nD τ).loc main_arg8)) from W8_arg m ρ c 8,
    show W8 m ρ c (Proc.devRef .tc main_arg9) = (m ((c : Thread nD τ).loc main_arg9)) from W8_arg m ρ c 9]

end Cert.KernelIdeal.Hand

end
-- ==== Proof.RHost.lean ====
/-
  What the reference program's 330 host operations compute, for any float family. The line of operations is cut in
  four stretches: the graph's operator (the two edge rows, the edge weights, the diagonal), the first layer, the second
  layer, and the pooling with the classifier. Each stretch is read from ARBITRARY buffer contents: the value it leaves
  in the buffer that closes it, as a function of the contents it reads, and the buffers it leaves alone. The four
  readings chain to the network as a function of the ten argument arrays (`netR`).
-/
import proofs.«402212_j24189255811803_4_alg».proof.Proof.Spec
import proofs.«402212_j24189255811803_4_alg».proof.Proof.RefMix
import proofs.«402212_j24189255811803_4_alg».proof.Proof.RefRun
import proofs.«402212_j24189255811803_4_alg».proof.Proof.Net
import Idealize.ShloMosaic.Lib.StableHlo.Run

noncomputable section

namespace Cert.ReferenceIdeal.RHost

open Cert.ReferenceIdeal Cert.ReferenceIdeal.Gen Cert.ReferenceIdeal.RunP Idealize.ShloMosaic Idealize.ShloMosaic.StableHlo
open Cert.KernelIdeal.Spec (edgeRow edgeCol edgeWeight diagVec diagColBcast poolHead layerR netR)

variable {F : FTy → Type} [FloatOps F]

local notation "d[" r "]" => Proc.devRef Proc.tc r

/-! ## Cutting a line of operations -/

/-- Two lines run one after the other: the second from what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A line from position `a` on is its next `n` operations, then the line from position `a + n` on. -/
theorem after_cut (L : List (HloOp τ sig (Elt F))) (a n : Nat) (V : Valuation τ sig (Elt F)) :
    after (L.drop a) V = after (L.drop (a + n)) (after ((L.drop a).take n) V) := by
  rw [← List.drop_drop, ← after_append', List.take_append_drop]

/-- The graph's operator: operations 0 to 76 (the edge rows, the degrees, the edge weights, the diagonal). -/
def preOps : List (HloOp τ sig (Elt F)) := (List.drop 0 ops).take 77
/-- The first layer: operations 77 to 193. -/
def l1Ops : List (HloOp τ sig (Elt F)) := (List.drop 77 ops).take 117
/-- The second layer: operations 194 to 310. -/
def l2Ops : List (HloOp τ sig (Elt F)) := (List.drop 194 ops).take 117
/-- The pooling and the classifier: operations 311 to 329. -/
def tailOps : List (HloOp τ sig (Elt F)) := List.drop 311 ops

/-- The whole line is the four stretches in order. -/
theorem ops_split (V : Valuation τ sig (Elt F)) :
    after (ops (F := F)) V = after tailOps (after l2Ops (after l1Ops (after preOps V))) :=
  calc after (ops (F := F)) V = after (List.drop 0 ops) V := rfl
    _ = after (List.drop 77 ops) (after preOps V) := after_cut ops 0 77 V
    _ = after (List.drop 194 ops) (after l1Ops (after preOps V)) := after_cut ops 77 117 _
    _ = after tailOps (after l2Ops (after l1Ops (after preOps V))) := after_cut ops 194 117 _

/-- A stretch as its literal list of operations. -/
local macro "expose" : tactic =>
  `(tactic| (simp only [preOps, l1Ops, l2Ops, tailOps, ops, List.drop_succ_cons, List.take_succ_cons, List.take_zero, List.drop_zero]
             try simp only [TRef.unary, TRef.nullary, TRef.binary, TRef.ternary]))

/-- The ten argument arrays' buffers. -/
abbrev argRefs : List (Ref sig .tc) :=
  [main_arg0, main_arg1, main_arg2, main_arg3, main_arg4, main_arg5, main_arg6, main_arg7, main_arg8, main_arg9]
/-- The argument buffers and the four buffers of the graph's operator that both layers read. -/
abbrev keptRefs : List (Ref sig .tc) :=
  [main_arg0, main_arg1, main_arg2, main_arg3, main_arg4, main_arg5, main_arg6, main_arg7, main_arg8, main_arg9,
   main_v1, main_v3, main_v45, main_v56]

/-! ## The graph's operator -/

set_option maxRecDepth 16384 in
set_option maxHeartbeats 4000000 in
/-- What the first stretch leaves: the two edge rows, the edge weights and the diagonal, of the argument arrays. -/
theorem pre_vals (U : Valuation τ sig (Elt F)) :
    after preOps U d[main_v1] = edgeRow (U d[main_arg1]) ∧
    after preOps U d[main_v3] = edgeCol (U d[main_arg1]) ∧
    after preOps U d[main_v45] = edgeWeight (edgeRow (U d[main_arg1])) (edgeCol (U d[main_arg1])) (U d[main_arg2]) (U d[main_arg3]) ∧
    after preOps U d[main_v56] = diagVec (U d[main_arg2]) (U d[main_arg3]) := by
  expose
  refine ⟨?_, ?_, ?_, ?_⟩ <;> (after_results_simp; first | done | rfl)

theorem pre_v1 (U : Valuation τ sig (Elt F)) : after preOps U d[main_v1] = edgeRow (U d[main_arg1]) := (pre_vals U).1
theorem pre_v3 (U : Valuation τ sig (Elt F)) : after preOps U d[main_v3] = edgeCol (U d[main_arg1]) := (pre_vals U).2.1
theorem pre_v45 (U : Valuation τ sig (Elt F)) :
    after preOps U d[main_v45] = edgeWeight (edgeRow (U d[main_arg1])) (edgeCol (U d[main_arg1])) (U d[main_arg2]) (U d[main_arg3]) :=
  (pre_vals U).2.2.1
theorem pre_v56 (U : Valuation τ sig (Elt F)) : after preOps U d[main_v56] = diagVec (U d[main_arg2]) (U d[main_arg3]) :=
  (pre_vals U).2.2.2

set_option maxRecDepth 16384 in
set_option maxHeartbeats 4000000 in
/-- The first stretch writes no argument buffer. -/
theorem pre_keep (U : Valuation τ sig (Elt F)) (r : Ref sig .tc) (h : r ∈ argRefs) :
    after preOps U (no_index (Proc.devRef .tc r)) = U (Proc.devRef .tc r) := by
  simp only [argRefs, List.mem_cons, List.not_mem_nil, or_false] at h
  expose
  rcases h with rfl | rfl | rfl | rfl | rfl | rfl | rfl | rfl | rfl | rfl <;> after_results_simp

/-! ## The two layers -/

set_option maxRecDepth 16384 in
set_option maxHeartbeats 4000000 in
/-- What the second stretch leaves: one layer over the operator's buffers, of the first argument array. -/
theorem l1_val (U : Valuation τ sig (Elt F)) :
    after l1Ops U d[main_v156]
      = layerR (diagColBcast (U d[main_v56])) (U d[main_v1]) (U d[main_v3]) (U d[main_v45]) (U d[main_arg0]) (U d[main_arg4])
          (U d[main_arg5]) := by
  expose
  after_results_simp
  rfl

set_option maxRecDepth 16384 in
set_option maxHeartbeats 4000000 in
/-- The second stretch writes no argument buffer and none of the operator's four. -/
theorem l1_keep (U : Valuation τ sig (Elt F)) (r : Ref sig .tc) (h : r ∈ keptRefs) :
    after l1Ops U (no_index (Proc.devRef .tc r)) = U (Proc.devRef .tc r) := by
  simp only [keptRefs, List.mem_cons, List.not_mem_nil, or_false] at h
  expose
  rcases h with rfl | rfl | rfl | rfl | rfl | rfl | rfl | rfl | rfl | rfl | rfl | rfl | rfl | rfl <;> after_results_simp

set_option maxRecDepth 16384 in
set_option maxHeartbeats 4000000 in
/-- What the third stretch leaves: one layer over the operator's buffers, of the first layer's result. -/
theorem l2_val (U : Valuation τ sig (Elt F)) :
    after l2Ops U d[main_v256]
      = layerR (diagColBcast (U d[main_v56])) (U d[main_v1]) (U d[main_v3]) (U d[main_v45]) (U d[main_v156]) (U d[main_arg6])
          (U d[main_arg7]) := by
  expose
  after_results_simp
  rfl

set_option maxRecDepth 16384 in
set_option maxHeartbeats 4000000 in
/-- The third stretch writes no argument buffer. -/
theorem l2_keep (U : Valuation τ sig (Elt F)) (r : Ref sig .tc) (h : r ∈ argRefs) :
    after l2Ops U (no_index (Proc.devRef .tc r)) = U (Proc.devRef .tc r) := by
  simp only [argRefs, List.mem_cons, List.not_mem_nil, or_false] at h
  expose
  rcases h with rfl | rfl | rfl | rfl | rfl | rfl | rfl | rfl | rfl | rfl <;> after_results_simp

/-! ## The pooling and the classifier -/

set_option maxRecDepth 16384 in
set_option maxHeartbeats 4000000 in
/-- What the last stretch leaves: the mean over each graph, then the classifier, of the second layer's result. -/
theorem tail_val (U : Valuation τ sig (Elt F)) :
    after tailOps U d[main_v271] = poolHead (U d[main_v256]) (U d[main_arg2]) (U d[main_arg8]) (U d[main_arg9]) := by
  expose
  after_results_simp
  rfl

set_option maxRecDepth 16384 in
set_option maxHeartbeats 4000000 in
/-- The last stretch writes no argument buffer. -/
theorem tail_keep (U : Valuation τ sig (Elt F)) (r : Ref sig .tc) (h : r ∈ argRefs) :
    after tailOps U (no_index (Proc.devRef .tc r)) = U (Proc.devRef .tc r) := by
  simp only [argRefs, List.mem_cons, List.not_mem_nil, or_false] at h
  expose
  rcases h with rfl | rfl | rfl | rfl | rfl | rfl | rfl | rfl | rfl | rfl <;> after_results_simp

/-! ## The whole line -/

/-- No operation of the line writes an argument buffer. -/
theorem ref_arg (V : Valuation τ sig (Elt F)) (r : Ref sig .tc) (h : r ∈ argRefs) :
    after (ops (F := F)) V (Proc.devRef .tc r) = V (Proc.devRef .tc r) := by
  have h' : r ∈ keptRefs := by
    simp only [argRefs, List.mem_cons, List.not_mem_nil, or_false] at h
    rcases h with rfl | rfl | rfl | rfl | rfl | rfl | rfl | rfl | rfl | rfl <;> decide
  rw [ops_split]
  exact (tail_keep _ r h).trans ((l2_keep _ r h).trans ((l1_keep _ r h').trans (pre_keep V r h)))

theorem ref_arg0 (V : Valuation τ sig (Elt F)) : after (ops (F := F)) V d[main_arg0] = V d[main_arg0] := ref_arg V _ (by decide)
theorem ref_arg1 (V : Valuation τ sig (Elt F)) : after (ops (F := F)) V d[main_arg1] = V d[main_arg1] := ref_arg V _ (by decide)
theorem ref_arg2 (V : Valuation τ sig (Elt F)) : after (ops (F := F)) V d[main_arg2] = V d[main_arg2] := ref_arg V _ (by decide)
theorem ref_arg3 (V : Valuation τ sig (Elt F)) : after (ops (F := F)) V d[main_arg3] = V d[main_arg3] := ref_arg V _ (by decide)
theorem ref_arg4 (V : Valuation τ sig (Elt F)) : after (ops (F := F)) V d[main_arg4] = V d[main_arg4] := ref_arg V _ (by decide)
theorem ref_arg5 (V : Valuation τ sig (Elt F)) : after (ops (F := F)) V d[main_arg5] = V d[main_arg5] := ref_arg V _ (by decide)
theorem ref_arg6 (V : Valuation τ sig (Elt F)) : after (ops (F := F)) V d[main_arg6] = V d[main_arg6] := ref_arg V _ (by decide)
theorem ref_arg7 (V : Valuation τ sig (Elt F)) : after (ops (F := F)) V d[main_arg7] = V d[main_arg7] := ref_arg V _ (by decide)
theorem ref_arg8 (V : Valuation τ sig (Elt F)) : after (ops (F := F)) V d[main_arg8] = V d[main_arg8] := ref_arg V _ (by decide)
theorem ref_arg9 (V : Valuation τ sig (Elt F)) : after (ops (F := F)) V d[main_arg9] = V d[main_arg9] := ref_arg V _ (by decide)

/-- The reference's result buffer holds the network of the ten argument arrays. -/
theorem ref_v271 (V : Valuation τ sig (Elt F)) :
    after (ops (F := F)) V d[main_v271]
      = netR (V d[main_arg0]) (V d[main_arg1]) (V d[main_arg2]) (V d[main_arg3]) (V d[main_arg4]) (V d[main_arg5])
          (V d[main_arg6]) (V d[main_arg7]) (V d[main_arg8]) (V d[main_arg9]) := by
  rw [ops_split, tail_val, l2_val, l1_val]
  rw [l1_keep _ main_v56 (by decide), l1_keep _ main_v1 (by decide), l1_keep _ main_v3 (by decide), l1_keep _ main_v45 (by decide)]
  rw [pre_v56, pre_v1, pre_v3, pre_v45]
  simp (disch := decide) only [tail_keep, l2_keep, l1_keep, pre_keep]
  rfl

end Cert.ReferenceIdeal.RHost

end
-- ==== Proof.lean ====
/-
  The certificate of a two-layer Chebyshev graph convolution: the kernel program computes each layer's five Chebyshev
  terms on the host, stacks them, and lets a blocked kernel accumulate the five products T_k · W_k over a grid axis,
  starting from zero; the reference adds the five products one after the other with host matrix products. Every other
  operation (degrees, edge weights, the diagonal, bias, the clamp at zero, mean pooling, the classifier) is the same on
  both sides. Over the extended reals the accumulated sum `0 + T₀W₀ + … + T₄W₄` and the reference's left-nested sum are
  the same sum, a matrix product into the zero accumulator and a host matrix product are the same sum over the
  contracted axis, the conversions to bf16 are the identity, and a column made from the diagonal by a reshape is the
  column made by a broadcast: so the two results are equal, with no use of finiteness.

  The three frames: the two kernel programs (the printed one at the word level, its idealization at the extended reals)
  run as eleven segments through the library's launch theorem for a list of segments, each region's body proved once per
  control case; the reference is a straight line of host operations. No ideal-pass rewrite was applied, so the
  idealization claim is trivial.
-/
import proofs.«402212_j24189255811803_4_alg».proof.Defs
import proofs.«402212_j24189255811803_4_alg».proof.Proof.KRun
import proofs.«402212_j24189255811803_4_alg».proof.Proof.BRun
import proofs.«402212_j24189255811803_4_alg».proof.Proof.KFinal
import proofs.«402212_j24189255811803_4_alg».proof.Proof.RHost
import proofs.«402212_j24189255811803_4_alg».proof.Proof.Net
import proofs.«402212_j24189255811803_4_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : @Cert.frame_Kernel Cert.Kernel.Gen.facts Cert.Pre_finite_inputs.Gen.facts := fun m ρ _ =>
  (θ_run (Cert.Kernel.defs (F := Bits)) _ _).mono
    (fun _ h c => ⟨h c 0, h c 1, h c 2, h c 3, h c 4, h c 5, h c 6, h c 7, h c 8, h c 9⟩)
    (Cert.Kernel.Hand.frame (F := Bits) m ρ)

/-- The same for its idealization. -/
theorem frame_ki : @Cert.frame_KernelIdeal Cert.KernelIdeal.Gen.facts Cert.Pre_finite_inputs.Gen.facts := fun m ρ _ =>
  (θ_run (Cert.KernelIdeal.defs (F := Ideal)) _ _).mono
    (fun _ h c => ⟨h c 0, h c 1, h c 2, h c 3, h c 4, h c 5, h c 6, h c 7, h c 8, h c 9⟩)
    (Cert.KernelIdeal.Hand.frame (F := Ideal) m ρ)

/-- The reference is a straight line of host operations none of which writes an argument. -/
theorem frame_ri : @Cert.frame_ReferenceIdeal Cert.ReferenceIdeal.Gen.facts Cert.Pre_finite_inputs.Gen.facts := fun m ρ _ =>
  (θ_run (Cert.ReferenceIdeal.defs (F := Ideal)) _ _).mono
    (fun _ h c => ⟨(h c _).trans (Cert.ReferenceIdeal.RHost.ref_arg0 _), (h c _).trans (Cert.ReferenceIdeal.RHost.ref_arg1 _),
      (h c _).trans (Cert.ReferenceIdeal.RHost.ref_arg2 _), (h c _).trans (Cert.ReferenceIdeal.RHost.ref_arg3 _),
      (h c _).trans (Cert.ReferenceIdeal.RHost.ref_arg4 _), (h c _).trans (Cert.ReferenceIdeal.RHost.ref_arg5 _),
      (h c _).trans (Cert.ReferenceIdeal.RHost.ref_arg6 _), (h c _).trans (Cert.ReferenceIdeal.RHost.ref_arg7 _),
      (h c _).trans (Cert.ReferenceIdeal.RHost.ref_arg8 _), (h c _).trans (Cert.ReferenceIdeal.RHost.ref_arg9 _)⟩)
    (Cert.ReferenceIdeal.RunP.run_after (F := Ideal) m ρ)

/-- Both idealized programs end at the same function of the arguments: the kernel's at its closed form (the regions'
    accumulated sums read back through the host stretches), the reference's at its own, and the two closed forms agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Spec.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono
      (fun _ h c => ⟨(h c Cert.KernelIdeal.main_v240 (by decide)).trans (Cert.KernelIdeal.Hand.W11_v240 m ρ c),
        (h c _ (by decide)).trans (Cert.KernelIdeal.Hand.W11_arg m ρ c 0), (h c _ (by decide)).trans (Cert.KernelIdeal.Hand.W11_arg m ρ c 1),
        (h c _ (by decide)).trans (Cert.KernelIdeal.Hand.W11_arg m ρ c 2), (h c _ (by decide)).trans (Cert.KernelIdeal.Hand.W11_arg m ρ c 3),
        (h c _ (by decide)).trans (Cert.KernelIdeal.Hand.W11_arg m ρ c 4), (h c _ (by decide)).trans (Cert.KernelIdeal.Hand.W11_arg m ρ c 5),
        (h c _ (by decide)).trans (Cert.KernelIdeal.Hand.W11_arg m ρ c 6), (h c _ (by decide)).trans (Cert.KernelIdeal.Hand.W11_arg m ρ c 7),
        (h c _ (by decide)).trans (Cert.KernelIdeal.Hand.W11_arg m ρ c 8), (h c _ (by decide)).trans (Cert.KernelIdeal.Hand.W11_arg m ρ c 9)⟩)
      (Cert.KernelIdeal.Hand.run_main (F := Ideal) m ρ)
  · refine (θ_run (Cert.ReferenceIdeal.defs (F := Ideal)) _ _).mono (fun _ h c => ⟨?_,
      (h c _).trans (Cert.ReferenceIdeal.RHost.ref_arg0 _), (h c _).trans (Cert.ReferenceIdeal.RHost.ref_arg1 _),
      (h c _).trans (Cert.ReferenceIdeal.RHost.ref_arg2 _), (h c _).trans (Cert.ReferenceIdeal.RHost.ref_arg3 _),
      (h c _).trans (Cert.ReferenceIdeal.RHost.ref_arg4 _), (h c _).trans (Cert.ReferenceIdeal.RHost.ref_arg5 _),
      (h c _).trans (Cert.ReferenceIdeal.RHost.ref_arg6 _), (h c _).trans (Cert.ReferenceIdeal.RHost.ref_arg7 _),
      (h c _).trans (Cert.ReferenceIdeal.RHost.ref_arg8 _), (h c _).trans (Cert.ReferenceIdeal.RHost.ref_arg9 _)⟩)
      (Cert.ReferenceIdeal.RunP.run_after (F := Ideal) m' ρ')
    refine (h c Cert.ReferenceIdeal.main_v271).trans ((Cert.ReferenceIdeal.RHost.ref_v271 _).trans ?_)
    obtain ⟨h0, h1, h2, h3, h4, h5, h6, h7, h8, h9⟩ := hagree c
    refine Eq.trans ?_ (Cert.KernelIdeal.Spec.net_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).symm
    rw [← h0, ← h1, ← h2, ← h3, ← h4, ← h5, ← h6, ← h7, ← h8, ← h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
